-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x32x1024 : Shape := ⟨3, ![512, 32, 1024]⟩
abbrev S1024x2048 : Shape := ⟨2, ![1024, 2048]⟩
abbrev S1024 : Shape := ⟨1, ![1024]⟩
abbrev S32000x1024 : Shape := ⟨2, ![32000, 1024]⟩
abbrev S32000 : Shape := ⟨1, ![32000]⟩
abbrev S4096 : Shape := ⟨1, ![4096]⟩
abbrev S_ : Shape := ⟨0, ![]⟩

class Facts : Prop where
  bcast_S_S512x32x1024 : S_.BroadcastsInDim S512x32x1024 (![] : Fin 0 → Fin S512x32x1024.rank)
  reducesTo_S512x32x1024_S_d0_1_2 : S512x32x1024.ReducesTo [0, 1, 2] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S32000x1024 : S_.BroadcastsInDim S32000x1024 (![] : Fin 0 → Fin S32000x1024.rank)
  reducesTo_S32000x1024_S_d0_1 : S32000x1024.ReducesTo [0, 1] S_
  bcast_S_S32000 : S_.BroadcastsInDim S32000 (![] : Fin 0 → Fin S32000.rank)
  reducesTo_S32000_S_d0 : S32000.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S32000 .f32) (main_arg8 : IVec S4096 32) (main_v13 : IVec S_ 1) (main_v16 : IVec S32000x1024 1) : IVec S_ 1 :=
  let main_c_5 : IVec S_ 1 := constantI S_ 1 1#1
  let main_v17 : IVec S_ 1 := (fun x v => Host.reduce IntOp.andi x v reducesTo_S32000x1024_S_d0_1 h_S_) main_v16 main_c_5
  let main_v18 : IVec S_ 1 := andi main_v13 main_v17
  let main_v19 : FVec F S32000 .f32 := Host.absf main_arg4
  let main_cst_6 : FVec F S_ .f32 := constant S_ .f32 0x7F800000#32
  let main_v20 : FVec F S32000 .f32 := broadcastInDim S32000 ![] bcast_S_S32000 main_cst_6
  let main_v21 : IVec S32000 1 := cmpf .olt main_v19 main_v20
  let main_c_7 : IVec S_ 1 := constantI S_ 1 1#1
  let main_v22 : IVec S_ 1 := (fun x v => Host.reduce IntOp.andi x v reducesTo_S32000_S_d0 h_S_) main_v21 main_c_7
  let main_v23 : IVec S_ 1 := andi main_v18 main_v22
  let main_c_8 : IVec S_ 32 := constantI S_ 32 0#32
  let main_v24 : IVec S4096 32 := broadcastInDim S4096 ![] bcast_S_S4096 main_c_8
  let main_v25 : IVec S4096 1 := cmpi .sge main_arg8 main_v24
  let main_c_9 : IVec S_ 32 := constantI S_ 32 32000#32
  let main_v26 : IVec S4096 32 := broadcastInDim S4096 ![] bcast_S_S4096 main_c_9
  let main_v27 : IVec S4096 1 := cmpi .slt main_arg8 main_v26
  let main_v28 : IVec S4096 1 := andi main_v25 main_v27
  let main_c_10 : IVec S_ 1 := constantI S_ 1 1#1
  let main_v29 : IVec S_ 1 := (fun x v => Host.reduce IntOp.andi x v reducesTo_S4096_S_d0 h_S_) main_v28 main_c_10
  let main_v30 : IVec S_ 1 := andi main_v23 main_v29
  main_v30

def fn {F : FTy → Type} [FloatOps F] (main_arg0 : FVec F S512x32x1024 .f32) (main_arg1 : FVec F S1024x2048 .f32) (main_arg2 : FVec F S1024 .f32) (main_arg3 : FVec F S32000x1024 .f32) (main_arg4 : FVec F S32000 .f32) (main_arg5 : IVec S4096 32) (main_arg6 : IVec S4096 32) (main_arg7 : IVec S4096 32) (main_arg8 : IVec S4096 32) : IVec S_ 1 :=
  let main_v0 : FVec F S512x32x1024 .f32 := Host.absf main_arg0
  let main_cst : FVec F S_ .f32 := constant S_ .f32 0x7F800000#32
  let main_v1 : FVec F S512x32x1024 .f32 := broadcastInDim S512x32x1024 ![] bcast_S_S512x32x1024 main_cst
  let main_v2 : IVec S512x32x1024 1 := cmpf .olt main_v0 main_v1
  let main_c : IVec S_ 1 := constantI S_ 1 1#1
  let main_v3 : IVec S_ 1 := (fun x v => Host.reduce IntOp.andi x v reducesTo_S512x32x1024_S_d0_1_2 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S32000x1024 .f32 := Host.absf main_arg3
  let main_cst_4 : FVec F S_ .f32 := constant S_ .f32 0x7F800000#32
  let main_v15 : FVec F S32000x1024 .f32 := broadcastInDim S32000x1024 ![] bcast_S_S32000x1024 main_cst_4
  let main_v16 : IVec S32000x1024 1 := cmpf .olt main_v14 main_v15
  fn_part1 (F := F) main_arg4 main_arg8 main_v13 main_v16
-- ==== Kernel.lean ====
abbrev S512x32x1024 : Shape := ⟨3, ![512, 32, 1024]⟩
abbrev S1024x2048 : Shape := ⟨2, ![1024, 2048]⟩
abbrev S1024 : Shape := ⟨1, ![1024]⟩
abbrev S32000x1024 : Shape := ⟨2, ![32000, 1024]⟩
abbrev S32000 : Shape := ⟨1, ![32000]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S4096x1024 : Shape := ⟨2, ![4096, 1024]⟩
abbrev S1024x1024 : Shape := ⟨2, ![1024, 1024]⟩
abbrev S1x1024 : Shape := ⟨2, ![1, 1024]⟩
abbrev S640x1024 : Shape := ⟨2, ![640, 1024]⟩
abbrev S1024x1 : Shape := ⟨2, ![1024, 1]⟩
abbrev S1024x640 : Shape := ⟨2, ![1024, 640]⟩

abbrev nBuf : Space → Nat
  | .hbm => 89
  | .vmem => 17
  | .smem => 0
  | _ => 0

abbrev bufTy : (tb : Table) → Fin (tcTables nBuf tb) → BufTy
  | .hbm, ⟨0, _⟩ => ⟨S512x32x1024, .f32⟩
  | .hbm, ⟨1, _⟩ => ⟨S1024x2048, .f32⟩
  | .hbm, ⟨2, _⟩ => ⟨S1024, .f32⟩
  | .hbm, ⟨3, _⟩ => ⟨S32000x1024, .f32⟩
  | .hbm, ⟨4, _⟩ => ⟨S32000, .f32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096x1, .i32⟩
  | .hbm, ⟨33, _⟩ => ⟨S4096x2, .i32⟩
  | .hbm, ⟨34, _⟩ => ⟨S4096x1024, .f32⟩
  | .hbm, ⟨35, _⟩ => ⟨S4096x1024, .bf16⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S4096x1, .i32⟩
  | .hbm, ⟨51, _⟩ => ⟨S4096x1, .i32⟩
  | .hbm, ⟨52, _⟩ => ⟨S4096x2, .i32⟩
  | .hbm, ⟨53, _⟩ => ⟨S4096x1024, .f32⟩
  | .hbm, ⟨54, _⟩ => ⟨S4096x1024, .bf16⟩
  | .hbm, ⟨55, _⟩ => ⟨S1024x1024, .f32⟩
  | .hbm, ⟨56, _⟩ => ⟨S1024x1024, .bf16⟩
  | .hbm, ⟨57, _⟩ => ⟨S1024x1024, .f32⟩
  | .hbm, ⟨58, _⟩ => ⟨S1024x1024, .bf16⟩
  | .hbm, ⟨59, _⟩ => ⟨S1x1024, .f32⟩
  | .hbm, ⟨60, _⟩ => ⟨S32000x1024, .bf16⟩
  | .hbm, ⟨61, _⟩ => ⟨S_, .i32⟩
  | .hbm, ⟨62, _⟩ => ⟨S4096, .i32⟩
  | .hbm, ⟨63, _⟩ => ⟨S4096, .i1⟩
  | .hbm, ⟨64, _⟩ => ⟨S_, .i32⟩
  | .hbm, ⟨65, _⟩ => ⟨S4096, .i32⟩
  | .hbm, ⟨66, _⟩ => ⟨S4096, .i32⟩
  | .hbm, ⟨67, _⟩ => ⟨S4096, .i32⟩
  | .hbm, ⟨68, _⟩ => ⟨S4096x1, .i32⟩
  | .hbm, ⟨69, _⟩ => ⟨S4096x1024, .bf16⟩
  | .hbm, ⟨70, _⟩ => ⟨S4096x1, .f32⟩
  | .hbm, ⟨71, _⟩ => ⟨S4096, .f32⟩
  | .hbm, ⟨72, _⟩ => ⟨S_, .i32⟩
  | .hbm, ⟨73, _⟩ => ⟨S4096, .i32⟩
  | .hbm, ⟨74, _⟩ => ⟨S4096, .i1⟩
  | .hbm, ⟨75, _⟩ => ⟨S_, .i32⟩
  | .hbm, ⟨76, _⟩ => ⟨S4096, .i32⟩
  | .hbm, ⟨77, _⟩ => ⟨S4096, .i32⟩
  | .hbm, ⟨78, _⟩ => ⟨S4096, .i32⟩
  | .hbm, ⟨79, _⟩ => ⟨S4096x1, .i32⟩
  | .hbm, ⟨80, _⟩ => ⟨S4096, .f32⟩
  | .hbm, ⟨81, _⟩ => ⟨S_, .f32⟩
  | .hbm, ⟨82, _⟩ => ⟨S4096, .f32⟩
  | .hbm, ⟨83, _⟩ => ⟨S4096, .f32⟩
  | .hbm, ⟨84, _⟩ => ⟨S4096, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S640x1024, .bf16⟩
  | .local _ .vmem, ⟨8, _⟩ => ⟨S640x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1, .f32⟩
  | .local _ .vmem, ⟨12, _⟩ => ⟨S1024x1, .f32⟩
  | .local _ .vmem, ⟨13, _⟩ => ⟨S1024x1024, .bf16⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | _, _ => ⟨S512x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v0 : Ref sig .tc := ⟨.hbm, 16, rfl⟩
abbrev main_c_1 : Ref sig .tc := ⟨.hbm, 17, rfl⟩
abbrev main_v1 : Ref sig .tc := ⟨.hbm, 18, rfl⟩
abbrev main_v2 : Ref sig .tc := ⟨.hbm, 19, rfl⟩
abbrev main_c_2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c_3 : Ref sig .tc := ⟨.hbm, 24, rfl⟩
abbrev main_v6 : Ref sig .tc := ⟨.hbm, 25, rfl⟩
abbrev main_v7 : Ref sig .tc := ⟨.hbm, 26, rfl⟩
abbrev main_c_4 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_5 : Ref sig .tc := ⟨.hbm, 36, rfl⟩
abbrev main_v16 : Ref sig .tc := ⟨.hbm, 37, rfl⟩
abbrev main_v17 : Ref sig .tc := ⟨.hbm, 38, rfl⟩
abbrev main_c_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_7 : Ref sig .tc := ⟨.hbm, 43, rfl⟩
abbrev main_v21 : Ref sig .tc := ⟨.hbm, 44, rfl⟩
abbrev main_v22 : Ref sig .tc := ⟨.hbm, 45, rfl⟩
abbrev main_c_8 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_9 : Ref sig .tc := ⟨.hbm, 61, rfl⟩
abbrev main_v37 : Ref sig .tc := ⟨.hbm, 62, rfl⟩
abbrev main_v38 : Ref sig .tc := ⟨.hbm, 63, rfl⟩
abbrev main_c_10 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_11 : Ref sig .tc := ⟨.hbm, 72, rfl⟩
abbrev main_v46 : Ref sig .tc := ⟨.hbm, 73, rfl⟩
abbrev main_v47 : Ref sig .tc := ⟨.hbm, 74, rfl⟩
abbrev main_c_12 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_13 : Ref sig .tc := ⟨.hbm, 85, rfl⟩
abbrev main_v56 : Ref sig .tc := ⟨.hbm, 86, rfl⟩
abbrev main_cst_14 : Ref sig .tc := ⟨.hbm, 87, rfl⟩
abbrev main_v57 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 50], ![false, false]⟩

def k0_cond2 (i : grid0.Coords) : BitVec 1 :=
  let arg1 : BitVec 32 := BitVec.ofNat 32 (i 1).val
  let c49_i32 : BitVec 32 := 49#32
  let v27 : BitVec 1 := Scalar.cmpi .eq arg1 c49_i32
  let v28 : BitVec 32 := Scalar.extui v27
  let c0_i32_14 : BitVec 32 := 0#32
  let v29 : BitVec 1 := Scalar.cmpi .ne v28 c0_i32_14
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S640x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  bitsLt_bf16_f32 : FTy.bits .bf16 < FTy.bits .f32
  slices_S1024x2048_S1024x1024_0_0 : S1024x2048.Slices ![0, 0] S1024x1024
  slices_S1024x2048_S1024x1024_0_1024 : S1024x2048.Slices ![0, 1024] S1024x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1024_S1024 : S1024x1024.Reduces [1] S1024
  shapeCasts_S1024_S1024x1 : S1024.ShapeCasts S1024x1
  inb_S640x1024_S640x1024_0_0 : ∀ a, (![0, 0] : Fin 2 → Nat) a + S640x1024.size a ≤ S640x1024.size a
  h_S640x1024 : 0 < S640x1024.numel
  shapeCasts_S640x1024_S640x1024 : S640x1024.ShapeCasts S640x1024
  reduces_S1024x640_S1024 : S1024x640.Reduces [1] S1024
  broadcasts_S1024x1_S1024x640 : S1024x1.Broadcasts S1024x640
  shapeCasts_S4096x1_S4096 : S4096x1.ShapeCasts S4096
  reducesTo_S4096_S_d0 : S4096.ReducesTo [0] S_
  h_S_ : 0 < S_.numel
  gather_S512x32x1024_S4096x2_S4096x1024_1_01_n_n_01_1_111024_wf : GatherDims.WF S512x32x1024 S4096x2 S4096x1024 [1] [0, 1] [] [0, 1] [] 1 ![1, 1, 1024]
  gather_S32000x1024_S4096x1_S4096x1024_1_0_n_n_0_1_11024_wf : GatherDims.WF S32000x1024 S4096x1 S4096x1024 [1] [0] [] [0] [] 1 ![1, 1024]
  dot_S1024x1024_S1024x1024_S1024x1024_1_1_0_0_n_n_wf : DotDims.WF S1024x1024 S1024x1024 S1024x1024 [1] [1] [0] [0] [] []
  dot_S1024x1024_S640x1024_S1024x640_1_1_0_0_n_n_wf : DotDims.WF S1024x1024 S640x1024 S1024x640 [1] [1] [0] [0] [] []
  gather_S32000_S4096x1_S4096_n_0_n_n_0_1_1_wf : GatherDims.WF S32000 S4096x1 S4096 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .bf16 = 32 ∨ (Rect.block (s := S4096x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S640x1024.size a ≤ S32000x1024.size a
  hwx0_5 : ∀ i : grid0.Coords, EltTy.bits .bf16 = 32 ∨ (Rect.block (s := S32000x1024) S640x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S4096x1024.size a
  hwx0_6 : ∀ i : grid0.Coords, EltTy.bits .bf16 = 32 ∨ (Rect.block (s := S4096x1024) S1024x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S4096x1.size a
  hwx0_7 : ∀ i : grid0.Coords, EltTy.bits .f32 = 32 ∨ (Rect.block (s := S4096x1) S1024x1.size (cc0_transform_7 i) (hinb0_7 i)).WholeWords (EltTy.packing .f32)

variable [Facts₀]

def gather_S512x32x1024_S4096x2_S4096x1024_1_01_n_n_01_1_111024 : GatherDims S512x32x1024 S4096x2 S4096x1024 where
  offsetDims := [1]
  collapsedSliceDims := [0, 1]
  operandBatchingDims := []
  startIndicesBatchingDims := []
  startIndexMap := [0, 1]
  indexVectorDim := 1
  sliceSizes := ![1, 1, 1024]
  wf := gather_S512x32x1024_S4096x2_S4096x1024_1_01_n_n_01_1_111024_wf
def gather_S32000x1024_S4096x1_S4096x1024_1_0_n_n_0_1_11024 : GatherDims S32000x1024 S4096x1 S4096x1024 where
  offsetDims := [1]
  collapsedSliceDims := [0]
  operandBatchingDims := []
  startIndicesBatchingDims := []
  startIndexMap := [0]
  indexVectorDim := 1
  sliceSizes := ![1, 1024]
  wf := gather_S32000x1024_S4096x1_S4096x1024_1_0_n_n_0_1_11024_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S640x1024_S1024x640_1_1_0_0_n_n : DotDims S1024x1024 S640x1024 S1024x640 where
  lhsContracting := [1]
  rhsContracting := [1]
  lhsNonContracting := [0]
  rhsNonContracting := [0]
  lhsBatch := []
  rhsBatch := []
  wf := dot_S1024x1024_S640x1024_S1024x640_1_1_0_0_n_n_wf
def gather_S32000_S4096x1_S4096_n_0_n_n_0_1_1 : GatherDims S32000 S4096x1 S4096 where
  offsetDims := []
  collapsedSliceDims := [0]
  operandBatchingDims := []
  startIndicesBatchingDims := []
  startIndexMap := [0]
  indexVectorDim := 1
  sliceSizes := ![1]
  wf := gather_S32000_S4096x1_S4096_n_0_n_n_0_1_1_wf

abbrev win0_0 : Pipeline.Window sig grid0 :=
  Pipeline.Window.ofSpec (Memref.whole main_v15) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S640x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v43) S1024x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v44) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S512x32x1024 : Shape := ⟨3, ![512, 32, 1024]⟩
abbrev S1024x2048 : Shape := ⟨2, ![1024, 2048]⟩
abbrev S1024 : Shape := ⟨1, ![1024]⟩
abbrev S32000x1024 : Shape := ⟨2, ![32000, 1024]⟩
abbrev S32000 : Shape := ⟨1, ![32000]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S4096x1024 : Shape := ⟨2, ![4096, 1024]⟩
abbrev S4096x2048 : Shape := ⟨2, ![4096, 2048]⟩
abbrev S2048x1024 : Shape := ⟨2, ![2048, 1024]⟩
abbrev S1x1024 : Shape := ⟨2, ![1, 1024]⟩
abbrev S1024x32000 : Shape := ⟨2, ![1024, 32000]⟩
abbrev S4096x32000 : Shape := ⟨2, ![4096, 32000]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 111
  | .vmem => 0
  | .smem => 0
  | _ => 0

abbrev bufTy : (tb : Table) → Fin (tcTables nBuf tb) → BufTy
  | .hbm, ⟨0, _⟩ => ⟨S512x32x1024, .f32⟩
  | .hbm, ⟨1, _⟩ => ⟨S1024x2048, .f32⟩
  | .hbm, ⟨2, _⟩ => ⟨S1024, .f32⟩
  | .hbm, ⟨3, _⟩ => ⟨S32000x1024, .f32⟩
  | .hbm, ⟨4, _⟩ => ⟨S32000, .f32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S4096x1, .i32⟩
  | .hbm, ⟨24, _⟩ => ⟨S4096x1, .i32⟩
  | .hbm, ⟨25, _⟩ => ⟨S4096x2, .i32⟩
  | .hbm, ⟨26, _⟩ => ⟨S4096x1024, .f32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S4096x1, .i32⟩
  | .hbm, ⟨42, _⟩ => ⟨S4096x1, .i32⟩
  | .hbm, ⟨43, _⟩ => ⟨S4096x2, .i32⟩
  | .hbm, ⟨44, _⟩ => ⟨S4096x1024, .f32⟩
  | .hbm, ⟨45, _⟩ => ⟨S4096x2048, .f32⟩
  | .hbm, ⟨46, _⟩ => ⟨S2048x1024, .f32⟩
  | .hbm, ⟨47, _⟩ => ⟨S4096x1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S1024x32000, .f32⟩
  | .hbm, ⟨53, _⟩ => ⟨S4096x32000, .f32⟩
  | .hbm, ⟨54, _⟩ => ⟨S_, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S4096x1, .f32⟩
  | .hbm, ⟨60, _⟩ => ⟨S4096x32000, .f32⟩
  | .hbm, ⟨61, _⟩ => ⟨S4096x32000, .f32⟩
  | .hbm, ⟨62, _⟩ => ⟨S4096x32000, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x1, .f32⟩
  | .hbm, ⟨67, _⟩ => ⟨S4096x32000, .f32⟩
  | .hbm, ⟨68, _⟩ => ⟨S4096x32000, .f32⟩
  | .hbm, ⟨69, _⟩ => ⟨S4096x1, .i32⟩
  | .hbm, ⟨70, _⟩ => ⟨S_, .i32⟩
  | .hbm, ⟨71, _⟩ => ⟨S4096x1, .i32⟩
  | .hbm, ⟨72, _⟩ => ⟨S4096x1, .i1⟩
  | .hbm, ⟨73, _⟩ => ⟨S_, .i32⟩
  | .hbm, ⟨74, _⟩ => ⟨S4096x1, .i32⟩
  | .hbm, ⟨75, _⟩ => ⟨S4096x1, .i32⟩
  | .hbm, ⟨76, _⟩ => ⟨S4096x1, .i32⟩
  | .hbm, ⟨77, _⟩ => ⟨S4096x1x1, .i32⟩
  | .hbm, ⟨78, _⟩ => ⟨S1, .i32⟩
  | .hbm, ⟨79, _⟩ => ⟨S_, .i32⟩
  | .hbm, ⟨80, _⟩ => ⟨S4096x1x1, .i32⟩
  | .hbm, ⟨81, _⟩ => ⟨S4096x1x1, .i1⟩
  | .hbm, ⟨82, _⟩ => ⟨S1x1x1, .i32⟩
  | .hbm, ⟨83, _⟩ => ⟨S4096x1x1, .i32⟩
  | .hbm, ⟨84, _⟩ => ⟨S4096x1x1, .i1⟩
  | .hbm, ⟨85, _⟩ => ⟨S4096x1x1, .i1⟩
  | .hbm, ⟨86, _⟩ => ⟨S_, .i1⟩
  | .hbm, ⟨87, _⟩ => ⟨S4096x1, .i1⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S4096, .f32⟩
  | .hbm, ⟨93, _⟩ => ⟨S4096, .f32⟩
  | .hbm, ⟨94, _⟩ => ⟨S_, .i32⟩
  | .hbm, ⟨95, _⟩ => ⟨S4096, .i32⟩
  | .hbm, ⟨96, _⟩ => ⟨S4096, .i1⟩
  | .hbm, ⟨97, _⟩ => ⟨S_, .i32⟩
  | .hbm, ⟨98, _⟩ => ⟨S4096, .i32⟩
  | .hbm, ⟨99, _⟩ => ⟨S4096, .i32⟩
  | .hbm, ⟨100, _⟩ => ⟨S4096, .i32⟩
  | .hbm, ⟨101, _⟩ => ⟨S4096x1, .i32⟩
  | .hbm, ⟨102, _⟩ => ⟨S4096, .f32⟩
  | .hbm, ⟨103, _⟩ => ⟨S_, .f32⟩
  | .hbm, ⟨104, _⟩ => ⟨S4096, .f32⟩
  | .hbm, ⟨105, _⟩ => ⟨S4096, .f32⟩
  | .hbm, ⟨106, _⟩ => ⟨S4096, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | _, _ => ⟨S512x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_v6 : Ref sig .tc := ⟨.hbm, 18, rfl⟩
abbrev main_c_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_5 : Ref sig .tc := ⟨.hbm, 34, rfl⟩
abbrev main_v19 : Ref sig .tc := ⟨.hbm, 35, rfl⟩
abbrev main_v20 : Ref sig .tc := ⟨.hbm, 36, rfl⟩
abbrev main_c_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call0_cst : Ref sig .tc := ⟨.hbm, 54, rfl⟩
abbrev main_call0_v0 : Ref sig .tc := ⟨.hbm, 55, rfl⟩
abbrev main_call0_cst_0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_cst_1 : Ref sig .tc := ⟨.hbm, 63, rfl⟩
abbrev main_call0_v7 : Ref sig .tc := ⟨.hbm, 64, rfl⟩
abbrev main_call0_v8 : Ref sig .tc := ⟨.hbm, 65, rfl⟩
abbrev main_call0_v9 : Ref sig .tc := ⟨.hbm, 66, rfl⟩
abbrev main_call0_v10 : Ref sig .tc := ⟨.hbm, 67, rfl⟩
abbrev main_v37 : Ref sig .tc := ⟨.hbm, 68, rfl⟩
abbrev main_v38 : Ref sig .tc := ⟨.hbm, 69, rfl⟩
abbrev main_call1_c : Ref sig .tc := ⟨.hbm, 70, rfl⟩
abbrev main_call1_v0 : Ref sig .tc := ⟨.hbm, 71, rfl⟩
abbrev main_call1_v1 : Ref sig .tc := ⟨.hbm, 72, rfl⟩
abbrev main_call1_c_0 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_c_1 : Ref sig .tc := ⟨.hbm, 78, rfl⟩
abbrev main_call1_c_2 : Ref sig .tc := ⟨.hbm, 79, rfl⟩
abbrev main_call1_v6 : Ref sig .tc := ⟨.hbm, 80, rfl⟩
abbrev main_call1_v7 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_c_3 : Ref sig .tc := ⟨.hbm, 86, rfl⟩
abbrev main_call1_v12 : Ref sig .tc := ⟨.hbm, 87, rfl⟩
abbrev main_call1_v13 : Ref sig .tc := ⟨.hbm, 88, rfl⟩
abbrev main_call1_cst : Ref sig .tc := ⟨.hbm, 89, rfl⟩
abbrev main_call1_v14 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_c_7 : Ref sig .tc := ⟨.hbm, 94, rfl⟩
abbrev main_v42 : Ref sig .tc := ⟨.hbm, 95, rfl⟩
abbrev main_v43 : Ref sig .tc := ⟨.hbm, 96, rfl⟩
abbrev main_c_8 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_cst : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_cst_9 : Ref sig .tc := ⟨.hbm, 107, rfl⟩
abbrev main_v52 : Ref sig .tc := ⟨.hbm, 108, rfl⟩
abbrev main_cst_10 : Ref sig .tc := ⟨.hbm, 109, rfl⟩
abbrev main_v53 : Ref sig .tc := ⟨.hbm, 110, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  concatenates_S4096x1024_S4096x1024_S4096x2048_d1 : Shape.Concatenates [S4096x1024, S4096x1024] S4096x2048 1
  transposes_S1024x2048_S2048x1024_1_0 : S1024x2048.Transposes [1, 0] S2048x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S32000x1024_S1024x32000_1_0 : S32000x1024.Transposes [1, 0] S1024x32000
  reducesTo_S4096x32000_S4096_d1 : S4096x32000.ReducesTo [1] S4096
  h_S_ : 0 < S_.numel
  bcast_S4096x1_S4096x32000_0_1 : S4096x1.BroadcastsInDim S4096x32000 (![0, 1] : Fin 2 → Fin S4096x32000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  gather_S512x32x1024_S4096x2_S4096x1024_1_01_n_n_01_1_111024_wf : GatherDims.WF S512x32x1024 S4096x2 S4096x1024 [1] [0, 1] [] [0, 1] [] 1 ![1, 1, 1024]
  dot_S4096x2048_S2048x1024_S4096x1024_1_0_0_1_n_n_wf : DotDims.WF S4096x2048 S2048x1024 S4096x1024 [1] [0] [0] [1] [] []
  dot_S4096x1024_S1024x32000_S4096x32000_1_0_0_1_n_n_wf : DotDims.WF S4096x1024 S1024x32000 S4096x32000 [1] [0] [0] [1] [] []
  gather_S4096x32000_S4096x1x1_S4096x1_n_1_0_0_1_2_11_wf : GatherDims.WF S4096x32000 S4096x1x1 S4096x1 [] [1] [0] [1] [0] 2 ![1, 1]
  gather_S32000_S4096x1_S4096_n_0_n_n_0_1_1_wf : GatherDims.WF S32000 S4096x1 S4096 [] [0] [] [0] [] 1 ![1]

variable [Facts₀]

def gather_S512x32x1024_S4096x2_S4096x1024_1_01_n_n_01_1_111024 : GatherDims S512x32x1024 S4096x2 S4096x1024 where
  offsetDims := [1]
  collapsedSliceDims := [0, 1]
  operandBatchingDims := []
  startIndicesBatchingDims := []
  startIndexMap := [0, 1]
  indexVectorDim := 1
  sliceSizes := ![1, 1, 1024]
  wf := gather_S512x32x1024_S4096x2_S4096x1024_1_01_n_n_01_1_111024_wf
def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf
def dot_S4096x1024_S1024x32000_S4096x32000_1_0_0_1_n_n : DotDims S4096x1024 S1024x32000 S4096x32000 where
  lhsContracting := [1]
  rhsContracting := [0]
  lhsNonContracting := [0]
  rhsNonContracting := [1]
  lhsBatch := []
  rhsBatch := []
  wf := dot_S4096x1024_S1024x32000_S4096x32000_1_0_0_1_n_n_wf
def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf
def gather_S32000_S4096x1_S4096_n_0_n_n_0_1_1 : GatherDims S32000 S4096x1 S4096 where
  offsetDims := []
  collapsedSliceDims := [0]
  operandBatchingDims := []
  startIndicesBatchingDims := []
  startIndexMap := [0]
  indexVectorDim := 1
  sliceSizes := ![1]
  wf := gather_S32000_S4096x1_S4096_n_0_n_n_0_1_1_wf

class Facts : Prop extends Facts₀ where

variable [Facts]
-- ==== Proof.KPieces.lean ====
/-
  What each control case of the kernel body leaves in the carried scratch buffers and in the output, as VALUES.

  The body runs once per grid point, in one of three control cases: A (the first tile of a row block: the branch that
  resets the scratch is taken), B (a middle tile), C (the last tile: the branch that stores the output is taken). The
  generated frame certificate names what a case leaves in a buffer as the pieces its stores wrote, read back over
  arbitrary earlier contents. Every store of this body covers its whole buffer through the rectangle at zero offsets, and
  every load reads a whole buffer, so what remains is the payload of the LAST store, and a load that follows a store in
  the same run reads that store's payload. Each lemma below states one such remainder as the body's payload term over the
  input blocks `x·` and, in cases B and C, over the contents `xs·` the point before left in the scratch:

    case A   arg10 := k0_pay8 x0 x1 x2 x3 x4
             arg11 := k0_pay5 (that) x5 k0_pay9                 (the reset k0_pay9, read back by the update)
             arg12 := k0_pay4 (that) x5 k0_pay9 k0_pay10        (the resets of arg11 and arg12, read back)
             arg13 := k0_pay1 (k0_pay11 x0 x1 x2 x3 x4 x6)
    case B   arg11 := k0_pay5 xs0 x5 xs1,   arg12 := k0_pay4 xs0 x5 xs1 xs2    (arg10 and arg13 are left as they were)
    case C   the same two updates, and the output := k0_pay6 of the two updates read back and of xs3.

  All nine hold at any float model `F`.
-/
import proofs.«420658_j82386062672565_2_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The literal zero offsets of a rank-2 rectangle are the constant-zero offsets. -/
theorem hz : (![0, 0] : Fin 2 → Nat) = fun _ => 0 := funext fun a => by fin_cases a <;> rfl

/-- CASE A, scratch `arg10`: the one covering store leaves the payload `k0_pay8` of the five input blocks it loads whole. -/
theorem sout0_A_0_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S640x1024 .bf16) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1024 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : cond0_0 i) (hc1 : ¬cond0_1 i)
    (x0 : Vec F S1024x1024 .bf16) (x1 : Vec F S1024x1024 .bf16) (x2 : Vec F S1024x1024 .bf16) (x3 : Vec F S1024x1024 .bf16) (x4 : Vec F S1x1024 .f32) (x5 : Vec F S640x1024 .bf16) (x6 : Vec F S1024x1024 .bf16) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = k0_pay8 x0 x1 x2 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_unit_zero (S := S1024x1024) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x1024) hz, View.ld_unit_zero (S := S1x1024) hz, View.ld_unit_zero (S := S640x1024) hz, View.ld_unit_zero (S := S1024x1) hz, View.readCov_unit_zero (S := S1024x1024) _ hz, View.readCov_unit_zero (S := S1024x1) _ hz]

/-- CASE A, scratch `arg11`: the reset stores `k0_pay9`, then the update stores `k0_pay5` of what `arg10` was just left
    holding, the block `x5`, and the reset read back; the later store covers, so it is what remains. -/
theorem sout0_A_1_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S640x1024 .bf16) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1024 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : cond0_0 i) (hc1 : ¬cond0_1 i)
    (x0 : Vec F S1024x1024 .bf16) (x1 : Vec F S1024x1024 .bf16) (x2 : Vec F S1024x1024 .bf16) (x3 : Vec F S1024x1024 .bf16) (x4 : Vec F S1x1024 .f32) (x5 : Vec F S640x1024 .bf16) (x6 : Vec F S1024x1024 .bf16) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = k0_pay5 (k0_pay8 x0 x1 x2 x3 x4) x5 (k0_pay9 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_cons_unit_zero (S := S1024x1) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x1024) hz, View.ld_unit_zero (S := S1x1024) hz, View.ld_unit_zero (S := S640x1024) hz, View.ld_unit_zero (S := S1024x1) hz, View.readCov_unit_zero (S := S1024x1024) _ hz, View.readCov_unit_zero (S := S1024x1) _ hz]

/-- CASE A, scratch `arg12`: the reset stores `k0_pay10`, then the update stores `k0_pay4` of what `arg10` holds, `x5`, and
    the two resets read back (`arg11`'s is read before its own update); the later store covers. -/
theorem sout0_A_2_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S640x1024 .bf16) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1024 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : cond0_0 i) (hc1 : ¬cond0_1 i)
    (x0 : Vec F S1024x1024 .bf16) (x1 : Vec F S1024x1024 .bf16) (x2 : Vec F S1024x1024 .bf16) (x3 : Vec F S1024x1024 .bf16) (x4 : Vec F S1x1024 .f32) (x5 : Vec F S640x1024 .bf16) (x6 : Vec F S1024x1024 .bf16) :
    sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = k0_pay4 (k0_pay8 x0 x1 x2 x3 x4) x5 (k0_pay9 (F := F)) (k0_pay10 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_cons_unit_zero (S := S1024x1) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x1024) hz, View.ld_unit_zero (S := S1x1024) hz, View.ld_unit_zero (S := S640x1024) hz, View.ld_unit_zero (S := S1024x1) hz, View.readCov_unit_zero (S := S1024x1024) _ hz, View.readCov_unit_zero (S := S1024x1) _ hz]

/-- CASE A, scratch `arg13`: the one covering store leaves `k0_pay1` of the value `k0_pay11` the reset part returns. -/
theorem sout0_A_3_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S640x1024 .bf16) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1024 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : cond0_0 i) (hc1 : ¬cond0_1 i)
    (x0 : Vec F S1024x1024 .bf16) (x1 : Vec F S1024x1024 .bf16) (x2 : Vec F S1024x1024 .bf16) (x3 : Vec F S1024x1024 .bf16) (x4 : Vec F S1x1024 .f32) (x5 : Vec F S640x1024 .bf16) (x6 : Vec F S1024x1024 .bf16) :
    sout0_A_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = k0_pay1 (k0_pay11 x0 x1 x2 x3 x4 x6) := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_unit_zero (S := S1024x1) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x1024) hz, View.ld_unit_zero (S := S1x1024) hz, View.ld_unit_zero (S := S640x1024) hz, View.ld_unit_zero (S := S1024x1) hz, View.readCov_unit_zero (S := S1024x1024) _ hz, View.readCov_unit_zero (S := S1024x1) _ hz]

/-- CASE B, scratch `arg11`: the one covering store leaves `k0_pay5` of the carried `arg10`, the block `x5` and the carried `arg11`. -/
theorem sout0_B_1_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S640x1024 .bf16) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1024 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : ¬cond0_0 i) (hc1 : ¬cond0_1 i)
    (x0 : Vec F S1024x1024 .bf16) (x1 : Vec F S1024x1024 .bf16) (x2 : Vec F S1024x1024 .bf16) (x3 : Vec F S1024x1024 .bf16) (x4 : Vec F S1x1024 .f32) (x5 : Vec F S640x1024 .bf16) (x6 : Vec F S1024x1024 .bf16) (xs0 : Vec F S1024x1024 .bf16) (xs1 : Vec F S1024x1 .f32) (xs2 : Vec F S1024x1 .f32) (xs3 : Vec F S1024x1 .f32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3 = k0_pay5 xs0 x5 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3)]
  unfold kernelRun0_B
  dsimp only
  sl_unfold_words
  rw [View.canon_unit_zero (S := S1024x1) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x1024) hz, View.ld_unit_zero (S := S1x1024) hz, View.ld_unit_zero (S := S640x1024) hz, View.ld_unit_zero (S := S1024x1) hz, View.readCov_unit_zero (S := S1024x1024) _ hz, View.readCov_unit_zero (S := S1024x1) _ hz]

/-- CASE B, scratch `arg12`: the one covering store leaves `k0_pay4` of the carried `arg10`, `x5`, and the carried `arg11`, `arg12`
    (both read before either is stored). -/
theorem sout0_B_2_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S640x1024 .bf16) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1024 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : ¬cond0_0 i) (hc1 : ¬cond0_1 i)
    (x0 : Vec F S1024x1024 .bf16) (x1 : Vec F S1024x1024 .bf16) (x2 : Vec F S1024x1024 .bf16) (x3 : Vec F S1024x1024 .bf16) (x4 : Vec F S1x1024 .f32) (x5 : Vec F S640x1024 .bf16) (x6 : Vec F S1024x1024 .bf16) (xs0 : Vec F S1024x1024 .bf16) (xs1 : Vec F S1024x1 .f32) (xs2 : Vec F S1024x1 .f32) (xs3 : Vec F S1024x1 .f32) :
    sout0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3 = k0_pay4 xs0 x5 xs1 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3)]
  unfold kernelRun0_B
  dsimp only
  sl_unfold_words
  rw [View.canon_unit_zero (S := S1024x1) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x1024) hz, View.ld_unit_zero (S := S1x1024) hz, View.ld_unit_zero (S := S640x1024) hz, View.ld_unit_zero (S := S1024x1) hz, View.readCov_unit_zero (S := S1024x1024) _ hz, View.readCov_unit_zero (S := S1024x1) _ hz]

/-- CASE C, scratch `arg11`: as in case B. -/
theorem sout0_C_1_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S640x1024 .bf16) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1024 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : ¬cond0_0 i) (hc1 : cond0_1 i)
    (x0 : Vec F S1024x1024 .bf16) (x1 : Vec F S1024x1024 .bf16) (x2 : Vec F S1024x1024 .bf16) (x3 : Vec F S1024x1024 .bf16) (x4 : Vec F S1x1024 .f32) (x5 : Vec F S640x1024 .bf16) (x6 : Vec F S1024x1024 .bf16) (xs0 : Vec F S1024x1024 .bf16) (xs1 : Vec F S1024x1 .f32) (xs2 : Vec F S1024x1 .f32) (xs3 : Vec F S1024x1 .f32) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3 = k0_pay5 xs0 x5 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3)]
  unfold kernelRun0_C
  dsimp only
  sl_unfold_words
  rw [View.canon_unit_zero (S := S1024x1) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x1024) hz, View.ld_unit_zero (S := S1x1024) hz, View.ld_unit_zero (S := S640x1024) hz, View.ld_unit_zero (S := S1024x1) hz, View.readCov_unit_zero (S := S1024x1024) _ hz, View.readCov_unit_zero (S := S1024x1) _ hz]

/-- CASE C, scratch `arg12`: as in case B. -/
theorem sout0_C_2_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S640x1024 .bf16) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1024 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : ¬cond0_0 i) (hc1 : cond0_1 i)
    (x0 : Vec F S1024x1024 .bf16) (x1 : Vec F S1024x1024 .bf16) (x2 : Vec F S1024x1024 .bf16) (x3 : Vec F S1024x1024 .bf16) (x4 : Vec F S1x1024 .f32) (x5 : Vec F S640x1024 .bf16) (x6 : Vec F S1024x1024 .bf16) (xs0 : Vec F S1024x1024 .bf16) (xs1 : Vec F S1024x1 .f32) (xs2 : Vec F S1024x1 .f32) (xs3 : Vec F S1024x1 .f32) :
    sout0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3 = k0_pay4 xs0 x5 xs1 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3)]
  unfold kernelRun0_C
  dsimp only
  sl_unfold_words
  rw [View.canon_unit_zero (S := S1024x1) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x1024) hz, View.ld_unit_zero (S := S1x1024) hz, View.ld_unit_zero (S := S640x1024) hz, View.ld_unit_zero (S := S1024x1) hz, View.readCov_unit_zero (S := S1024x1024) _ hz, View.readCov_unit_zero (S := S1024x1) _ hz]

/-- CASE C, output 7: the one covering store leaves `k0_pay6` of the two updates read back from `arg11` and `arg12` and of the
    carried `arg13`. -/
theorem out0_C_7_eq (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S640x1024 .bf16) (harg7 : arg7.IsWhole) (arg8 : Memref sig .tc .vmem S1024x1024 .bf16) (harg8 : arg8.IsWhole) (arg9 : Memref sig .tc .vmem S1024x1 .f32) (harg9 : arg9.IsWhole) (arg10 : Memref sig .tc .vmem S1024x1024 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (hc0 : ¬cond0_0 i) (hc1 : cond0_1 i)
    (x0 : Vec F S1024x1024 .bf16) (x1 : Vec F S1024x1024 .bf16) (x2 : Vec F S1024x1024 .bf16) (x3 : Vec F S1024x1024 .bf16) (x4 : Vec F S1x1024 .f32) (x5 : Vec F S640x1024 .bf16) (x6 : Vec F S1024x1024 .bf16) (xs0 : Vec F S1024x1024 .bf16) (xs1 : Vec F S1024x1 .f32) (xs2 : Vec F S1024x1 .f32) (xs3 : Vec F S1024x1 .f32) :
    out0_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3 = k0_pay6 (k0_pay5 xs0 x5 xs1) (k0_pay4 xs0 x5 xs1 xs2) xs3 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 xs3)]
  unfold kernelRun0_C
  dsimp only
  sl_unfold_words
  rw [View.canon_unit_zero (S := S1024x1) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x1024) hz, View.ld_unit_zero (S := S1x1024) hz, View.ld_unit_zero (S := S640x1024) hz, View.ld_unit_zero (S := S1024x1) hz, View.readCov_unit_zero (S := S1024x1024) _ hz, View.readCov_unit_zero (S := S1024x1) _ hz]

end Cert.KernelIdeal.Pieces

end
-- ==== Proof.KCases.lean ====
/-
  What the carried scratch and the output block hold after each grid point, as the body's payloads.

  A row block is visited by 50 consecutive points.  Its first point (t % 50 = 0) resets the scratch: the
  feature tile, the running maximum from -∞, the running sum from 0, and the logit at the tag.  Every later point
  keeps the feature tile and the tag logit and steps the maximum and the sum from what the point before left.
  The last point (t % 50 = 49) also stores the output block from the stepped maximum and sum and the tag logit.
-/
import proofs.«420658_j82386062672565_2_alg».proof.Proof.Gen.KernelIdeal.Frame
import proofs.«420658_j82386062672565_2_alg».proof.Proof.KPieces
import Idealize.ShloMosaic.PureOps.Ideal

set_option maxRecDepth 16384

noncomputable section

namespace Cert.KernelIdeal.Cases

open Idealize.ShloMosaic Idealize.ShloMosaic.TcCoe Idealize.SL.Sem
open Cert.KernelIdeal Cert.KernelIdeal.Gen Cert.KernelIdeal.Pieces

variable (m : (ℓ : Loc nD τ sig) → Buf (Elt Ideal) ℓ)

/-- The feature scratch after point n. -/
abbrev sFeat (c : Dev nD) (n : Nat) (hn : n < cfg0.N) : Vec Ideal S1024x1024 .bf16 := (outsAt0 m c n hn).2.1
/-- The running maximum after point n. -/
abbrev sMax (c : Dev nD) (n : Nat) (hn : n < cfg0.N) : Vec Ideal S1024x1 .f32 := (outsAt0 m c n hn).2.2.1
/-- The running sum after point n. -/
abbrev sSum (c : Dev nD) (n : Nat) (hn : n < cfg0.N) : Vec Ideal S1024x1 .f32 := (outsAt0 m c n hn).2.2.2.1
/-- The tag logit after point n. -/
abbrev sTag (c : Dev nD) (n : Nat) (hn : n < cfg0.N) : Vec Ideal S1024x1 .f32 := (outsAt0 m c n hn).2.2.2.2
/-- The output block's staging contents after point n. -/
abbrev sOut (c : Dev nD) (n : Nat) (hn : n < cfg0.N) : Vec Ideal S1024x1 .f32 := (outsAt0 m c n hn).1

/-! ## The first point of a row block -/

theorem feat_first (c : Dev nD) (t : Fin cfg0.N) (h0 : t.val % 50 = 0) :
    sFeat m c t.val t.isLt = k0_pay8 (F := Ideal) (iblk m c 0 t) (iblk m c 1 t) (iblk m c 2 t) (iblk m c 3 t) (iblk m c 4 t) := by
  have h1 : ¬t.val % 50 = 49 := by omega
  show (outsAt0 m c t.val t.isLt).2.1 = _
  rw [outsAt0_A m c t h0 h1]; dsimp only
  exact sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)

theorem max_first (c : Dev nD) (t : Fin cfg0.N) (h0 : t.val % 50 = 0) :
    sMax m c t.val t.isLt = k0_pay5 (F := Ideal) (k0_pay8 (F := Ideal) (iblk m c 0 t) (iblk m c 1 t) (iblk m c 2 t) (iblk m c 3 t) (iblk m c 4 t)) (iblk m c 5 t) (k0_pay9 (F := Ideal)) := by
  have h1 : ¬t.val % 50 = 49 := by omega
  show (outsAt0 m c t.val t.isLt).2.2.1 = _
  rw [outsAt0_A m c t h0 h1]; dsimp only
  exact sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)

theorem sum_first (c : Dev nD) (t : Fin cfg0.N) (h0 : t.val % 50 = 0) :
    sSum m c t.val t.isLt = k0_pay4 (F := Ideal) (k0_pay8 (F := Ideal) (iblk m c 0 t) (iblk m c 1 t) (iblk m c 2 t) (iblk m c 3 t) (iblk m c 4 t)) (iblk m c 5 t) (k0_pay9 (F := Ideal)) (k0_pay10 (F := Ideal)) := by
  have h1 : ¬t.val % 50 = 49 := by omega
  show (outsAt0 m c t.val t.isLt).2.2.2.1 = _
  rw [outsAt0_A m c t h0 h1]; dsimp only
  exact sout0_A_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)

theorem tag_first (c : Dev nD) (t : Fin cfg0.N) (h0 : t.val % 50 = 0) :
    sTag m c t.val t.isLt = k0_pay1 (F := Ideal) (k0_pay11 (F := Ideal) (iblk m c 0 t) (iblk m c 1 t) (iblk m c 2 t) (iblk m c 3 t) (iblk m c 4 t) (iblk m c 6 t)) := by
  have h1 : ¬t.val % 50 = 49 := by omega
  show (outsAt0 m c t.val t.isLt).2.2.2.2 = _
  rw [outsAt0_A m c t h0 h1]; dsimp only
  exact sout0_A_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)

/-! ## A later point of a row block -/

theorem feat_later (c : Dev nD) (t : Fin cfg0.N) (h0 : ¬t.val % 50 = 0) :
    sFeat m c t.val t.isLt = sFeat m c (t.val - 1) (Nat.lt_of_le_of_lt (Nat.sub_le _ _) t.isLt) := by
  show (outsAt0 m c t.val t.isLt).2.1 = _
  by_cases h1 : t.val % 50 = 49
  · rw [outsAt0_C m c t h0 h1]; dsimp only; rfl
  · rw [outsAt0_B m c t h0 h1]; dsimp only; rfl

theorem tag_later (c : Dev nD) (t : Fin cfg0.N) (h0 : ¬t.val % 50 = 0) :
    sTag m c t.val t.isLt = sTag m c (t.val - 1) (Nat.lt_of_le_of_lt (Nat.sub_le _ _) t.isLt) := by
  show (outsAt0 m c t.val t.isLt).2.2.2.2 = _
  by_cases h1 : t.val % 50 = 49
  · rw [outsAt0_C m c t h0 h1]; dsimp only; rfl
  · rw [outsAt0_B m c t h0 h1]; dsimp only; rfl

theorem max_later (c : Dev nD) (t : Fin cfg0.N) (h0 : ¬t.val % 50 = 0) :
    sMax m c t.val t.isLt
      = k0_pay5 (F := Ideal) (sFeat m c (t.val - 1) (Nat.lt_of_le_of_lt (Nat.sub_le _ _) t.isLt)) (iblk m c 5 t) (sMax m c (t.val - 1) (Nat.lt_of_le_of_lt (Nat.sub_le _ _) t.isLt)) := by
  show (outsAt0 m c t.val t.isLt).2.2.1 = _
  by_cases h1 : t.val % 50 = 49
  · rw [outsAt0_C m c t h0 h1]; dsimp only
    exact sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  · rw [outsAt0_B m c t h0 h1]; dsimp only
    exact sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem sum_later (c : Dev nD) (t : Fin cfg0.N) (h0 : ¬t.val % 50 = 0) :
    sSum m c t.val t.isLt
      = k0_pay4 (F := Ideal) (sFeat m c (t.val - 1) (Nat.lt_of_le_of_lt (Nat.sub_le _ _) t.isLt)) (iblk m c 5 t) (sMax m c (t.val - 1) (Nat.lt_of_le_of_lt (Nat.sub_le _ _) t.isLt)) (sSum m c (t.val - 1) (Nat.lt_of_le_of_lt (Nat.sub_le _ _) t.isLt)) := by
  show (outsAt0 m c t.val t.isLt).2.2.2.1 = _
  by_cases h1 : t.val % 50 = 49
  · rw [outsAt0_C m c t h0 h1]; dsimp only
    exact sout0_C_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2
  · rw [outsAt0_B m c t h0 h1]; dsimp only
    exact sout0_B_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-! ## The last point of a row block -/

theorem out_last (c : Dev nD) (t : Fin cfg0.N) (h1 : t.val % 50 = 49) :
    sOut m c t.val t.isLt
      = k0_pay6 (F := Ideal)
          (k0_pay5 (F := Ideal) (sFeat m c (t.val - 1) (Nat.lt_of_le_of_lt (Nat.sub_le _ _) t.isLt)) (iblk m c 5 t) (sMax m c (t.val - 1) (Nat.lt_of_le_of_lt (Nat.sub_le _ _) t.isLt)))
          (k0_pay4 (F := Ideal) (sFeat m c (t.val - 1) (Nat.lt_of_le_of_lt (Nat.sub_le _ _) t.isLt)) (iblk m c 5 t) (sMax m c (t.val - 1) (Nat.lt_of_le_of_lt (Nat.sub_le _ _) t.isLt)) (sSum m c (t.val - 1) (Nat.lt_of_le_of_lt (Nat.sub_le _ _) t.isLt)))
          (sTag m c (t.val - 1) (Nat.lt_of_le_of_lt (Nat.sub_le _ _) t.isLt)) := by
  have h0 : ¬t.val % 50 = 0 := by omega
  show (outsAt0 m c t.val t.isLt).1 = _
  rw [outsAt0_C m c t h0 h1]; dsimp only
  exact out0_C_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

end Cert.KernelIdeal.Cases

end
-- ==== Proof.KBlocks.lean ====
/-
  The input blocks of the kernel's grid, read as entries of the whole arrays.

  The grid has 4 × 50 points; point t is row block t / 50 and vocabulary tile t % 50.  The two endpoint
  embeddings and the gathered tag rows move with the row block (block t / 50 of 1024 rows), the vocabulary
  matrix with the tile (block t % 50 of 640 rows), and the two halves of W1 and the bias are one block each.
  An entry (r, k) of a block is therefore entry (1024 · (t / 50) + r, k), (640 · (t % 50) + r, k) or (r, k)
  of its array: a block's coordinate is always block index × block size + the coordinate inside the block.
-/
import proofs.«420658_j82386062672565_2_alg».proof.Proof.Gen.KernelIdeal.Frame
import Idealize.ShloMosaic.Lib.ValueIdx
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The grid has 200 points. -/
theorem lt200 (t : Fin cfg0.N) : t.val < 200 := lt_of_lt_of_eq t.isLt (show cfg0.N = 200 from N_0)

/-- The printed index maps over the grid: the row-block windows sit at block t / 50, the vocabulary window at
    block t % 50, the whole-array windows at block 0; every second block index is 0. -/
theorem idx_facts : ∀ t : Fin cfg0.N,
    win0_0.index t (0 : Fin 2) = t.val / 50 ∧ win0_0.index t (1 : Fin 2) = 0
    ∧ win0_1.index t (0 : Fin 2) = t.val / 50 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val % 50 ∧ win0_5.index t (1 : Fin 2) = 0
    ∧ win0_6.index t (0 : Fin 2) = t.val / 50 ∧ win0_6.index t (1 : Fin 2) = 0
    ∧ win0_7.index t (0 : Fin 2) = t.val / 50 ∧ win0_7.index t (1 : Fin 2) = 0 :=
  (by decide +kernel : ∀ t : Fin grid0.N, _)

/-- Row r of the row block of point t is row 1024 · (t / 50) + r of the 4096 spans. -/
def rowOf (t : Fin cfg0.N) (r : Fin 1024) : Fin 4096 :=
  ⟨1024 * (t.val / 50) + r.val, by have := lt200 t; have := r.isLt; omega⟩

/-- Lane l of the vocabulary tile of point t is entry 640 · (t % 50) + l of the 32000. -/
def vocOf (t : Fin cfg0.N) (l : Fin 640) : Fin 32000 :=
  ⟨640 * (t.val % 50) + l.val, by have := l.isLt; omega⟩

/-- The begin-endpoint block. -/
theorem blk0_apply (c : Dev nD) (t : Fin cfg0.N) (r k : Fin 1024) :
    (iblk m c 0 t : Vec F S1024x1024 .bf16) (ix2 r k) = (V m c main_v15 : Vec F S4096x1024 .bf16) (ix2 (rowOf t r) k) := by
  obtain ⟨e0, e1, -⟩ := idx_facts t
  show V m c main_v15 (((cfg0.win 0).blk t).view.emb (ix2 r k)) = V m c main_v15 (ix2 (rowOf t r) k)
  refine congrArg (V m c main_v15) (funext fun a => Fin.ext ?_)
  match a with
  | ⟨0, _⟩ => show win0_0.index t (0 : Fin 2) * 1024 + 1 * r.val = 1024 * (t.val / 50) + r.val; omega
  | ⟨1, _⟩ => show win0_0.index t (1 : Fin 2) * 1024 + 1 * k.val = k.val; omega

/-- The end-endpoint block. -/
theorem blk1_apply (c : Dev nD) (t : Fin cfg0.N) (r k : Fin 1024) :
    (iblk m c 1 t : Vec F S1024x1024 .bf16) (ix2 r k) = (V m c main_v30 : Vec F S4096x1024 .bf16) (ix2 (rowOf t r) k) := by
  obtain ⟨-, -, e0, e1, -⟩ := idx_facts t
  show V m c main_v30 (((cfg0.win 1).blk t).view.emb (ix2 r k)) = V m c main_v30 (ix2 (rowOf t r) k)
  refine congrArg (V m c main_v30) (funext fun a => Fin.ext ?_)
  match a with
  | ⟨0, _⟩ => show win0_1.index t (0 : Fin 2) * 1024 + 1 * r.val = 1024 * (t.val / 50) + r.val; omega
  | ⟨1, _⟩ => show win0_1.index t (1 : Fin 2) * 1024 + 1 * k.val = k.val; omega

/-- The first half of W1, one block. -/
theorem blk2_apply (c : Dev nD) (t : Fin cfg0.N) (d k : Fin 1024) :
    (iblk m c 2 t : Vec F S1024x1024 .bf16) (ix2 d k) = (V m c main_v32 : Vec F S1024x1024 .bf16) (ix2 d k) := by
  obtain ⟨-, -, -, -, e0, e1, -⟩ := idx_facts t
  show V m c main_v32 (((cfg0.win 2).blk t).view.emb (ix2 d k)) = V m c main_v32 (ix2 d k)
  refine congrArg (V m c main_v32) (funext fun a => Fin.ext ?_)
  match a with
  | ⟨0, _⟩ => show win0_2.index t (0 : Fin 2) * 1024 + 1 * d.val = d.val; omega
  | ⟨1, _⟩ => show win0_2.index t (1 : Fin 2) * 1024 + 1 * k.val = k.val; omega

/-- The second half of W1, one block. -/
theorem blk3_apply (c : Dev nD) (t : Fin cfg0.N) (d k : Fin 1024) :
    (iblk m c 3 t : Vec F S1024x1024 .bf16) (ix2 d k) = (V m c main_v34 : Vec F S1024x1024 .bf16) (ix2 d k) := by
  obtain ⟨-, -, -, -, -, -, e0, e1, -⟩ := idx_facts t
  show V m c main_v34 (((cfg0.win 3).blk t).view.emb (ix2 d k)) = V m c main_v34 (ix2 d k)
  refine congrArg (V m c main_v34) (funext fun a => Fin.ext ?_)
  match a with
  | ⟨0, _⟩ => show win0_3.index t (0 : Fin 2) * 1024 + 1 * d.val = d.val; omega
  | ⟨1, _⟩ => show win0_3.index t (1 : Fin 2) * 1024 + 1 * k.val = k.val; omega

/-- The bias row, one block. -/
theorem blk4_apply (c : Dev nD) (t : Fin cfg0.N) (u : Fin 1) (d : Fin 1024) :
    (iblk m c 4 t : Vec F S1x1024 .f32) (ix2 u d) = (V m c main_v35 : Vec F S1x1024 .f32) (ix2 u d) := by
  obtain ⟨-, -, -, -, -, -, -, -, e0, e1, -⟩ := idx_facts t
  show V m c main_v35 (((cfg0.win 4).blk t).view.emb (ix2 u d)) = V m c main_v35 (ix2 u d)
  refine congrArg (V m c main_v35) (funext fun a => Fin.ext ?_)
  match a with
  | ⟨0, _⟩ => show win0_4.index t (0 : Fin 2) * 1 + 1 * u.val = u.val; omega
  | ⟨1, _⟩ => show win0_4.index t (1 : Fin 2) * 1024 + 1 * d.val = d.val; omega

/-- The vocabulary tile. -/
theorem blk5_apply (c : Dev nD) (t : Fin cfg0.N) (l : Fin 640) (d : Fin 1024) :
    (iblk m c 5 t : Vec F S640x1024 .bf16) (ix2 l d) = (V m c main_v36 : Vec F S32000x1024 .bf16) (ix2 (vocOf t l) d) := by
  obtain ⟨-, -, -, -, -, -, -, -, -, -, e0, e1, -⟩ := idx_facts t
  show V m c main_v36 (((cfg0.win 5).blk t).view.emb (ix2 l d)) = V m c main_v36 (ix2 (vocOf t l) d)
  refine congrArg (V m c main_v36) (funext fun a => Fin.ext ?_)
  match a with
  | ⟨0, _⟩ => show win0_5.index t (0 : Fin 2) * 640 + 1 * l.val = 640 * (t.val % 50) + l.val; omega
  | ⟨1, _⟩ => show win0_5.index t (1 : Fin 2) * 1024 + 1 * d.val = d.val; omega

/-- The block of gathered tag rows. -/
theorem blk6_apply (c : Dev nD) (t : Fin cfg0.N) (r d : Fin 1024) :
    (iblk m c 6 t : Vec F S1024x1024 .bf16) (ix2 r d) = (V m c main_v43 : Vec F S4096x1024 .bf16) (ix2 (rowOf t r) d) := by
  obtain ⟨-, -, -, -, -, -, -, -, -, -, -, -, e0, e1, -⟩ := idx_facts t
  show V m c main_v43 (((cfg0.win 6).blk t).view.emb (ix2 r d)) = V m c main_v43 (ix2 (rowOf t r) d)
  refine congrArg (V m c main_v43) (funext fun a => Fin.ext ?_)
  match a with
  | ⟨0, _⟩ => show win0_6.index t (0 : Fin 2) * 1024 + 1 * r.val = 1024 * (t.val / 50) + r.val; omega
  | ⟨1, _⟩ => show win0_6.index t (1 : Fin 2) * 1024 + 1 * d.val = d.val; omega

end Cert.KernelIdeal.Blocks

end
-- ==== Proof.Spec.lean ====
/-
  What both programs compute, written once over the extended reals with literal index types.

  A span r has a feature row  feat r d = tanh (Σ_k eb r k · W1 d k + Σ_k ee r k · W1 d (1024 + k) + b1 d)
  from its two endpoint embeddings eb, ee, and logits  logit r v = Σ_d feat r d · Wout v d  over the vocabulary.
  Its loss term is  logsumexp_v (logit r v) - logit r (tag r).

  The streaming form reads a row of 32000 logits in 50 tiles of 640: the pair (m, l) starts at (-∞, 0) and a tile x
  takes it to  m' = max m (max x),  l' = exp (m - m') · l + Σ exp (x - m');  the term is then m + log l - logit at the tag.
  The one-pass form is  -((logit at the tag - M) - log (Σ_v exp (logit v - M)))  with M the row's maximum.
-/
import Idealize.ShloMosaic.PureOps.Ideal
import Idealize.ShloMosaic.Lib.ValueIdx

noncomputable section

namespace Cert.Spec

open Idealize.ShloMosaic Idealize.ShloMosaic.ValueIdx

/-- The maximum of a tile, folded from -∞. -/
def tileMax {n : Nat} (x : Fin n → EReal) : EReal := (Finset.univ : Finset (Fin n)).fold max ⊥ x

/-- The running maximum after a tile. -/
def stepM (m : EReal) (x : Fin 640 → EReal) : EReal := max m (tileMax x)

/-- The running sum of exponentials after a tile: the old sum moved to the new maximum, plus the tile's. -/
def stepL (m l : EReal) (x : Fin 640 → EReal) : EReal :=
  Ideal.exp (m - stepM m x) * l + ∑ k : Fin 640, Ideal.exp (x k - stepM m x)

/-- Tile j of a row of 32000 entries (j < 50; beyond, a tile of -∞ that nothing reads). -/
def tile (z : Fin 32000 → EReal) (j : Nat) (k : Fin 640) : EReal :=
  if h : j < 50 then z ⟨640 * j + k.val, by have := k.isLt; omega⟩ else ⊥

/-- The pair (m, l) after tiles 0 … j of a row, from (-∞, 0). -/
def runML (z : Fin 32000 → EReal) : Nat → EReal × EReal
  | 0 => (stepM ⊥ (tile z 0), stepL ⊥ 0 (tile z 0))
  | j + 1 => (stepM (runML z j).1 (tile z (j + 1)), stepL (runML z j).1 (runML z j).2 (tile z (j + 1)))

/-- The streaming form of a row's loss term, from its logits and the logit at its tag. -/
def nllStream (z : Fin 32000 → EReal) (ztag : EReal) : EReal :=
  (runML z 49).1 + Ideal.log (runML z 49).2 - ztag

/-- The one-pass form: minus the log-softmax at the tag, the row's maximum folded from -∞ and joined with -∞ once more. -/
def nllOnePass (z : Fin 32000 → EReal) (tg : Fin 32000) : EReal :=
  -((z tg - max ⊥ (tileMax z)) - Ideal.log (0 + ∑ v : Fin 32000, Ideal.exp (z v - max ⊥ (tileMax z))))

/-- The feature row of a span: tanh of the two half products with W1 plus the bias. -/
def feat (eb ee : (⟨2, ![4096, 1024]⟩ : Shape).Idx → EReal) (w1 : (⟨2, ![1024, 2048]⟩ : Shape).Idx → EReal)
    (b1 : (⟨1, ![1024]⟩ : Shape).Idx → EReal) (r : Fin 4096) (d : Fin 1024) : EReal :=
  Ideal.tanh ((∑ k : Fin 1024, eb (ix2 r k) * w1 (ix2 d (⟨k.val, by have := k.isLt; omega⟩ : Fin 2048))
    + ∑ k : Fin 1024, ee (ix2 r k) * w1 (ix2 d (⟨1024 + k.val, by have := k.isLt; omega⟩ : Fin 2048))) + b1 (ix1 d))

/-- The logit of span r at vocabulary entry v. -/
def logit (ft : Fin 4096 → Fin 1024 → EReal) (wout : (⟨2, ![32000, 1024]⟩ : Shape).Idx → EReal)
    (r : Fin 4096) (v : Fin 32000) : EReal :=
  ∑ d : Fin 1024, ft r d * wout (ix2 v d)

end Cert.Spec

end
-- ==== Proof.LibColumns.lean ====
/-
  Two layout operations read at an entry, for a column kept as an [a, 1] matrix — what a row reduction with
  kept dimensions passes through on its way back over the rows: a vector of a entries cast to one column, and
  one column laid along every column of an a × b matrix. Stated for any element type and any extents.
-/
import Idealize.ShloMosaic.Lib.Pipeline.Value
import Idealize.ShloMosaic.Lib.ValueIdx

namespace Cert.Lib.Columns

open Idealize.ShloMosaic Idealize.ShloMosaic.ValueIdx

variable {α : Type}

/-- An `[a]` array cast to `[a, 1]` reads, at `(i, u)`, the operand at `i`, whatever the unit coordinate `u`:
    both indices have the same row-major position, i · 1 + 0 = i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Columns
-- ==== Proof.KPay.lean ====
/-
  The kernel body's payloads read at an index, over the extended reals (every operation exact, the two format
  changes the identity).

  The body is a streaming log-sum-exp over tiles of 640 logits. Its feature tile is
      feat r d = tanh ((Σ_k xb r k · W1a d k + Σ_k xe r k · W1b d k) + b1 d),
  a tile of logits is  logit r l = Σ_d feat r d · wtile l d,  and a tile takes the running pair (m, l) of a row to
      m' = max m (max over the tile),   l' = exp (m - m') · l + Σ_l exp (logit r l - m').
  Each payload below is one of these read at a row r (and a column): the pointwise operations read through at the
  index, a shape cast between equal shapes is the identity, a vector of rows cast to one column and a column laid
  along the lanes read their row, a lane reduction is the sum (or the fold of max from -∞) over the lane coordinate,
  and a product into the zero accumulator, contracting the second axis of both operands, is
      (r, c) ↦ Σ_k lhs (r, k) · rhs (c, k).
-/
import proofs.«420658_j82386062672565_2_alg».proof.Proof.Gen.KernelIdeal.Skeleton
import proofs.«420658_j82386062672565_2_alg».proof.Proof.Spec
import proofs.«420658_j82386062672565_2_alg».proof.Proof.LibColumns
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-! ## The product of a [1024, 1024] block with a [640, 1024] block over their second axes -/

/-- The left operand's row coordinate is the output's row. -/
theorem lhs640_0 (i : S1024x640.Idx) (q : Cert.KernelIdeal.dot_S1024x1024_S640x1024_S1024x640_1_1_0_0_n_n.contr.Idx) :
    (Cert.KernelIdeal.dot_S1024x1024_S640x1024_S1024x640_1_1_0_0_n_n.lhsIdx i q 0).val = (i 0).val := by
  unfold DotDims.lhsIdx
  rw [dif_neg (show ¬(0 : Fin S1024x1024.rank) ∈ Cert.KernelIdeal.dot_S1024x1024_S640x1024_S1024x640_1_1_0_0_n_n.lhsBatch by decide), dif_pos (show (0 : Fin S1024x1024.rank) ∈ Cert.KernelIdeal.dot_S1024x1024_S640x1024_S1024x640_1_1_0_0_n_n.lhsNonContracting by decide)]
  rfl
/-- The left operand's column coordinate is the contraction coordinate. -/
theorem lhs640_1 (i : S1024x640.Idx) (q : Cert.KernelIdeal.dot_S1024x1024_S640x1024_S1024x640_1_1_0_0_n_n.contr.Idx) :
    (Cert.KernelIdeal.dot_S1024x1024_S640x1024_S1024x640_1_1_0_0_n_n.lhsIdx i q 1).val = (q ⟨0, by decide⟩).val :=
  Cert.KernelIdeal.dot_S1024x1024_S640x1024_S1024x640_1_1_0_0_n_n.lhsIdx_val_of_single rfl i q
/-- The right operand's row coordinate is the output's column. -/
theorem rhs640_0 (i : S1024x640.Idx) (q : Cert.KernelIdeal.dot_S1024x1024_S640x1024_S1024x640_1_1_0_0_n_n.contr.Idx) :
    (Cert.KernelIdeal.dot_S1024x1024_S640x1024_S1024x640_1_1_0_0_n_n.rhsIdx i q 0).val = (i 1).val := by
  unfold DotDims.rhsIdx
  rw [dif_neg (show ¬(0 : Fin S640x1024.rank) ∈ Cert.KernelIdeal.dot_S1024x1024_S640x1024_S1024x640_1_1_0_0_n_n.rhsBatch by decide), dif_pos (show (0 : Fin S640x1024.rank) ∈ Cert.KernelIdeal.dot_S1024x1024_S640x1024_S1024x640_1_1_0_0_n_n.rhsNonContracting by decide)]
  rfl
/-- The right operand's column coordinate is the contraction coordinate. -/
theorem rhs640_1 (i : S1024x640.Idx) (q : Cert.KernelIdeal.dot_S1024x1024_S640x1024_S1024x640_1_1_0_0_n_n.contr.Idx) :
    (Cert.KernelIdeal.dot_S1024x1024_S640x1024_S1024x640_1_1_0_0_n_n.rhsIdx i q 1).val = (q ⟨0, by decide⟩).val :=
  Cert.KernelIdeal.dot_S1024x1024_S640x1024_S1024x640_1_1_0_0_n_n.rhsIdx_val_of_single rfl i q

/-- The product into the zero accumulator at (r, c): Σ_k a (r, k) · b (c, k). -/
theorem matmul640_apply (a : FVec Ideal S1024x1024 .bf16) (b : FVec Ideal S640x1024 .bf16) (r : Fin 1024) (c : Fin 640) :
    matmul (F := Ideal) Cert.KernelIdeal.dot_S1024x1024_S640x1024_S1024x640_1_1_0_0_n_n none a b (constant (F := Ideal) S1024x640 .f32 0x00000000#32) (ix2 r c)
      = ∑ k : Fin 1024, a (ix2 r k) * b (ix2 c k) := by
  simp only [matmul]
  rw [Ideal.matmul_constant_zero_apply, ← Equiv.sum_comp (contrEquiv1 Cert.KernelIdeal.dot_S1024x1024_S640x1024_S1024x640_1_1_0_0_n_n 1024 rfl rfl).symm]
  refine Finset.sum_congr rfl fun k _ => ?_
  have hk := contrEquiv1_symm_val Cert.KernelIdeal.dot_S1024x1024_S640x1024_S1024x640_1_1_0_0_n_n 1024 rfl rfl k
  have el : Cert.KernelIdeal.dot_S1024x1024_S640x1024_S1024x640_1_1_0_0_n_n.lhsIdx (ix2 r c) ((contrEquiv1 Cert.KernelIdeal.dot_S1024x1024_S640x1024_S1024x640_1_1_0_0_n_n 1024 rfl rfl).symm k) = ix2 r k := funext fun ax => Fin.ext (by
    match ax with
    | ⟨0, _⟩ => exact lhs640_0 _ _
    | ⟨1, _⟩ => exact (lhs640_1 _ _).trans hk)
  have er : Cert.KernelIdeal.dot_S1024x1024_S640x1024_S1024x640_1_1_0_0_n_n.rhsIdx (ix2 r c) ((contrEquiv1 Cert.KernelIdeal.dot_S1024x1024_S640x1024_S1024x640_1_1_0_0_n_n 1024 rfl rfl).symm k) = ix2 c k := funext fun ax => Fin.ext (by
    match ax with
    | ⟨0, _⟩ => exact rhs640_0 _ _
    | ⟨1, _⟩ => exact (rhs640_1 _ _).trans hk)
  rw [el, er]

/-- A tile of logits at (r, l): Σ_d feat r d · wtile l d. -/
theorem pay2_apply (v3 : Vec Ideal S1024x1024 .bf16) (v4 : Vec Ideal S640x1024 .bf16) (r : Fin 1024) (l : Fin 640) :
    k0_pay2 (F := Ideal) v3 v4 (ix2 r l) = ∑ d : Fin 1024, v3 (ix2 r d) * v4 (ix2 l d) := by
  unfold k0_pay2
  rw [shapeCast_self]
  exact matmul640_apply v3 v4 r l

/-- The loss term's payload at a row: m + log l - the logit at the tag. -/
theorem pay6_apply (v30 v31 v34 : Vec Ideal S1024x1 .f32) (r : Fin 1024) (u : Fin 1) :
    k0_pay6 (F := Ideal) v30 v31 v34 (ix2 r u) = v30 (ix2 r u) + Ideal.log (v31 (ix2 r u)) - v34 (ix2 r u) := rfl

/-- A cast between equal shapes changes nothing. -/
theorem pay1_eq (v63 : FVec Ideal S1024x1 .f32) : k0_pay1 (F := Ideal) v63 = v63 := by
  unfold k0_pay1
  exact shapeCast_self _ _

/-! ## A lane reduction of an [a, b] block, read at a row -/

/-- The reduced index r with lane k put back is (r, k). -/
theorem lift_row {a b : Nat} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext ax
  refine Fin.ext ?_
  match ax with
  | ⟨0, _⟩ => rfl
  | ⟨1, _⟩ => rfl

/-- The word 0xFF800000 is -∞. -/
theorem ofBits_negInf_f32 : Ideal.ofBits .f32 0xFF800000#32 = (⊥ : EReal) := by simp [Ideal.ofBits, Ideal.ieee]

/-- The lane sum of a block at row r: Σ_l x (r, l). -/
theorem rowSum_apply {a b : Nat} (x : FVec Ideal (⟨2, ![a, b]⟩ : Shape) .f32)
    (h : (⟨2, ![a, b]⟩ : Shape).Reduces [1] (⟨1, ![a]⟩ : Shape)) (hφ : FKind.Formats .f32)
    (hacc : (0x00000000#32 : BitVec 32) = FKind.add.neutral .f32 hφ) (r : Fin a) :
    multiReduction (F := Ideal) .add [1] (⟨1, ![a]⟩ : Shape) x 0x00000000#32 h hφ hacc (ix1 r) = ∑ l : Fin b, x (ix2 r l) := by
  rw [Ideal.multiReduction_add_single]
  exact Finset.sum_congr rfl fun k _ => congrArg x (lift_row h r k)

/-- The lane maximum of a block at row r, folded from -∞. -/
theorem rowMax_apply {a b : Nat} (x : FVec Ideal (⟨2, ![a, b]⟩ : Shape) .f32)
    (h : (⟨2, ![a, b]⟩ : Shape).Reduces [1] (⟨1, ![a]⟩ : Shape)) (hφ : FKind.Formats .f32)
    (hacc : (0xFF800000#32 : BitVec 32) = FKind.maximumf.neutral .f32 hφ) (r : Fin a) :
    multiReduction (F := Ideal) .maximumf [1] (⟨1, ![a]⟩ : Shape) x 0xFF800000#32 h hφ hacc (ix1 r)
      = Cert.Spec.tileMax fun l : Fin b => x (ix2 r l) := by
  rw [Ideal.multiReduction_maximumf_single, Ideal.ofBits_def, ofBits_negInf_f32]
  have e : (x ∘ h.lift (ix1 r)) = fun l : Fin b => x (ix2 r l) := funext fun k => congrArg x (lift_row h r k)
  rw [e]
  rfl

/-! ## The running maximum and the running sum after a tile -/

/-- The new running maximum at a row: the old one joined with the tile's. -/
theorem pay3_apply (v3 : Vec Ideal S1024x1024 .bf16) (v4 : Vec Ideal S640x1024 .bf16) (v9 : Vec Ideal S1024x1 .f32) (r : Fin 1024) (u : Fin 1) :
    k0_pay3 (F := Ideal) v3 v4 v9 (ix2 r u)
      = Cert.Spec.stepM (v9 (ix2 r u)) (fun l : Fin 640 => k0_pay2 (F := Ideal) v3 v4 (ix2 r l)) := by
  unfold k0_pay3 Cert.Spec.stepM
  refine (maximumf_apply _ _ _).trans ?_
  refine congrArg (max (v9 (ix2 r u))) ?_
  refine (Cert.Lib.Columns.shapeCast_a_a1_apply _ _ r u).trans ?_
  exact rowMax_apply (k0_pay2 (F := Ideal) v3 v4) _ _ _ r

/-- The stored copy of the running maximum is the running maximum. -/
theorem pay5_eq (v3 : Vec Ideal S1024x1024 .bf16) (v4 : Vec Ideal S640x1024 .bf16) (v9 : Vec Ideal S1024x1 .f32) :
    k0_pay5 (F := Ideal) v3 v4 v9 = k0_pay3 (F := Ideal) v3 v4 v9 := by
  unfold k0_pay5
  exact shapeCast_self _ _

/-- The new running sum at a row: the old sum moved to the new maximum, plus the tile's exponentials. -/
theorem pay4_apply (v3 : Vec Ideal S1024x1024 .bf16) (v4 : Vec Ideal S640x1024 .bf16) (v9 v18 : Vec Ideal S1024x1 .f32) (r : Fin 1024) (u : Fin 1) :
    k0_pay4 (F := Ideal) v3 v4 v9 v18 (ix2 r u)
      = Cert.Spec.stepL (v9 (ix2 r u)) (v18 (ix2 r u)) (fun l : Fin 640 => k0_pay2 (F := Ideal) v3 v4 (ix2 r l)) := by
  obtain rfl : u = 0 := Subsingleton.elim _ _
  unfold k0_pay4 Cert.Spec.stepL
  rw [shapeCast_self]
  refine (addf_apply _ _ _).trans ?_
  refine congrArg₂ (· + ·) ?_ ?_
  · show Ideal.exp (v9 (ix2 r 0) - k0_pay3 (F := Ideal) v3 v4 v9 (ix2 r 0)) * v18 (ix2 r 0) = _
    rw [pay3_apply]
  · refine (Cert.Lib.Columns.shapeCast_a_a1_apply _ _ r 0).trans ?_
    refine (rowSum_apply _ _ _ _ r).trans ?_
    refine Finset.sum_congr rfl fun l _ => ?_
    show Ideal.exp (k0_pay2 (F := Ideal) v3 v4 (ix2 r l)
      - broadcastTo S1024x640 (k0_pay3 (F := Ideal) v3 v4 v9) broadcasts_S1024x1_S1024x640 (ix2 r l)) = _
    rw [Cert.Lib.Columns.broadcastTo_a1_ab_apply, pay3_apply]

/-! ## The product of a [1024, 1024] block with a [1024, 1024] block over their second axes -/

/-- The left operand's row coordinate is the output's row. -/
theorem lhs1024_0 (i : S1024x1024.Idx) (q : Cert.KernelIdeal.dot_S1024x1024_S1024x1024_S1024x1024_1_1_0_0_n_n.contr.Idx) :
    (Cert.KernelIdeal.dot_S1024x1024_S1024x1024_S1024x1024_1_1_0_0_n_n.lhsIdx i q 0).val = (i 0).val := by
  unfold DotDims.lhsIdx
  rw [dif_neg (show ¬(0 : Fin S1024x1024.rank) ∈ Cert.KernelIdeal.dot_S1024x1024_S1024x1024_S1024x1024_1_1_0_0_n_n.lhsBatch by decide), dif_pos (show (0 : Fin S1024x1024.rank) ∈ Cert.KernelIdeal.dot_S1024x1024_S1024x1024_S1024x1024_1_1_0_0_n_n.lhsNonContracting by decide)]
  rfl
/-- The left operand's column coordinate is the contraction coordinate. -/
theorem lhs1024_1 (i : S1024x1024.Idx) (q : Cert.KernelIdeal.dot_S1024x1024_S1024x1024_S1024x1024_1_1_0_0_n_n.contr.Idx) :
    (Cert.KernelIdeal.dot_S1024x1024_S1024x1024_S1024x1024_1_1_0_0_n_n.lhsIdx i q 1).val = (q ⟨0, by decide⟩).val :=
  Cert.KernelIdeal.dot_S1024x1024_S1024x1024_S1024x1024_1_1_0_0_n_n.lhsIdx_val_of_single rfl i q
/-- The right operand's row coordinate is the output's column. -/
theorem rhs1024_0 (i : S1024x1024.Idx) (q : Cert.KernelIdeal.dot_S1024x1024_S1024x1024_S1024x1024_1_1_0_0_n_n.contr.Idx) :
    (Cert.KernelIdeal.dot_S1024x1024_S1024x1024_S1024x1024_1_1_0_0_n_n.rhsIdx i q 0).val = (i 1).val := by
  unfold DotDims.rhsIdx
  rw [dif_neg (show ¬(0 : Fin S1024x1024.rank) ∈ Cert.KernelIdeal.dot_S1024x1024_S1024x1024_S1024x1024_1_1_0_0_n_n.rhsBatch by decide), dif_pos (show (0 : Fin S1024x1024.rank) ∈ Cert.KernelIdeal.dot_S1024x1024_S1024x1024_S1024x1024_1_1_0_0_n_n.rhsNonContracting by decide)]
  rfl
/-- The right operand's column coordinate is the contraction coordinate. -/
theorem rhs1024_1 (i : S1024x1024.Idx) (q : Cert.KernelIdeal.dot_S1024x1024_S1024x1024_S1024x1024_1_1_0_0_n_n.contr.Idx) :
    (Cert.KernelIdeal.dot_S1024x1024_S1024x1024_S1024x1024_1_1_0_0_n_n.rhsIdx i q 1).val = (q ⟨0, by decide⟩).val :=
  Cert.KernelIdeal.dot_S1024x1024_S1024x1024_S1024x1024_1_1_0_0_n_n.rhsIdx_val_of_single rfl i q

/-- The product into the zero accumulator at (r, c): Σ_k a (r, k) · b (c, k). -/
theorem matmul1024_apply (a : FVec Ideal S1024x1024 .bf16) (b : FVec Ideal S1024x1024 .bf16) (r : Fin 1024) (c : Fin 1024) :
    matmul (F := Ideal) Cert.KernelIdeal.dot_S1024x1024_S1024x1024_S1024x1024_1_1_0_0_n_n none a b (constant (F := Ideal) S1024x1024 .f32 0x00000000#32) (ix2 r c)
      = ∑ k : Fin 1024, a (ix2 r k) * b (ix2 c k) := by
  simp only [matmul]
  rw [Ideal.matmul_constant_zero_apply, ← Equiv.sum_comp (contrEquiv1 Cert.KernelIdeal.dot_S1024x1024_S1024x1024_S1024x1024_1_1_0_0_n_n 1024 rfl rfl).symm]
  refine Finset.sum_congr rfl fun k _ => ?_
  have hk := contrEquiv1_symm_val Cert.KernelIdeal.dot_S1024x1024_S1024x1024_S1024x1024_1_1_0_0_n_n 1024 rfl rfl k
  have el : Cert.KernelIdeal.dot_S1024x1024_S1024x1024_S1024x1024_1_1_0_0_n_n.lhsIdx (ix2 r c) ((contrEquiv1 Cert.KernelIdeal.dot_S1024x1024_S1024x1024_S1024x1024_1_1_0_0_n_n 1024 rfl rfl).symm k) = ix2 r k := funext fun ax => Fin.ext (by
    match ax with
    | ⟨0, _⟩ => exact lhs1024_0 _ _
    | ⟨1, _⟩ => exact (lhs1024_1 _ _).trans hk)
  have er : Cert.KernelIdeal.dot_S1024x1024_S1024x1024_S1024x1024_1_1_0_0_n_n.rhsIdx (ix2 r c) ((contrEquiv1 Cert.KernelIdeal.dot_S1024x1024_S1024x1024_S1024x1024_1_1_0_0_n_n 1024 rfl rfl).symm k) = ix2 c k := funext fun ax => Fin.ext (by
    match ax with
    | ⟨0, _⟩ => exact rhs1024_0 _ _
    | ⟨1, _⟩ => exact (rhs1024_1 _ _).trans hk)
  rw [el, er]

/-! ## The feature tile, its stored copy, the resets and the tag's row sums -/

/-- The feature tile at (r, d): tanh of the two half products plus the bias. -/
theorem pay7_apply (v30 v32 v34 v37 : Vec Ideal S1024x1024 .bf16) (v41 : Vec Ideal S1x1024 .f32) (r d : Fin 1024) :
    k0_pay7 (F := Ideal) v30 v32 v34 v37 v41 (ix2 r d)
      = Ideal.tanh ((∑ k : Fin 1024, v30 (ix2 r k) * v34 (ix2 d k) + ∑ k : Fin 1024, v32 (ix2 r k) * v37 (ix2 d k)) + v41 (ix2 (0 : Fin 1) d)) := by
  unfold k0_pay7
  simp only [shapeCast_self]
  show Ideal.tanh ((matmul (F := Ideal) Cert.KernelIdeal.dot_S1024x1024_S1024x1024_S1024x1024_1_1_0_0_n_n none v30 v34 (constant (F := Ideal) S1024x1024 .f32 0x00000000#32) (ix2 r d)
      + matmul (F := Ideal) Cert.KernelIdeal.dot_S1024x1024_S1024x1024_S1024x1024_1_1_0_0_n_n none v32 v37 (constant (F := Ideal) S1024x1024 .f32 0x00000000#32) (ix2 r d))
      + broadcastTo S1024x1024 v41 broadcasts_S1x1024_S1024x1024 (ix2 r d)) = _
  rw [matmul1024_apply, matmul1024_apply, broadcastTo_1b_ab_apply]

/-- The stored copy of the feature tile: the narrowing is the identity here. -/
theorem pay8_apply (v30 v32 v34 v37 : Vec Ideal S1024x1024 .bf16) (v41 : Vec Ideal S1x1024 .f32) (r d : Fin 1024) :
    k0_pay8 (F := Ideal) v30 v32 v34 v37 v41 (ix2 r d) = k0_pay7 (F := Ideal) v30 v32 v34 v37 v41 (ix2 r d) := by
  unfold k0_pay8
  rw [shapeCast_self]
  rfl

/-- The running maximum is reset to -∞. -/
theorem pay9_apply (r : Fin 1024) (u : Fin 1) : k0_pay9 (F := Ideal) (ix2 r u) = (⊥ : EReal) := by
  unfold k0_pay9
  rw [shapeCast_self]
  exact ofBits_negInf_f32

/-- The running sum is reset to 0. -/
theorem pay10_apply (r : Fin 1024) (u : Fin 1) : k0_pay10 (F := Ideal) (ix2 r u) = (0 : EReal) := by
  unfold k0_pay10
  rw [shapeCast_self]
  exact Ideal.ofBits_zero_f32

/-- The tag's row sums: Σ_d feat r d · wtag r d. -/
theorem pay11_apply (v30 v32 v34 v37 : Vec Ideal S1024x1024 .bf16) (v41 : Vec Ideal S1x1024 .f32) (v58 : Vec Ideal S1024x1024 .bf16) (r : Fin 1024) (u : Fin 1) :
    k0_pay11 (F := Ideal) v30 v32 v34 v37 v41 v58 (ix2 r u)
      = ∑ d : Fin 1024, k0_pay7 (F := Ideal) v30 v32 v34 v37 v41 (ix2 r d) * v58 (ix2 r d) := by
  unfold k0_pay11
  rw [shapeCast_self]
  refine (Cert.Lib.Columns.shapeCast_a_a1_apply _ _ r u).trans ?_
  exact rowSum_apply _ _ _ _ r

end Cert.KernelIdeal.Pay

end
-- ==== Proof.KInv.lean ====
/-
  The kernel's scratch along the grid, and what the last tile of a row block stores.

  Write, for a span row, featK row d for its feature entries, logitK row v = Σ_d featK row d · Wout v d for its
  logits and tagK row = Σ_d featK row d · Wtag row d for the logit at its tag (Wtag the gathered tag rows), all
  from the arrays as the kernel's region finds them.  After the point t of the grid (row block t / 50, vocabulary
  tile t % 50), row r of the scratch holds: the features of span 1024 · (t / 50) + r; the running maximum and the
  running sum of exponentials of that span's logits over the tiles 0 … t % 50 (the pair Spec.runML); and the tag
  logit.  By induction on t: the first point of a row block resets all four from the point's blocks, a later point
  keeps the features and the tag logit and steps the pair by the tile it reads.  So the last point of a row block
  stores, in row r of the output block, the streaming loss term Spec.nllStream of the span's logits and tag logit.
-/
import proofs.«420658_j82386062672565_2_alg».proof.Proof.KCases
import proofs.«420658_j82386062672565_2_alg».proof.Proof.KBlocks
import proofs.«420658_j82386062672565_2_alg».proof.Proof.KPay
import proofs.«420658_j82386062672565_2_alg».proof.Proof.Spec

set_option maxRecDepth 16384

noncomputable section

namespace Cert.KernelIdeal.Inv

open Idealize.ShloMosaic Idealize.ShloMosaic.TcCoe Idealize.ShloMosaic.ValueIdx Idealize.SL.Sem
open Cert.KernelIdeal Cert.KernelIdeal.Gen Cert.KernelIdeal.Blocks Cert.KernelIdeal.Pay Cert.KernelIdeal.Cases

variable (m : (ℓ : Loc nD τ sig) → Buf (Elt Ideal) ℓ)

/-! ## The arrays and the blocks, at their literal types -/

/-- The begin-endpoint embeddings as the region finds them. -/
abbrev aEB (c : Dev nD) : Vec Ideal S4096x1024 .bf16 := V m c main_v15
/-- The end-endpoint embeddings. -/
abbrev aEE (c : Dev nD) : Vec Ideal S4096x1024 .bf16 := V m c main_v30
/-- The first half of W1. -/
abbrev aWA (c : Dev nD) : Vec Ideal S1024x1024 .bf16 := V m c main_v32
/-- The second half of W1. -/
abbrev aWB (c : Dev nD) : Vec Ideal S1024x1024 .bf16 := V m c main_v34
/-- The bias row. -/
abbrev aB1 (c : Dev nD) : Vec Ideal S1x1024 .f32 := V m c main_v35
/-- The vocabulary matrix. -/
abbrev aWO (c : Dev nD) : Vec Ideal S32000x1024 .bf16 := V m c main_v36
/-- The gathered tag rows. -/
abbrev aWT (c : Dev nD) : Vec Ideal S4096x1024 .bf16 := V m c main_v43

abbrev b0 (c : Dev nD) (t : Fin cfg0.N) : Vec Ideal S1024x1024 .bf16 := iblk m c 0 t
abbrev b1 (c : Dev nD) (t : Fin cfg0.N) : Vec Ideal S1024x1024 .bf16 := iblk m c 1 t
abbrev b2 (c : Dev nD) (t : Fin cfg0.N) : Vec Ideal S1024x1024 .bf16 := iblk m c 2 t
abbrev b3 (c : Dev nD) (t : Fin cfg0.N) : Vec Ideal S1024x1024 .bf16 := iblk m c 3 t
abbrev b4 (c : Dev nD) (t : Fin cfg0.N) : Vec Ideal S1x1024 .f32 := iblk m c 4 t
abbrev b5 (c : Dev nD) (t : Fin cfg0.N) : Vec Ideal S640x1024 .bf16 := iblk m c 5 t
abbrev b6 (c : Dev nD) (t : Fin cfg0.N) : Vec Ideal S1024x1024 .bf16 := iblk m c 6 t

theorem b0_apply (c : Dev nD) (t : Fin cfg0.N) (r k : Fin 1024) : b0 m c t (ix2 r k) = aEB m c (ix2 (rowOf t r) k) := blk0_apply m c t r k
theorem b1_apply (c : Dev nD) (t : Fin cfg0.N) (r k : Fin 1024) : b1 m c t (ix2 r k) = aEE m c (ix2 (rowOf t r) k) := blk1_apply m c t r k
theorem b2_apply (c : Dev nD) (t : Fin cfg0.N) (d k : Fin 1024) : b2 m c t (ix2 d k) = aWA m c (ix2 d k) := blk2_apply m c t d k
theorem b3_apply (c : Dev nD) (t : Fin cfg0.N) (d k : Fin 1024) : b3 m c t (ix2 d k) = aWB m c (ix2 d k) := blk3_apply m c t d k
theorem b4_apply (c : Dev nD) (t : Fin cfg0.N) (u : Fin 1) (d : Fin 1024) : b4 m c t (ix2 u d) = aB1 m c (ix2 u d) := blk4_apply m c t u d
theorem b5_apply (c : Dev nD) (t : Fin cfg0.N) (l : Fin 640) (d : Fin 1024) : b5 m c t (ix2 l d) = aWO m c (ix2 (vocOf t l) d) := blk5_apply m c t l d
theorem b6_apply (c : Dev nD) (t : Fin cfg0.N) (r d : Fin 1024) : b6 m c t (ix2 r d) = aWT m c (ix2 (rowOf t r) d) := blk6_apply m c t r d

/-- The feature entry (row, d) from the arrays the region finds. -/
def featK (c : Dev nD) (row : Fin 4096) (d : Fin 1024) : EReal :=
  Ideal.tanh ((∑ k : Fin 1024, aEB m c (ix2 row k) * aWA m c (ix2 d k)
    + ∑ k : Fin 1024, aEE m c (ix2 row k) * aWB m c (ix2 d k))
    + aB1 m c (ix2 (0 : Fin 1) d))

/-- The logit of a span at a vocabulary entry. -/
def logitK (c : Dev nD) (row : Fin 4096) (v : Fin 32000) : EReal :=
  ∑ d : Fin 1024, featK m c row d * aWO m c (ix2 v d)

/-- The logit of a span at its tag, from the gathered tag rows. -/
def tagK (c : Dev nD) (row : Fin 4096) : EReal :=
  ∑ d : Fin 1024, featK m c row d * aWT m c (ix2 row d)

/-! ## The pair's recursion, spelt -/

theorem runML_zero (z : Fin 32000 → EReal) :
    Spec.runML z 0 = (Spec.stepM ⊥ (Spec.tile z 0), Spec.stepL ⊥ 0 (Spec.tile z 0)) := rfl

theorem runML_succ (z : Fin 32000 → EReal) (j : Nat) :
    Spec.runML z (j + 1)
      = (Spec.stepM (Spec.runML z j).1 (Spec.tile z (j + 1)), Spec.stepL (Spec.runML z j).1 (Spec.runML z j).2 (Spec.tile z (j + 1))) := rfl

/-! ## One point's blocks -/

/-- The feature tile computed from a point's blocks is the features of the point's rows. -/
theorem feat_tile (c : Dev nD) (t : Fin cfg0.N) (r d : Fin 1024) :
    k0_pay8 (F := Ideal) (iblk m c 0 t) (iblk m c 1 t) (iblk m c 2 t) (iblk m c 3 t) (iblk m c 4 t) (ix2 r d) = featK m c (rowOf t r) d := by
  refine (pay8_apply (b0 m c t) (b1 m c t) (b2 m c t) (b3 m c t) (b4 m c t) r d).trans ?_
  refine (pay7_apply (b0 m c t) (b1 m c t) (b2 m c t) (b3 m c t) (b4 m c t) r d).trans ?_
  unfold featK
  refine congrArg Ideal.tanh ?_
  refine congrArg₂ (· + ·) (congrArg₂ (· + ·) (Finset.sum_congr rfl fun k _ => ?_) (Finset.sum_congr rfl fun k _ => ?_)) ?_
  · exact congrArg₂ (· * ·) (b0_apply m c t r k) (b2_apply m c t d k)
  · exact congrArg₂ (· * ·) (b1_apply m c t r k) (b3_apply m c t d k)
  · exact b4_apply m c t 0 d

/-- The tile of logits a point computes from a feature tile that holds its rows' features is tile t % 50 of those
    rows' logits. -/
theorem logit_tile (c : Dev nD) (t : Fin cfg0.N) (ft : Vec Ideal S1024x1024 .bf16)
    (hft : ∀ r d : Fin 1024, ft (ix2 r d) = featK m c (rowOf t r) d) (r : Fin 1024) :
    (fun l : Fin 640 => k0_pay2 (F := Ideal) ft (iblk m c 5 t) (ix2 r l)) = Spec.tile (logitK m c (rowOf t r)) (t.val % 50) := by
  funext l
  refine (pay2_apply ft (b5 m c t) r l).trans ?_
  have hj : t.val % 50 < 50 := Nat.mod_lt _ (by decide)
  unfold Spec.tile
  rw [dif_pos hj]
  unfold logitK
  refine Finset.sum_congr rfl fun d _ => ?_
  exact congrArg₂ (· * ·) (hft r d) (b5_apply m c t l d)

/-- The tag logit a point computes from its blocks. -/
theorem tag_tile (c : Dev nD) (t : Fin cfg0.N) (r : Fin 1024) (u : Fin 1) :
    k0_pay1 (F := Ideal) (k0_pay11 (F := Ideal) (iblk m c 0 t) (iblk m c 1 t) (iblk m c 2 t) (iblk m c 3 t) (iblk m c 4 t) (iblk m c 6 t)) (ix2 r u)
      = tagK m c (rowOf t r) := by
  rw [pay1_eq]
  refine (pay11_apply (b0 m c t) (b1 m c t) (b2 m c t) (b3 m c t) (b4 m c t) (b6 m c t) r u).trans ?_
  unfold tagK
  refine Finset.sum_congr rfl fun d _ => ?_
  refine congrArg₂ (· * ·) ?_ (b6_apply m c t r d)
  refine (pay8_apply (b0 m c t) (b1 m c t) (b2 m c t) (b3 m c t) (b4 m c t) r d).symm.trans ?_
  exact feat_tile m c t r d

/-! ## The invariant -/

/-- What row r of the scratch holds after point n. -/
def Holds (c : Dev nD) (n : Nat) (hn : n < cfg0.N) : Prop :=
  (∀ r d : Fin 1024, sFeat m c n hn (ix2 r d) = featK m c (rowOf ⟨n, hn⟩ r) d)
  ∧ (∀ (r : Fin 1024) (u : Fin 1), sMax m c n hn (ix2 r u) = (Spec.runML (logitK m c (rowOf ⟨n, hn⟩ r)) (n % 50)).1)
  ∧ (∀ (r : Fin 1024) (u : Fin 1), sSum m c n hn (ix2 r u) = (Spec.runML (logitK m c (rowOf ⟨n, hn⟩ r)) (n % 50)).2)
  ∧ (∀ (r : Fin 1024) (u : Fin 1), sTag m c n hn (ix2 r u) = tagK m c (rowOf ⟨n, hn⟩ r))

/-- The first point of a row block establishes it from the point's blocks alone. -/
theorem holds_first (c : Dev nD) (t : Fin cfg0.N) (h0 : t.val % 50 = 0) : Holds m c t.val t.isLt := by
  have hfe : ∀ r d : Fin 1024, sFeat m c t.val t.isLt (ix2 r d) = featK m c (rowOf t r) d := fun r d =>
    (congrFun (feat_first m c t h0) (ix2 r d)).trans (feat_tile m c t r d)
  have htile : ∀ r : Fin 1024, (fun l : Fin 640 => k0_pay2 (F := Ideal)
      (k0_pay8 (F := Ideal) (iblk m c 0 t) (iblk m c 1 t) (iblk m c 2 t) (iblk m c 3 t) (iblk m c 4 t)) (iblk m c 5 t) (ix2 r l))
      = Spec.tile (logitK m c (rowOf t r)) 0 := fun r => by
    have := logit_tile m c t _ (fun r d => feat_tile m c t r d) r
    rwa [h0] at this
  refine ⟨hfe, fun r u => ?_, fun r u => ?_, fun r u => ?_⟩
  · refine (congrFun (max_first m c t h0) (ix2 r u)).trans ?_
    rw [pay5_eq]
    refine (pay3_apply _ (iblk m c 5 t) (k0_pay9 (F := Ideal)) r u).trans ?_
    rw [htile r, pay9_apply, h0, runML_zero]
  · refine (congrFun (sum_first m c t h0) (ix2 r u)).trans ?_
    refine (pay4_apply _ (iblk m c 5 t) (k0_pay9 (F := Ideal)) (k0_pay10 (F := Ideal)) r u).trans ?_
    rw [htile r, pay9_apply, pay10_apply, h0, runML_zero]
  · exact (congrFun (tag_first m c t h0) (ix2 r u)).trans (tag_tile m c t r u)

/-- A later point of a row block carries it over from the point before. -/
theorem holds_later (c : Dev nD) (t : Fin cfg0.N) (h0 : ¬t.val % 50 = 0)
    (ih : Holds m c (t.val - 1) (Nat.lt_of_le_of_lt (Nat.sub_le _ _) t.isLt)) : Holds m c t.val t.isLt := by
  obtain ⟨ihF, ihM, ihS, ihT⟩ := ih
  have hrow : ∀ r : Fin 1024, rowOf ⟨t.val - 1, (Nat.lt_of_le_of_lt (Nat.sub_le _ _) t.isLt)⟩ r = rowOf t r := fun r => by
    apply Fin.ext
    show 1024 * ((t.val - 1) / 50) + r.val = 1024 * (t.val / 50) + r.val
    have : (t.val - 1) / 50 = t.val / 50 := by omega
    rw [this]
  have hmod : t.val % 50 = (t.val - 1) % 50 + 1 := by omega
  have hfe : ∀ r d : Fin 1024, sFeat m c (t.val - 1) (Nat.lt_of_le_of_lt (Nat.sub_le _ _) t.isLt) (ix2 r d) = featK m c (rowOf t r) d := fun r d => by
    rw [← hrow r]; exact ihF r d
  have htile : ∀ r : Fin 1024, (fun l : Fin 640 => k0_pay2 (F := Ideal) (sFeat m c (t.val - 1) (Nat.lt_of_le_of_lt (Nat.sub_le _ _) t.isLt)) (iblk m c 5 t) (ix2 r l))
      = Spec.tile (logitK m c (rowOf t r)) ((t.val - 1) % 50 + 1) := fun r => by
    have := logit_tile m c t _ hfe r
    rwa [hmod] at this
  refine ⟨fun r d => ?_, fun r u => ?_, fun r u => ?_, fun r u => ?_⟩
  · exact (congrFun (feat_later m c t h0) (ix2 r d)).trans (hfe r d)
  · refine (congrFun (max_later m c t h0) (ix2 r u)).trans ?_
    rw [pay5_eq]
    refine (pay3_apply _ (iblk m c 5 t) _ r u).trans ?_
    rw [htile r, ihM r u, hrow r, hmod, runML_succ]
  · refine (congrFun (sum_later m c t h0) (ix2 r u)).trans ?_
    refine (pay4_apply _ (iblk m c 5 t) _ _ r u).trans ?_
    rw [htile r, ihM r u, ihS r u, hrow r, hmod, runML_succ]
  · refine (congrFun (tag_later m c t h0) (ix2 r u)).trans ?_
    rw [← hrow r]; exact ihT r u

/-- The invariant at every point, by induction along the grid. -/
theorem holds (c : Dev nD) : ∀ (n : Nat) (hn : n < cfg0.N), Holds m c n hn := by
  intro n
  induction n with
  | zero => intro hn; exact holds_first m c ⟨0, hn⟩ (by simp)
  | succ k ih =>
    intro hn
    by_cases h0 : (k + 1) % 50 = 0
    · exact holds_first m c ⟨k + 1, hn⟩ h0
    · exact holds_later m c ⟨k + 1, hn⟩ h0 (ih (Nat.lt_of_succ_lt hn))

/-! ## What the last point of a row block stores -/

/-- Row r of the output block after the last tile: the streaming loss term of the span's logits and tag logit. -/
theorem out_last_apply (c : Dev nD) (t : Fin cfg0.N) (h1 : t.val % 50 = 49) (r : Fin 1024) (u : Fin 1) :
    sOut m c t.val t.isLt (ix2 r u) = Spec.nllStream (logitK m c (rowOf t r)) (tagK m c (rowOf t r)) := by
  have h0 : ¬t.val % 50 = 0 := by omega
  obtain ⟨-, hM, hS, hT⟩ := holds m c t.val t.isLt
  refine (congrFun (out_last m c t h1) (ix2 r u)).trans ?_
  refine (pay6_apply _ _ _ r u).trans ?_
  rw [← max_later m c t h0, ← sum_later m c t h0, ← tag_later m c t h0, hM r u, hS r u, hT r u, h1]
  rfl

end Cert.KernelIdeal.Inv

end
-- ==== Proof.KFinal.lean ====
/-
  The array of loss terms the kernel leaves.

  The output window holds one column of 4096 entries in four blocks of 1024 rows; block q is written back only at
  the last vocabulary tile of row block q (point 50 · q + 49), and what that point writes back is, row by row, the
  streaming loss term of its spans.  The four blocks cover the column, so after the run entry i of the array is
  the streaming loss term of span i.
-/
import proofs.«420658_j82386062672565_2_alg».proof.Proof.KInv
import Idealize.ShloMosaic.Lib.Pipeline.Value

set_option maxRecDepth 16384

noncomputable section

namespace Cert.KernelIdeal.Final

open Idealize.ShloMosaic Idealize.ShloMosaic.TcCoe Idealize.ShloMosaic.ValueIdx Idealize.SL.Sem
open Cert.KernelIdeal Cert.KernelIdeal.Gen Cert.KernelIdeal.Blocks Cert.KernelIdeal.Cases Cert.KernelIdeal.Inv

variable (m : (ℓ : Loc nD τ sig) → Buf (Elt Ideal) ℓ)

/-- The span an index of the output column names. -/
def spanOf (i : S4096x1.Idx) : Fin 4096 := ⟨(i 0).val, idx2_lt0 i⟩

/-- The column of streaming loss terms, one per span. -/
def nllArr (c : Dev nD) : Vec Ideal S4096x1 .f32 := fun i =>
  Spec.nllStream (logitK m c (spanOf i)) (tagK m c (spanOf i))

/-- Row r of the output block of point t is span 1024 · (t / 50) + r. -/
theorem span_emb (t : Fin cfg0.N) (r : Fin 1024) (u : Fin 1) :
    spanOf (((cfg0.win 7).blk t).view.emb (ix2 r u)) = rowOf t r := by
  obtain ⟨-, -, -, -, -, -, -, -, -, -, -, -, -, -, e0, e1⟩ := idx_facts t
  apply Fin.ext
  show win0_7.index t (0 : Fin 2) * 1024 + 1 * r.val = 1024 * (t.val / 50) + r.val
  omega

/-- What a flushing point writes back is its block of the column. -/
theorem flushed_eq (c : Dev nD) (t : Fin cfg0.N) (hf : (cfg0.win 7).flush t = true) :
    (dats m 0 c).flushed 7 t = ((cfg0.win 7).blk t).view.read (Elt Ideal) (nllArr m c) := by
  have h1 : t.val % 50 = 49 := (flush0_7 t).mp hf
  show (cfg0.win 7).cut (grid0.coords t) ((dats m 0 c).after 7 t) = _
  rw [after0_7]
  funext j
  obtain ⟨r, u, rfl⟩ : ∃ (r : Fin 1024) (u : Fin 1), j = ix2 r u := ⟨j 0, j 1, eq_ix2 j⟩
  show sOut m c t.val t.isLt (ix2 r u) = nllArr m c (((cfg0.win 7).blk t).view.emb (ix2 r u))
  rw [out_last_apply m c t h1 r u]
  show _ = Spec.nllStream (logitK m c (spanOf (((cfg0.win 7).blk t).view.emb (ix2 r u)))) (tagK m c (spanOf (((cfg0.win 7).blk t).view.emb (ix2 r u))))
  rw [span_emb t r u]

/-- An index of the column is in point t's block iff each coordinate is in the block's range on its axis. -/
theorem mem_blk7 (t : Fin cfg0.N) (i : S4096x1.Idx) :
    i ∈ ((cfg0.win 7).blk t).view.set ↔ ∀ a : Fin 2, win0_7.index t a * S1024x1.size a ≤ (i a).val ∧ (i a).val < win0_7.index t a * S1024x1.size a + S1024x1.size a := by
  show i ∈ ((View.whole main_v44).slice (win0_7.rect t)).set ↔ _
  rw [View.set_slice_whole, Rect.mem_set_unit]
  exact Iff.rfl

/-- Every entry of the column is in the block of the last-tile point of its row block. -/
theorem cover (i : S4096x1.Idx) : ∃ t : Fin cfg0.N, (cfg0.win 7).flush t = true ∧ i ∈ ((cfg0.win 7).blk t).view.set := by
  have hi0 : (i 0).val < 4096 := (i 0).isLt
  have hi1 : (i 1).val < 1 := (i 1).isLt
  have hN : cfg0.N = 200 := N_0
  have hlt : 50 * ((i 0).val / 1024) + 49 < cfg0.N := by rw [hN]; omega
  refine ⟨⟨50 * ((i 0).val / 1024) + 49, hlt⟩, (flush0_7 _).mpr (by show (50 * ((i 0).val / 1024) + 49) % 50 = 49; omega), ?_⟩
  rw [mem_blk7]
  obtain ⟨-, -, -, -, -, -, -, -, -, -, -, -, -, -, e0, e1⟩ := idx_facts ⟨50 * ((i 0).val / 1024) + 49, hlt⟩
  have hq : (50 * ((i 0).val / 1024) + 49) / 50 = (i 0).val / 1024 := by omega
  intro a
  match a with
  | ⟨0, _⟩ =>
    show win0_7.index ⟨50 * ((i 0).val / 1024) + 49, hlt⟩ (0 : Fin 2) * 1024 ≤ (i 0).val
      ∧ (i 0).val < win0_7.index ⟨50 * ((i 0).val / 1024) + 49, hlt⟩ (0 : Fin 2) * 1024 + 1024
    have e0' : win0_7.index ⟨50 * ((i 0).val / 1024) + 49, hlt⟩ (0 : Fin 2) = (i 0).val / 1024 := e0.trans hq
    omega
  | ⟨1, _⟩ =>
    show win0_7.index ⟨50 * ((i 0).val / 1024) + 49, hlt⟩ (1 : Fin 2) * 1 ≤ (i 1).val
      ∧ (i 1).val < win0_7.index ⟨50 * ((i 0).val / 1024) + 49, hlt⟩ (1 : Fin 2) * 1 + 1
    omega

/-- The output array after the run is the column of streaming loss terms. -/
theorem final (c : Dev nD) : (dats m 0 c).arrAt 7 cfg0.N = nllArr m c :=
  (dats m 0 c).arrAt_eq_of_cover 7 (nllArr m c) (fun t hf => flushed_eq m c t hf) cover

end Cert.KernelIdeal.Final

end
-- ==== Proof.KHost.lean ====
/-
  The arrays the kernel's region finds, and the program's result, as operations of the arguments.

  Before the region the host code gathers the two endpoint embeddings, cuts W1 into its two halves, lays the
  bias out as a row, and gathers the vocabulary matrix's rows at the clipped, normalised tags; converting to the
  narrower float format is the identity on extended reals.  After the region it weights each span's loss term by
  one minus the discard probability at the span's tag, sums, and divides by 4096.
-/
import proofs.«420658_j82386062672565_2_alg».proof.Proof.KFinal
import Idealize.ShloMosaic.Lib.StableHlo.Run
import Idealize.ShloMosaic.Lib.ValueLayout

set_option maxRecDepth 16384

noncomputable section

namespace Cert.KernelIdeal.Host

open Idealize.ShloMosaic Idealize.ShloMosaic.TcCoe Idealize.ShloMosaic.ValueIdx Idealize.SL.Sem Idealize.ShloMosaic.StableHlo
open Cert.KernelIdeal Cert.KernelIdeal.Gen Cert.KernelIdeal.Inv Cert.KernelIdeal.Final

variable (m : (ℓ : Loc nD τ sig) → Buf (Elt Ideal) ℓ)

/-- The tags clipped into [0, 31999]: maximum with 0, then minimum with 31999. -/
def tagsClip (c : Dev nD) : IVec S4096 32 :=
  minsi (broadcastInDim S4096 ![] bcast_S_S4096 (constantI S_ 32 31999#32))
    (maxsi (broadcastInDim S4096 ![] bcast_S_S4096 (constantI S_ 32 0#32)) (m ((c : Thread nD τ).loc main_arg8)))

/-- A negative index counted from the end: x + 32000 where x < 0. -/
def normIdx (x : IVec S4096 32) : IVec S4096 32 :=
  select (cmpi .slt x (broadcastInDim S4096 ![] bcast_S_S4096 (constantI S_ 32 0#32)))
    (addi x (broadcastInDim S4096 ![] bcast_S_S4096 (constantI S_ 32 32000#32))) x

set_option maxHeartbeats 4000000 in
theorem V_v0 (c : Dev nD) : (V m c main_v0 : IVec S4096 32) = tagsClip m c := by
  dsimp only [V, V0]
  simp only [hostOps0, hostOps0_1, hostOps0_2, List.flatten_cons, List.flatten_nil, List.append_nil, List.cons_append, List.nil_append]
  after_results_simp
  rfl

set_option maxHeartbeats 4000000 in
/-- The first half of W1: columns 0 … 1023. -/
theorem V_v32 (c : Dev nD) : aWA m c = truncf (F := Ideal) .bf16 (extractStridedSlice S1024x1024 ![0, 0] (m ((c : Thread nD τ).loc main_arg1)) slices_S1024x2048_S1024x1024_0_0) bitsLt_bf16_f32 := by
  dsimp only [aWA, V, V0]
  simp only [hostOps0, hostOps0_1, hostOps0_2, List.flatten_cons, List.flatten_nil, List.append_nil, List.cons_append, List.nil_append]
  after_results_simp

set_option maxHeartbeats 4000000 in
/-- The second half of W1: columns 1024 … 2047. -/
theorem V_v34 (c : Dev nD) : aWB m c = truncf (F := Ideal) .bf16 (extractStridedSlice S1024x1024 ![0, 1024] (m ((c : Thread nD τ).loc main_arg1)) slices_S1024x2048_S1024x1024_0_1024) bitsLt_bf16_f32 := by
  dsimp only [aWB, V, V0]
  simp only [hostOps0, hostOps0_1, hostOps0_2, List.flatten_cons, List.flatten_nil, List.append_nil, List.cons_append, List.nil_append]
  after_results_simp

set_option maxHeartbeats 4000000 in
/-- The bias as a row. -/
theorem V_v35 (c : Dev nD) : aB1 m c = shapeCast S1x1024 (m ((c : Thread nD τ).loc main_arg2)) shapeCasts_S1024_S1x1024 := by
  dsimp only [aB1, V, V0]
  simp only [hostOps0, hostOps0_1, hostOps0_2, List.flatten_cons, List.flatten_nil, List.append_nil, List.cons_append, List.nil_append]
  after_results_simp
  rfl

set_option maxHeartbeats 4000000 in
/-- The vocabulary matrix. -/
theorem V_v36 (c : Dev nD) : aWO m c = truncf (F := Ideal) .bf16 (m ((c : Thread nD τ).loc main_arg3)) bitsLt_bf16_f32 := by
  dsimp only [aWO, V, V0]
  simp only [hostOps0, hostOps0_1, hostOps0_2, List.flatten_cons, List.flatten_nil, List.append_nil, List.cons_append, List.nil_append]
  after_results_simp

set_option maxHeartbeats 4000000 in
/-- The gathered tag rows: the vocabulary matrix's rows at the clipped, normalised tags. -/
theorem V_v43 (c : Dev nD) : aWT m c = Host.gather gather_S32000x1024_S4096x1_S4096x1024_1_0_n_n_0_1_11024
      (truncf (F := Ideal) .bf16 (m ((c : Thread nD τ).loc main_arg3)) bitsLt_bf16_f32)
      (broadcastInDim S4096x1 ![0] bcast_S4096_S4096x1_0 (normIdx (tagsClip m c))) := by
  dsimp only [aWT, V, V0]
  simp only [hostOps0, hostOps0_1, hostOps0_2, List.flatten_cons, List.flatten_nil, List.append_nil, List.cons_append, List.nil_append]
  after_results_simp
  rfl

/-- The weight of a span: one minus the discard probability at its (clipped, normalised) tag. -/
def keepW (c : Dev nD) : FVec Ideal S4096 .f32 :=
  subf (broadcastInDim S4096 ![] bcast_S_S4096 (constant S_ .f32 0x3F800000#32))
    (Host.gather gather_S32000_S4096x1_S4096_n_0_n_n_0_1_1 (m ((c : Thread nD τ).loc main_arg4))
      (broadcastInDim S4096x1 ![0] bcast_S4096_S4096x1_0 (normIdx (tagsClip m c))))

/-- The mean of weighted loss terms: the program's last three operations. -/
def meanLoss (nl sc : FVec Ideal S4096 .f32) : FVec Ideal S_ .f32 :=
  Host.divf (Host.reduceAdd (mulf nl sc) (constant S_ .f32 0x00000000#32) reducesTo_S4096_S_d0 h_S_) (constant S_ .f32 0x45800000#32)

set_option maxHeartbeats 4000000 in
/-- The program's result: the weighted mean of the column of streaming loss terms. -/
theorem result_eq (c : Dev nD) :
    Pipeline.afterTail₀ cfgs (dats m) 0 (V0 m) [hostOps1] c main_v57
      = meanLoss (shapeCast S4096 (nllArr m c) shapeCasts_S4096x1_S4096) (keepW m c) := by
  have e44 : Pipeline.withArrays (cfgs 0).spec c (V0 m c) (fun w => (dats m 0 c).arrAt w (cfgs 0).N) (Proc.devRef .tc main_v44) = nllArr m c :=
    (Pipeline.withArrays_arr spec0 launch0.win.arr_inj c _ _ 7).trans (final m c)
  have e4 : Pipeline.withArrays (cfgs 0).spec c (V0 m c) (fun w => (dats m 0 c).arrAt w (cfgs 0).N) (Proc.devRef .tc main_arg4) = m ((c : Thread nD τ).loc main_arg4) :=
    (Pipeline.withArrays_of_ne _ c (V0 m c) _ main_arg4 (by exact (by decide : ∀ w, Pipeline.arrRef spec0 w ≠ main_arg4))).trans (V_main_arg4 m c)
  have e0 : Pipeline.withArrays (cfgs 0).spec c (V0 m c) (fun w => (dats m 0 c).arrAt w (cfgs 0).N) (Proc.devRef .tc main_v0) = tagsClip m c :=
    (Pipeline.withArrays_of_ne _ c (V0 m c) _ main_v0 (by exact (by decide : ∀ w, Pipeline.arrRef spec0 w ≠ main_v0))).trans (V_v0 m c)
  unfold Pipeline.afterTail₀
  show StableHlo.after hostOps1 _ (Proc.devRef .tc main_v57) = _
  after_results_simp
  rw [e44, e4, e0]
  rfl

end Cert.KernelIdeal.Host

end
-- ==== Proof.LibGather.lean ====
/-
  The host gather read at an entry, for two sets of dimension numbers. A gather's result element is the operand at an
  index assembled axis by axis: the start index's component for that axis (read as a signed integer and clamped so
  that the slice fits), plus the batching coordinate, plus the offset coordinate. For a ROW gather of a matrix
  (one collapsed, start-indexed axis; the other axis an offset axis of full width) this is row clamp(idx r), column d;
  for a BATCHED take along the last axis (the row axis a batching axis, the column axis collapsed and start-indexed)
  it is row r, column clamp(idx r). Stated for any element type and any extents.
-/
import Idealize.ShloMosaic.Lib.ValueIdx
import Idealize.ShloMosaic.PureOps.ShapeOps

namespace Cert.Lib.Gather

open Idealize.ShloMosaic Idealize.ShloMosaic.ValueIdx

variable {α : Type}

/-! ## A row gather: the rows of a matrix at a column of row indices -/

/-- The dimension numbers of a row gather: operand `[N, D]`, start indices `[R, 1]` (the index vector on axis 1, of
    length one), result `[R, D]`; operand axis 0 is collapsed and start-indexed, operand axis 1 is read whole
    (slice size `D`) through the result's offset axis 1. -/
abbrev rowDims (N D R : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- Row `r` of the result is row clamp(idx r) of the operand, the start index read signed and clamped into
    `[0, N − 1]`; column `d` is the offset coordinate. -/
theorem gather_row_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (d : Fin D) :
    Host.gather (rowDims N D R wf) x idx (ix2 r d)
      = x (ix2 (⟨min (idx (ix2 r (0 : Fin 1))).toInt.toNat (N - 1), by omega⟩ : Fin N) d) := by
  unfold Host.gather
  congr 1
  funext a
  refine Fin.ext ?_
  -- the collapsed, start-indexed axis: no batching or offset coordinate, the start is the clamped index
  have h0 : (rowDims N D R wf).start (ix2 r d) idx 0 + (rowDims N D R wf).batchCoord (ix2 r d) 0
      + (rowDims N D R wf).offCoord (ix2 r d) 0 = min (idx (ix2 r (0 : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R wf).startIndexMap from List.mem_singleton.mpr rfl)]
    have hsi : (rowDims N D R wf).siIdx (ix2 r d) ⟨List.idxOf (0 : Fin 2) (rowDims N D R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  -- the offset axis: not start-indexed, so the start is 0, and the coordinate is the result's column
  have h1 : (rowDims N D R wf).start (ix2 r d) idx 1 + (rowDims N D R wf).batchCoord (ix2 r d) 1
      + (rowDims N D R wf).offCoord (ix2 r d) 1 = d.val := by
    rw [GatherDims.batchCoord_eq_zero _ _ _ List.not_mem_nil]
    have hk : (1 : Fin 2) ∈ (rowDims N D R wf).sKept :=
      (GatherDims.mem_sKept _ _).mpr ⟨show (1 : Fin 2) ∉ ([0] : List (Fin 2)) by decide, List.not_mem_nil⟩
    unfold GatherDims.start GatherDims.offCoord
    rw [dif_neg (show (1 : Fin 2) ∉ ([0] : List (Fin 2)) by decide), dif_pos hk]
    simp only [Nat.zero_add, Nat.add_zero]
    rfl
  match a with
  | ⟨0, _⟩ => exact h0
  | ⟨1, _⟩ => exact h1

/-! ## A batched take along the last axis: each row of a matrix at its own column index -/

/-- The dimension numbers of a batched take along the last axis: operand `[R, N]`, start indices `[R, 1, 1]` (the
    index vector on axis 2, of length one), result `[R, 1]`; operand axis 0 is a batching axis paired with the start
    indices' axis 0, operand axis 1 is collapsed and start-indexed, and there is no offset axis. -/
abbrev alongDims (R N : Nat) (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- Row `r` of the result reads row `r` of the operand (the batching coordinate) at the column clamp(idx r), the start
    index read signed and clamped into `[0, N − 1]`. -/
theorem gather_along_apply {R N w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) (u : Fin 1) :
    Host.gather (alongDims R N wf) x idx (ix2 r u)
      = x (ix2 r (⟨min (idx (ix3 r (0 : Fin 1) (0 : Fin 1))).toInt.toNat (N - 1), by omega⟩ : Fin N)) := by
  -- the result's unit coordinate is 0
  obtain rfl : u = 0 := Subsingleton.elim _ _
  unfold Host.gather
  congr 1
  funext a
  refine Fin.ext ?_
  have hb0 : (0 : Fin 2) ∈ (alongDims R N wf).operandBatchingDims := List.mem_singleton.mpr rfl
  have hb1 : (1 : Fin 2) ∉ (alongDims R N wf).operandBatchingDims :=
    show (1 : Fin 2) ∉ ([0] : List (Fin 2)) by decide
  -- the batching axis: no start and no offset coordinate, the batching coordinate is the result's row
  have h0 : (alongDims R N wf).start (ix2 r (0 : Fin 1)) idx 0 + (alongDims R N wf).batchCoord (ix2 r (0 : Fin 1)) 0
      + (alongDims R N wf).offCoord (ix2 r (0 : Fin 1)) 0 = r.val := by
    rw [GatherDims.start_batching _ _ _ _ hb0,
      GatherDims.offCoord_eq_zero _ _ _ (fun h => ((GatherDims.mem_sKept _ _).mp h).2 hb0)]
    simp only [Nat.zero_add, Nat.add_zero]
    unfold GatherDims.batchCoord
    rw [dif_pos hb0]
    rfl
  -- the collapsed, start-indexed axis: no batching or offset coordinate, the start is the clamped index
  have h1 : (alongDims R N wf).start (ix2 r (0 : Fin 1)) idx 1 + (alongDims R N wf).batchCoord (ix2 r (0 : Fin 1)) 1
      + (alongDims R N wf).offCoord (ix2 r (0 : Fin 1)) 1
      = min (idx (ix3 r (0 : Fin 1) (0 : Fin 1))).toInt.toNat (N - 1) := by
    rw [GatherDims.batchCoord_eq_zero _ _ _ hb1,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R N wf).startIndexMap from List.mem_singleton.mpr rfl)]
    have hsi : (alongDims R N wf).siIdx (ix2 r (0 : Fin 1)) ⟨List.idxOf (1 : Fin 2) (alongDims R N wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl
  match a with
  | ⟨0, _⟩ => exact h0
  | ⟨1, _⟩ => exact h1

end Cert.Lib.Gather
-- ==== Proof.LibIndex.lean ====
/-
  Index clamping and negative-index normalisation are the identity on an index array that is already in range.
  Stated for a rank-one array of 32-bit words of any length, each word read as a signed integer, and for the bound
  32000.

  * Clipping into [0, 31999] is the signed maximum with 0 followed by the signed minimum with 31999. The signed maximum
    of 0 and a is a unless a < 0; the signed minimum of 31999 and a is a unless 31999 < a. For 0 ≤ a < 32000 neither
    exception occurs, so both steps return a.
  * Normalisation replaces a by a + 32000 where a < 0 and leaves it elsewhere. For 0 ≤ a the test a < 0 fails, its bit
    is 0, and the selection returns a.
  * As a natural number, an integer in [0, 32000) is at most 31999, so its minimum with 32000 - 1 is itself.

  The constants reach the array operations as scalars broadcast along the one axis; a broadcast scalar reads the same
  word at every position.
-/
import Idealize.ShloMosaic.PureOps
import Idealize.ShloMosaic.Lib.ValueIdx

namespace Cert.Lib.Index

open Idealize.ShloMosaic Idealize.ShloMosaic.ValueIdx

/-- The signed maximum of 0 and a nonnegative word is the word. -/
theorem maxsi_zero (a : BitVec 32) (h0 : 0 ≤ a.toInt) : IntOp.maxsi 0#32 a = a := by
  have z : (0#32 : BitVec 32).toInt = 0 := by decide
  have hs : ¬ (a.slt 0#32 = true) := by
    rw [BitVec.slt_iff_toInt_lt, z]
    omega
  show (if a.slt 0#32 = true then 0#32 else a) = a
  exact if_neg hs

/-- The signed minimum of 31999 and a word below 32000 is the word. -/
theorem minsi_top (a : BitVec 32) (h1 : a.toInt < 32000) : IntOp.minsi 31999#32 a = a := by
  have t : (31999#32 : BitVec 32).toInt = 31999 := by decide
  have hs : ¬ ((31999#32 : BitVec 32).slt a = true) := by
    rw [BitVec.slt_iff_toInt_lt, t]
    omega
  show (if (31999#32 : BitVec 32).slt a = true then 31999#32 else a) = a
  exact if_neg hs

/-- The comparison "a < 0, signed" of a nonnegative word is the bit 0. -/
theorem slt_zero_bit (a : BitVec 32) (h0 : 0 ≤ a.toInt) : IntOp.cmpi .slt a 0#32 = 0#1 := by
  have z : (0#32 : BitVec 32).toInt = 0 := by decide
  have hs : ¬ (a.slt 0#32 = true) := by
    rw [BitVec.slt_iff_toInt_lt, z]
    omega
  rw [Bool.not_eq_true] at hs
  show BitVec.ofBool (a.slt 0#32) = 0#1
  rw [hs]
  rfl

/-- Clipping into [0, 31999] leaves an array with entries in [0, 32000) as it is. -/
theorem clip_eq {n : Nat} (x : IVec ⟨1, ![n]⟩ 32) (hb : (⟨0, ![]⟩ : Shape).BroadcastsInDim ⟨1, ![n]⟩ (![] : Fin 0 → Fin 1))
    (h : ∀ i, 0 ≤ (x i).toInt ∧ (x i).toInt < 32000) :
    minsi (broadcastInDim ⟨1, ![n]⟩ ![] hb (constantI ⟨0, ![]⟩ 32 31999#32)) (maxsi (broadcastInDim ⟨1, ![n]⟩ ![] hb (constantI ⟨0, ![]⟩ 32 0#32)) x) = x := by
  funext i
  show IntOp.minsi 31999#32 (IntOp.maxsi 0#32 (x i)) = x i
  rw [maxsi_zero _ (h i).1, minsi_top _ (h i).2]

/-- Adding 32000 where an entry is negative leaves an array with no negative entry as it is. -/
theorem norm_eq {n : Nat} (x : IVec ⟨1, ![n]⟩ 32) (hb : (⟨0, ![]⟩ : Shape).BroadcastsInDim ⟨1, ![n]⟩ (![] : Fin 0 → Fin 1))
    (h : ∀ i, 0 ≤ (x i).toInt) :
    select (cmpi .slt x (broadcastInDim ⟨1, ![n]⟩ ![] hb (constantI ⟨0, ![]⟩ 32 0#32))) (addi x (broadcastInDim ⟨1, ![n]⟩ ![] hb (constantI ⟨0, ![]⟩ 32 32000#32))) x = x := by
  funext i
  show Scalar.select (IntOp.cmpi .slt (x i) 0#32) (IntOp.addi (x i) 32000#32) (x i) = x i
  rw [slt_zero_bit _ (h i), select_zero]

/-- An integer in [0, 32000), as a natural number, is its own minimum with 32000 - 1. -/
theorem toNat_clamp (a : BitVec 32) (h0 : 0 ≤ a.toInt) (h1 : a.toInt < 32000) : min a.toInt.toNat (32000 - 1) = a.toInt.toNat := by
  omega

end Cert.Lib.Index
-- ==== Proof.Softmax.lean ====
/-
  The streaming form of log-sum-exp over the reals.

  A row of logits is read tile by tile.  The running pair (m, l) starts at (-∞, 0); a tile x updates it to
  m' = max m (max x) and l' = exp (m - m') * l + Σ exp (x - m').  After the tiles read so far, m is the
  maximum of the entries read and l the sum of exp (entry - m) over them.  After the last tile the entries
  read are the whole row, and both forms of the loss term equal  M + log (Σ_v exp (y v - M)) - y tag  with
  M the row's maximum.
-/
import proofs.«420658_j82386062672565_2_alg».proof.Proof.Spec
import Mathlib.Analysis.SpecialFunctions.Log.Basic
import Mathlib.Data.EReal.Operations
import Mathlib.Data.Finset.Fold
import Mathlib.Data.Finset.Max
import Mathlib.Data.Fintype.BigOperators
import Mathlib.Algebra.BigOperators.Fin
import Mathlib.Logic.Equiv.Fin.Basic

namespace Cert.Softmax

open Idealize.ShloMosaic Cert.Spec

/-- Shifting the reference point of a sum of exponentials: exp (a - b) * Σ exp (x - a) = Σ exp (x - b). -/
theorem exp_shift_sum {ι : Type*} (s : Finset ι) (x : ι → ℝ) (a b : ℝ) :
    Real.exp (a - b) * ∑ i ∈ s, Real.exp (x i - a) = ∑ i ∈ s, Real.exp (x i - b) := by
  rw [Finset.mul_sum]
  refine Finset.sum_congr rfl fun i _ => ?_
  rw [← Real.exp_add]
  congr 1
  ring

/-- The embedding of the reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The embedding of the reals commutes with the binary maximum. -/
theorem coe_max (a b : ℝ) : ((max a b : ℝ) : EReal) = max (a : EReal) (b : EReal) :=
  EReal.coe_strictMono.monotone.map_max

/-- The maximum of a nonempty family of reals, folded from -∞, is one of its entries and bounds them all. -/
theorem tileMax_coe {n : Nat} (hn : 0 < n) (x : Fin n → ℝ) :
    ∃ k0 : Fin n, (∀ k, x k ≤ x k0) ∧ tileMax (fun k => ((x k : ℝ) : EReal)) = ((x k0 : ℝ) : EReal) := by
  haveI : Nonempty (Fin n) := ⟨⟨0, hn⟩⟩
  obtain ⟨k0, -, hk0⟩ := Finset.exists_max_image (Finset.univ : Finset (Fin n)) x Finset.univ_nonempty
  refine ⟨k0, fun k => hk0 k (Finset.mem_univ k), le_antisymm ?_ ?_⟩
  · exact (Finset.fold_max_le _).2 ⟨bot_le, fun k _ => EReal.coe_le_coe_iff.2 (hk0 k (Finset.mem_univ k))⟩
  · exact (Finset.le_fold_max _).2 (Or.inr ⟨k0, Finset.mem_univ k0, le_rfl⟩)

/-- The exponentials of real entries relative to a real reference point sum to a real. -/
theorem sum_exp_coe {n : Nat} (x : Fin n → ℝ) (b : ℝ) :
    (∑ k : Fin n, Ideal.exp (((x k : ℝ) : EReal) - (b : EReal)))
      = ((∑ k : Fin n, Real.exp (x k - b) : ℝ) : EReal) := by
  rw [coe_sum]
  refine Finset.sum_congr rfl fun k _ => ?_
  rw [← EReal.coe_sub, Ideal.exp_coe]

/-- The first tile, from (-∞, 0): m becomes the tile's maximum and l the tile's sum relative to it. -/
theorem step_bot (x : Fin 640 → ℝ) :
    ∃ k0 : Fin 640, (∀ k, x k ≤ x k0) ∧
      stepM ⊥ (fun k => ((x k : ℝ) : EReal)) = ((x k0 : ℝ) : EReal) ∧
      stepL ⊥ 0 (fun k => ((x k : ℝ) : EReal)) = ((∑ k : Fin 640, Real.exp (x k - x k0) : ℝ) : EReal) := by
  obtain ⟨k0, hle, ht⟩ := tileMax_coe (by norm_num : 0 < 640) x
  have hM : stepM ⊥ (fun k => ((x k : ℝ) : EReal)) = ((x k0 : ℝ) : EReal) := by
    unfold stepM
    rw [ht, max_eq_right bot_le]
  refine ⟨k0, hle, hM, ?_⟩
  unfold stepL
  rw [hM, mul_zero, zero_add, sum_exp_coe]

/-- A later tile, from a real pair (M, L): m becomes max M T with T the tile's maximum, and
    l becomes exp (M - max M T) * L plus the tile's sum relative to max M T. -/
theorem step_coe (M L : ℝ) (x : Fin 640 → ℝ) :
    ∃ k0 : Fin 640, (∀ k, x k ≤ x k0) ∧
      stepM (M : EReal) (fun k => ((x k : ℝ) : EReal)) = ((max M (x k0) : ℝ) : EReal) ∧
      stepL (M : EReal) (L : EReal) (fun k => ((x k : ℝ) : EReal))
        = ((Real.exp (M - max M (x k0)) * L + ∑ k : Fin 640, Real.exp (x k - max M (x k0)) : ℝ) : EReal) := by
  obtain ⟨k0, hle, ht⟩ := tileMax_coe (by norm_num : 0 < 640) x
  have hM : stepM (M : EReal) (fun k => ((x k : ℝ) : EReal)) = ((max M (x k0) : ℝ) : EReal) := by
    unfold stepM
    rw [ht, coe_max]
  refine ⟨k0, hle, hM, ?_⟩
  unfold stepL
  rw [hM, sum_exp_coe, ← EReal.coe_sub, Ideal.exp_coe, ← EReal.coe_mul, ← EReal.coe_add]

/-- Entry k of tile j of a real row (zero beyond the 50 tiles, which nothing reads). -/
noncomputable def rtile (y : Fin 32000 → ℝ) (j : Nat) (k : Fin 640) : ℝ :=
  if h : j < 50 then y ⟨640 * j + k.val, by have := k.isLt; omega⟩ else 0

/-- A tile of an embedded real row is the embedded real tile. -/
theorem tile_coe (y : Fin 32000 → ℝ) (j : Nat) (hj : j < 50) :
    tile (fun v => ((y v : ℝ) : EReal)) j = fun k => ((rtile y j k : ℝ) : EReal) := by
  funext k
  unfold tile rtile
  rw [dif_pos hj, dif_pos hj]

/-- The state after tiles 0 … j of a real row: m is a real M, an upper bound of the entries read that one of
    them attains, and l is the sum over the entries read of exp (entry - M). -/
def Inv (y : Fin 32000 → ℝ) (j : Nat) (p : EReal × EReal) : Prop :=
  ∃ M : ℝ, p.1 = (M : EReal) ∧ (∀ i, i ≤ j → ∀ k, rtile y i k ≤ M) ∧ (∃ i, i ≤ j ∧ ∃ k, rtile y i k = M) ∧
    p.2 = ((∑ i ∈ Finset.range (j + 1), ∑ k : Fin 640, Real.exp (rtile y i k - M) : ℝ) : EReal)

/-- The invariant holds after the first tile. -/
theorem inv_zero (y : Fin 32000 → ℝ) : Inv y 0 (runML (fun v => ((y v : ℝ) : EReal)) 0) := by
  obtain ⟨k0, hle, hM, hL⟩ := step_bot (rtile y 0)
  refine ⟨rtile y 0 k0, ?_, ?_, ⟨0, le_rfl, k0, rfl⟩, ?_⟩
  · show stepM ⊥ (tile (fun v => ((y v : ℝ) : EReal)) 0) = _
    rw [tile_coe y 0 (by norm_num), hM]
  · intro i hi k
    rw [Nat.le_zero.1 hi]
    exact hle k
  · show stepL ⊥ 0 (tile (fun v => ((y v : ℝ) : EReal)) 0) = _
    rw [tile_coe y 0 (by norm_num), hL, Finset.sum_range_one]

/-- The invariant passes from tile j to tile j + 1. -/
theorem inv_succ (y : Fin 32000 → ℝ) (j : Nat) (hj : j + 1 < 50)
    (h : Inv y j (runML (fun v => ((y v : ℝ) : EReal)) j)) :
    Inv y (j + 1) (runML (fun v => ((y v : ℝ) : EReal)) (j + 1)) := by
  obtain ⟨M, hm, hub, ⟨i0, hi0, k1, hatt⟩, hl⟩ := h
  obtain ⟨k0, hle, hM, hL⟩ :=
    step_coe M (∑ i ∈ Finset.range (j + 1), ∑ k : Fin 640, Real.exp (rtile y i k - M)) (rtile y (j + 1))
  have hshift : Real.exp (M - max M (rtile y (j + 1) k0))
      * ∑ i ∈ Finset.range (j + 1), ∑ k : Fin 640, Real.exp (rtile y i k - M)
      = ∑ i ∈ Finset.range (j + 1), ∑ k : Fin 640, Real.exp (rtile y i k - max M (rtile y (j + 1) k0)) := by
    rw [Finset.mul_sum]
    exact Finset.sum_congr rfl fun i _ => exp_shift_sum Finset.univ (rtile y i) M _
  refine ⟨max M (rtile y (j + 1) k0), ?_, ?_, ?_, ?_⟩
  · show stepM (runML (fun v => ((y v : ℝ) : EReal)) j).1 (tile (fun v => ((y v : ℝ) : EReal)) (j + 1)) = _
    rw [hm, tile_coe y (j + 1) hj, hM]
  · intro i hi k
    rcases Nat.lt_or_ge i (j + 1) with hlt | hge
    · exact le_trans (hub i (by omega) k) (le_max_left _ _)
    · have hij : i = j + 1 := by omega
      rw [hij]
      exact le_trans (hle k) (le_max_right _ _)
  · rcases le_total M (rtile y (j + 1) k0) with hc | hc
    · exact ⟨j + 1, le_rfl, k0, (max_eq_right hc).symm⟩
    · exact ⟨i0, by omega, k1, by rw [hatt, max_eq_left hc]⟩
  · show stepL (runML (fun v => ((y v : ℝ) : EReal)) j).1 (runML (fun v => ((y v : ℝ) : EReal)) j).2
        (tile (fun v => ((y v : ℝ) : EReal)) (j + 1)) = _
    rw [hm, hl, tile_coe y (j + 1) hj, hL, hshift, Finset.sum_range_succ _ (j + 1)]

/-- The invariant holds after every one of the 50 tiles. -/
theorem inv_all (y : Fin 32000 → ℝ) : ∀ j, j < 50 → Inv y j (runML (fun v => ((y v : ℝ) : EReal)) j)
  | 0, _ => inv_zero y
  | j + 1, h => inv_succ y j h (inv_all y j (by omega))

/-- Every entry of the row is an entry of one of the 50 tiles. -/
theorem rtile_surj (y : Fin 32000 → ℝ) (v : Fin 32000) :
    ∃ i, i ≤ 49 ∧ ∃ k : Fin 640, rtile y i k = y v := by
  have hv := v.isLt
  refine ⟨v.val / 640, by omega, ⟨v.val % 640, Nat.mod_lt _ (by norm_num)⟩, ?_⟩
  unfold rtile
  rw [dif_pos (by omega)]
  congr 1
  apply Fin.ext
  show 640 * (v.val / 640) + v.val % 640 = v.val
  omega

/-- Every entry of a tile is an entry of the row. -/
theorem rtile_mem (y : Fin 32000 → ℝ) (i : Nat) (hi : i ≤ 49) (k : Fin 640) : ∃ v, rtile y i k = y v := by
  unfold rtile
  rw [dif_pos (by omega)]
  exact ⟨_, rfl⟩

/-- Summing over the 50 tiles of 640 lanes is summing over the 32000 entries (entry 640 * i + k is lane k of tile i). -/
theorem sum_tiles (y : Fin 32000 → ℝ) (g : ℝ → ℝ) :
    ∑ i ∈ Finset.range 50, ∑ k : Fin 640, g (rtile y i k) = ∑ v : Fin 32000, g (y v) := by
  calc ∑ i ∈ Finset.range 50, ∑ k : Fin 640, g (rtile y i k)
      = ∑ i : Fin 50, ∑ k : Fin 640, g (rtile y i.val k) :=
        (Fin.sum_univ_eq_sum_range (fun i => ∑ k : Fin 640, g (rtile y i k)) 50).symm
    _ = ∑ p : Fin 50 × Fin 640, g (rtile y p.1.val p.2) :=
        (Fintype.sum_prod_type' (fun (i : Fin 50) (k : Fin 640) => g (rtile y i.val k))).symm
    _ = ∑ v : Fin 32000, g (y v) := by
        refine Fintype.sum_equiv (finProdFinEquiv (m := 50) (n := 640)) _ _ fun p => ?_
        unfold rtile
        rw [dif_pos p.1.isLt]
        congr 2
        apply Fin.ext
        show 640 * p.1.val + p.2.val = p.2.val + 640 * p.1.val
        omega

/-- The streaming form and the one-pass form of a real row's loss term agree:
    both are M + log (Σ_v exp (y v - M)) - y tg with M the row's maximum. -/
theorem nllStream_eq_nllOnePass (y : Fin 32000 → ℝ) (tg : Fin 32000) :
    Cert.Spec.nllStream (fun v => ((y v : ℝ) : EReal)) ((y tg : ℝ) : EReal)
      = Cert.Spec.nllOnePass (fun v => ((y v : ℝ) : EReal)) tg := by
  obtain ⟨M, hm, hub, ⟨i0, hi0, k1, hatt⟩, hl⟩ := inv_all y 49 (by norm_num)
  obtain ⟨v0, hv0, ht⟩ := tileMax_coe (by norm_num : 0 < 32000) y
  have hM : y v0 = M := by
    apply le_antisymm
    · obtain ⟨i, hi, k, hk⟩ := rtile_surj y v0
      rw [← hk]
      exact hub i hi k
    · obtain ⟨v, hv⟩ := rtile_mem y i0 hi0 k1
      rw [← hatt, hv]
      exact hv0 v
  have hS : 0 < ∑ v : Fin 32000, Real.exp (y v - M) :=
    Finset.sum_pos (fun v _ => Real.exp_pos _) ⟨v0, Finset.mem_univ v0⟩
  rw [sum_tiles y (fun t => Real.exp (t - M))] at hl
  unfold nllStream nllOnePass
  rw [hm]
  rw [hl]
  rw [max_eq_right bot_le]
  rw [ht]
  rw [hM]
  rw [sum_exp_coe]
  rw [zero_add]
  rw [Ideal.log_coe]
  rw [if_neg (not_le.2 hS)]
  rw [← EReal.coe_add, ← EReal.coe_sub, ← EReal.coe_sub, ← EReal.coe_sub, ← EReal.coe_neg]
  refine congrArg (fun t : ℝ => (t : EReal)) ?_
  ring

/-- tanh of an extended real is a real. -/
theorem tanh_real (x : EReal) : ∃ t : ℝ, Idealize.ShloMosaic.Ideal.tanh x = (t : EReal) := by
  induction x using EReal.rec with
  | bot => exact ⟨-1, by rw [Ideal.tanh_bot, EReal.coe_neg, EReal.coe_one]⟩
  | coe r => exact ⟨Real.tanh r, Ideal.tanh_coe r⟩
  | top => exact ⟨1, by rw [Ideal.tanh_top, EReal.coe_one]⟩

/-- A finite sum of reals is a real. -/
theorem sum_real {n : Nat} (f : Fin n → EReal) (hf : ∀ k, ∃ r : ℝ, f k = (r : EReal)) :
    ∃ r : ℝ, (∑ k : Fin n, f k) = (r : EReal) := by
  choose r hr using hf
  refine ⟨∑ k : Fin n, r k, ?_⟩
  rw [coe_sum]
  exact Finset.sum_congr rfl fun k _ => hr k

/-- A product of two reals is a real. -/
theorem mul_real (a b : EReal) (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

/-- The two forms of the loss term agree on every row whose logits are real. -/
theorem nll_forms_agree (z : Fin 32000 → EReal) (hz : ∀ v, ∃ r : ℝ, z v = (r : EReal)) (tg : Fin 32000) :
    Cert.Spec.nllStream z (z tg) = Cert.Spec.nllOnePass z tg := by
  choose y hy using hz
  have hzy : z = fun v => ((y v : ℝ) : EReal) := funext hy
  rw [hzy]
  exact nllStream_eq_nllOnePass y tg

/-- Every feature is real: it is a tanh. -/
theorem feat_real (eb ee : (⟨2, ![4096, 1024]⟩ : Idealize.ShloMosaic.Shape).Idx → EReal)
    (w1 : (⟨2, ![1024, 2048]⟩ : Idealize.ShloMosaic.Shape).Idx → EReal)
    (b1 : (⟨1, ![1024]⟩ : Idealize.ShloMosaic.Shape).Idx → EReal) (r : Fin 4096) (d : Fin 1024) :
    ∃ x : ℝ, Cert.Spec.feat eb ee w1 b1 r d = (x : EReal) := by
  unfold Cert.Spec.feat
  exact tanh_real _

/-- Every logit is real when the features and the output weights are: it is a finite sum of products of reals. -/
theorem logit_real (ft : Fin 4096 → Fin 1024 → EReal)
    (wout : (⟨2, ![32000, 1024]⟩ : Idealize.ShloMosaic.Shape).Idx → EReal)
    (hft : ∀ r d, ∃ x : ℝ, ft r d = (x : EReal)) (hw : ∀ i, ∃ x : ℝ, wout i = (x : EReal))
    (r : Fin 4096) (v : Fin 32000) :
    ∃ x : ℝ, Cert.Spec.logit ft wout r v = (x : EReal) := by
  unfold Cert.Spec.logit
  exact sum_real _ fun d => mul_real _ _ (hft r d) (hw _)

end Cert.Softmax
-- ==== Proof.KSpec.lean ====
/-
  The kernel's column of loss terms, in the vocabulary of the specification.

  With every tag in [0, 32000) the clip and the negative-index normalisation leave the tags as they are, so the
  gathered tag row of span r is row tag r of the vocabulary matrix and the tag logit is the span's logit at its tag.
  The two halves of W1 are its columns 0 … 1023 and 1024 … 2047, the bias row is the bias, and the narrower float
  format changes nothing; so the kernel's features and logits are the specification's.  With a real vocabulary
  matrix the logits are real (the features are hyperbolic tangents), and on a real row the streaming form of the
  loss term is the one-pass form.
-/
import proofs.«420658_j82386062672565_2_alg».proof.Proof.KHost
import proofs.«420658_j82386062672565_2_alg».proof.Proof.LibGather
import proofs.«420658_j82386062672565_2_alg».proof.Proof.LibIndex
import proofs.«420658_j82386062672565_2_alg».proof.Proof.Softmax

set_option maxRecDepth 16384

noncomputable section

namespace Cert.KernelIdeal.KSpec

open Idealize.ShloMosaic Idealize.ShloMosaic.TcCoe Idealize.ShloMosaic.ValueIdx Idealize.SL.Sem
open Cert.KernelIdeal Cert.KernelIdeal.Gen Cert.KernelIdeal.Inv Cert.KernelIdeal.Final Cert.KernelIdeal.Host

variable (m : (ℓ : Loc nD τ sig) → Buf (Elt Ideal) ℓ)

/-! ## The argument arrays at their literal types -/

abbrev x1 (c : Dev nD) : FVec Ideal S1024x2048 .f32 := m ((c : Thread nD τ).loc main_arg1)
abbrev x2 (c : Dev nD) : FVec Ideal S1024 .f32 := m ((c : Thread nD τ).loc main_arg2)
abbrev x3 (c : Dev nD) : FVec Ideal S32000x1024 .f32 := m ((c : Thread nD τ).loc main_arg3)
abbrev x4 (c : Dev nD) : FVec Ideal S32000 .f32 := m ((c : Thread nD τ).loc main_arg4)
abbrev x8 (c : Dev nD) : IVec S4096 32 := m ((c : Thread nD τ).loc main_arg8)

/-- Every tag is a vocabulary index. -/
def TagsInRange (c : Dev nD) : Prop := ∀ i : S4096.Idx, 0 ≤ (x8 m c i).toInt ∧ (x8 m c i).toInt < 32000

/-- The tag of a span as a vocabulary index. -/
def tagOf (c : Dev nD) (h : TagsInRange m c) (row : Fin 4096) : Fin 32000 :=
  ⟨(x8 m c (ix1 row)).toInt.toNat, by have := h (ix1 row); omega⟩

/-! ## The index chain -/

theorem tagsClip_eq (c : Dev nD) (h : TagsInRange m c) : tagsClip m c = x8 m c :=
  Cert.Lib.Index.clip_eq (x8 m c) bcast_S_S4096 h

theorem normIdx_eq (c : Dev nD) (h : TagsInRange m c) : normIdx (tagsClip m c) = x8 m c := by
  rw [tagsClip_eq m c h]
  exact Cert.Lib.Index.norm_eq (x8 m c) bcast_S_S4096 fun i => (h i).1

/-! ## The arrays the region finds, at an entry -/

theorem aWA_apply (c : Dev nD) (d k : Fin 1024) :
    aWA m c (ix2 d k) = x1 m c (ix2 d (⟨k.val, by have := k.isLt; omega⟩ : Fin 2048)) := by
  rw [V_v32]
  exact slice2_axis1_apply 0 (x1 m c) slices_S1024x2048_S1024x1024_0_0 d k _ (by simp)

theorem aWB_apply (c : Dev nD) (d k : Fin 1024) :
    aWB m c (ix2 d k) = x1 m c (ix2 d (⟨1024 + k.val, by have := k.isLt; omega⟩ : Fin 2048)) := by
  rw [V_v34]
  exact slice2_axis1_apply 1024 (x1 m c) slices_S1024x2048_S1024x1024_0_1024 d k _ rfl

theorem aB1_apply (c : Dev nD) (u : Fin 1) (d : Fin 1024) : aB1 m c (ix2 u d) = x2 m c (ix1 d) := by
  rw [V_v35]
  exact shapeCast_a_1a_apply (x2 m c) shapeCasts_S1024_S1x1024 u d

theorem aWO_apply (c : Dev nD) (v : Fin 32000) (d : Fin 1024) : aWO m c (ix2 v d) = x3 m c (ix2 v d) := by
  rw [V_v36]; rfl

/-- The gathered tag row of a span is the vocabulary matrix's row at the span's tag. -/
theorem aWT_apply (c : Dev nD) (h : TagsInRange m c) (row : Fin 4096) (d : Fin 1024) :
    aWT m c (ix2 row d) = x3 m c (ix2 (tagOf m c h row) d) := by
  rw [V_v43, normIdx_eq m c h]
  refine (Cert.Lib.Gather.gather_row_apply (N := 32000) (D := 1024) (R := 4096) (by decide) _ _ _ row d).trans ?_
  have hb : broadcastInDim S4096x1 ![0] bcast_S4096_S4096x1_0 (x8 m c) (ix2 row (0 : Fin 1)) = x8 m c (ix1 row) :=
    broadcastInDim_apply _ bcast_S4096_S4096x1_0 (x8 m c) (ix2 row (0 : Fin 1)) (ix1 row) (fun a => match a with
      | ⟨0, _⟩ => by show row.val = if (4096 : Nat) = 1 then 0 else row.val; rw [if_neg (by decide)])
  refine congrArg (x3 m c) (congrArg (fun a => ix2 a d) (Fin.ext ?_))
  show min ((broadcastInDim S4096x1 ![0] bcast_S4096_S4096x1_0 (x8 m c) (ix2 row (0 : Fin 1))).toInt.toNat) (32000 - 1) = (x8 m c (ix1 row)).toInt.toNat
  rw [hb]
  exact Cert.Lib.Index.toNat_clamp _ (h (ix1 row)).1 (h (ix1 row)).2

/-! ## Features, logits, tag logit -/

theorem featK_eq (c : Dev nD) (row : Fin 4096) (d : Fin 1024) :
    featK m c row d = Spec.feat (aEB m c) (aEE m c) (x1 m c) (x2 m c) row d := by
  unfold featK Spec.feat
  refine congrArg Ideal.tanh ?_
  refine congrArg₂ (· + ·) (congrArg₂ (· + ·) (Finset.sum_congr rfl fun k _ => ?_) (Finset.sum_congr rfl fun k _ => ?_)) ?_
  · exact congrArg (aEB m c (ix2 row k) * ·) (aWA_apply m c d k)
  · exact congrArg (aEE m c (ix2 row k) * ·) (aWB_apply m c d k)
  · exact aB1_apply m c 0 d

theorem logitK_eq (c : Dev nD) (row : Fin 4096) :
    logitK m c row = Spec.logit (Spec.feat (aEB m c) (aEE m c) (x1 m c) (x2 m c)) (x3 m c) row := by
  funext v
  unfold logitK Spec.logit
  refine Finset.sum_congr rfl fun d _ => ?_
  exact congrArg₂ (· * ·) (featK_eq m c row d) (aWO_apply m c v d)

theorem tagK_eq (c : Dev nD) (h : TagsInRange m c) (row : Fin 4096) :
    tagK m c row = Spec.logit (Spec.feat (aEB m c) (aEE m c) (x1 m c) (x2 m c)) (x3 m c) row (tagOf m c h row) := by
  unfold tagK Spec.logit
  refine Finset.sum_congr rfl fun d _ => ?_
  exact congrArg₂ (· * ·) (featK_eq m c row d) (aWT_apply m c h row d)

/-! ## The column, entry by entry -/

/-- Entry (row, 0) of the kernel's column is the one-pass loss term of the span. -/
theorem nllArr_apply (c : Dev nD) (h : TagsInRange m c) (hw : ∀ i : S32000x1024.Idx, ∃ r : ℝ, x3 m c i = (r : EReal))
    (row : Fin 4096) (u : Fin 1) :
    nllArr m c (ix2 row u)
      = Spec.nllOnePass (Spec.logit (Spec.feat (aEB m c) (aEE m c) (x1 m c) (x2 m c)) (x3 m c) row) (tagOf m c h row) := by
  have hs : spanOf (ix2 row u) = row := Fin.ext rfl
  show Spec.nllStream (logitK m c (spanOf (ix2 row u))) (tagK m c (spanOf (ix2 row u))) = _
  rw [hs, logitK_eq m c row, tagK_eq m c h row]
  exact Cert.Softmax.nll_forms_agree _
    (fun v => Cert.Softmax.logit_real _ _ (fun r d => Cert.Softmax.feat_real _ _ _ _ r d) hw row v) _

/-- The weights: one minus the discard probability at the span's tag. -/
theorem keepW_eq (c : Dev nD) (h : TagsInRange m c) :
    keepW m c = subf (broadcastInDim S4096 ![] bcast_S_S4096 (constant S_ .f32 0x3F800000#32))
      (Host.gather gather_S32000_S4096x1_S4096_n_0_n_n_0_1_1 (x4 m c) (broadcastInDim S4096x1 ![0] bcast_S4096_S4096x1_0 (x8 m c))) := by
  unfold keepW
  rw [normIdx_eq m c h]

end Cert.KernelIdeal.KSpec

end
-- ==== Proof.RefValue.lean ====
/-
  The reference program's loss term of one span, read at an index over the extended reals.

  For a span r the reference joins the two endpoint embeddings into a row of 2048 entries, multiplies by W1ᵀ, adds the
  bias and takes tanh: the feature row. The logits are the feature row times Woutᵀ. The log-softmax subtracts the row's
  maximum M (folded from -∞ and joined with -∞ once more) and then log (0 + Σ_v exp (logit v - M)). The term is minus the
  log-softmax at the tag: the take along the vocabulary axis normalises the tag (adds 32000 to a negative one), masks by
  0 ≤ tag ≤ 31999 and clamps into [0, 31999]; with the tag in range all three are the identity.

  Each lemma reads one group of stages at an index from the generated per-operation lemmas; the sum over 2048 joined
  columns splits into the two sums over 1024.
-/
import proofs.«420658_j82386062672565_2_alg».proof.Proof.RefRead
import proofs.«420658_j82386062672565_2_alg».proof.Proof.Spec
import proofs.«420658_j82386062672565_2_alg».proof.Proof.LibGather
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Idealize.ShloMosaic Idealize.ShloMosaic.ValueIdx Cert.ReferenceIdeal Cert.ReferenceIdeal.Gen Cert.ReferenceIdeal.ReadP

/-! ## Literals and signed compares -/

/-- The word 0xFF800000 is -∞. -/
theorem negInf_eq : Ideal.ofBits .f32 0xFF800000#32 = (⊥ : EReal) := by simp [Ideal.ofBits, Ideal.ieee]

theorem toInt_c0 : (0#32 : BitVec 32).toInt = 0 := by decide
theorem toInt_c31999 : (31999#32 : BitVec 32).toInt = 31999 := by decide

/-- A word that is not negative is not below zero. -/
theorem slt_zero {t : BitVec 32} (h : 0 ≤ t.toInt) : IntOp.cmpi .slt t 0#32 = 0#1 := by
  have e : t.slt 0#32 = false := by
    simp only [BitVec.slt, decide_eq_false_iff_not, not_lt, toInt_c0]; exact h
  show BitVec.ofBool (t.slt 0#32) = 0#1
  rw [e]; rfl

/-- A word that is not negative is at least zero. -/
theorem sge_zero {t : BitVec 32} (h : 0 ≤ t.toInt) : IntOp.cmpi .sge t 0#32 = 1#1 := by
  have e : (0#32 : BitVec 32).sle t = true := by
    simp only [BitVec.sle, decide_eq_true_eq, toInt_c0]; exact h
  show BitVec.ofBool ((0#32 : BitVec 32).sle t) = 1#1
  rw [e]; rfl

/-- A word below 32000 is at most 31999. -/
theorem sle_last {t : BitVec 32} (h : t.toInt < 32000) : IntOp.cmpi .sle t 31999#32 = 1#1 := by
  have e : t.sle 31999#32 = true := by
    simp only [BitVec.sle, decide_eq_true_eq, toInt_c31999]; omega
  show BitVec.ofBool (t.sle 31999#32) = 1#1
  rw [e]; rfl

/-! ## Folds over one axis -/

/-- The reduced row index with column k put back is (r, k). -/
theorem lift_row (h : (⟨2, ![4096, 32000]⟩ : Shape).Reduces [1] (⟨1, ![4096]⟩ : Shape)) (r : Fin 4096)
    (k : Fin ((⟨2, ![4096, 32000]⟩ : Shape).size 1)) : h.lift (ix1 r) k = ix2 r (⟨k.val, k.isLt⟩ : Fin 32000) := by
  funext c; apply Fin.ext
  match c with
  | ⟨0, _⟩ => rfl
  | ⟨1, _⟩ => rfl

/-- From -∞ the reduce with a maximum body along the columns is, at row r, the fold of max over the row. -/
theorem rowMax (y : FVec Ideal ⟨2, ![4096, 32000]⟩ .f32) (h' : (⟨2, ![4096, 32000]⟩ : Shape).ReducesTo [1] (⟨1, ![4096]⟩ : Shape))
    (hu : 0 < (⟨0, ![]⟩ : Shape).numel) (r : Fin 4096) :
    Host.reduce FloatOps.maximumf y (constant (⟨0, ![]⟩ : Shape) .f32 0xFF800000#32) h' hu (ix1 r)
      = (Finset.univ : Finset (Fin 32000)).fold max ⊥ (fun v => y (ix2 r v)) := by
  have h : (⟨2, ![4096, 32000]⟩ : Shape).Reduces [1] (⟨1, ![4096]⟩ : Shape) := by decide
  rw [Host.reduce_eq_fold_single FloatOps.maximumf y _ h' h hu]
  have hf : (y ∘ h.lift (ix1 r)) = fun v : Fin 32000 => y (ix2 r v) := funext fun k => congrArg y (lift_row h r k)
  have hi : (constant (F := Ideal) (⟨0, ![]⟩ : Shape) .f32 0xFF800000#32) (Shape.Idx.first hu) = (⊥ : EReal) := negInf_eq
  rw [hf, hi]
  rfl

/-- The reduced index (r, u) with the unit coordinate put back is (r, u, k). -/
theorem lift_unit (h : (⟨3, ![4096, 1, 1]⟩ : Shape).Reduces [2] (⟨2, ![4096, 1]⟩ : Shape)) (r : Fin 4096) (u : Fin 1)
    (k : Fin ((⟨3, ![4096, 1, 1]⟩ : Shape).size 2)) : h.lift (ix2 r u) k = ix3 r u (⟨k.val, k.isLt⟩ : Fin 1) := by
  funext c; apply Fin.ext
  match c with
  | ⟨0, _⟩ => rfl
  | ⟨1, _⟩ => rfl
  | ⟨2, _⟩ => rfl

/-- The reduce with an and body along a unit axis is the one entry joined with the initial value. -/
theorem andUnit (y : IVec ⟨3, ![4096, 1, 1]⟩ 1) (init : IVec ⟨0, ![]⟩ 1)
    (h' : (⟨3, ![4096, 1, 1]⟩ : Shape).ReducesTo [2] (⟨2, ![4096, 1]⟩ : Shape))
    (hu : 0 < (⟨0, ![]⟩ : Shape).numel) (r : Fin 4096) (u : Fin 1) :
    Host.reduce IntOp.andi y init h' hu (ix2 r u)
      = IntOp.andi (y (ix3 r u (0 : Fin 1))) (init (Shape.Idx.first hu)) := by
  have h : (⟨3, ![4096, 1, 1]⟩ : Shape).Reduces [2] (⟨2, ![4096, 1]⟩ : Shape) := by decide
  rw [Host.reduce_eq_fold_single IntOp.andi y _ h' h hu]
  have hf : (y ∘ h.lift (ix2 r u)) = fun k : Fin 1 => y (ix3 r u k) := funext fun k => congrArg y (lift_unit h r u k)
  rw [hf]
  show (Finset.univ : Finset (Fin 1)).fold IntOp.andi (init (Shape.Idx.first hu)) (fun k : Fin 1 => y (ix3 r u k)) = _
  rw [show (Finset.univ : Finset (Fin 1)) = {0} from rfl, Finset.fold_singleton]

/-! ## Index equations: the generated index functions at coordinates -/

section Indices
variable (r : Fin 4096) (d : Fin 1024) (v : Fin 32000)

theorem idx29 (k : Fin 2048) : idx_main_v29 (ridx_main_v30 (ix2 r d) k) = ix2 d k :=
  funext fun a => Fin.ext (by match a with | ⟨0, _⟩ => rfl | ⟨1, _⟩ => rfl)

theorem idx31 : idx_main_v31 (idx_main_v32 (ix2 r d)) = ix1 d :=
  funext fun a => Fin.ext (by match a with | ⟨0, _⟩ => rfl)

theorem lidx36 (k : Fin 1024) : lidx_main_v36 (ix2 r v) k = ix2 r k :=
  funext fun a => Fin.ext (by match a with | ⟨0, _⟩ => rfl | ⟨1, _⟩ => rfl)

theorem idx35 (k : Fin 1024) : idx_main_v35 (ridx_main_v36 (ix2 r v) k) = ix2 v k :=
  funext fun a => Fin.ext (by match a with | ⟨0, _⟩ => rfl | ⟨1, _⟩ => rfl)

theorem idxM : idx_main_call0_v3 (idx_main_call0_v4 (ix2 r v)) = ix1 r :=
  funext fun a => Fin.ext (by match a with | ⟨0, _⟩ => rfl)

theorem idxS : idx_main_call0_v8 (idx_main_call0_v10 (ix2 r v)) = ix1 r :=
  funext fun a => Fin.ext (by match a with | ⟨0, _⟩ => rfl)

theorem idx7 (k : Fin 32000) : idx_main_call0_v7 (ix1 r) k = ix2 r k :=
  funext fun a => Fin.ext (by match a with | ⟨0, _⟩ => rfl | ⟨1, _⟩ => rfl)

theorem idx40 : idx_main_v40 (ix1 r) = ix2 r (0 : Fin 1) :=
  funext fun a => Fin.ext (by match a with | ⟨0, _⟩ => exact Nat.div_one _ | ⟨1, _⟩ => rfl)

theorem idx5 : idx_main_call1_v5 (ix3 r (0 : Fin 1) (0 : Fin 1)) = ix2 r (0 : Fin 1) :=
  funext fun a => Fin.ext (by
    match a with
    | ⟨0, _⟩ => show ((r.val * 1 + 0) * 1 + 0) / 1 = r.val; omega
    | ⟨1, _⟩ => rfl)

theorem idx38 : idx_main_v38 (ix2 r (0 : Fin 1)) = ix1 r :=
  funext fun a => Fin.ext (by match a with | ⟨0, _⟩ => rfl)

end Indices

/-! ## (1) The feature row -/

section Feat
variable {F : FTy → Type} [FloatOps F]

/-- The joined row at a column below 1024 is the begin embedding there. -/
theorem v28_lo (x0 : (⟨S512x32x1024, .f32⟩ : BufTy).Contents (Elt F)) (x5 x6 x7 : (⟨S4096, .i32⟩ : BufTy).Contents (Elt F))
    (r : Fin 4096) (d : Fin 1024) (k : Fin 1024) :
    val_main_v28 (F := F) x0 x5 x6 x7 (lidx_main_v30 (ix2 r d) (Fin.castAdd 1024 k)) = val_main_v13 (F := F) x0 x5 x6 (ix2 r k) := by
  unfold val_main_v28
  exact concatenate_pair_apply_left 1 _ _ concatenates_S4096x1024_S4096x1024_S4096x2048_d1 _ rfl (ix2 r k)
    (fun b => match b with | ⟨0, _⟩ => rfl | ⟨1, _⟩ => rfl)

/-- The joined row at column 1024 + k is the end embedding at k. -/
theorem v28_hi (x0 : (⟨S512x32x1024, .f32⟩ : BufTy).Contents (Elt F)) (x5 x6 x7 : (⟨S4096, .i32⟩ : BufTy).Contents (Elt F))
    (r : Fin 4096) (d : Fin 1024) (k : Fin 1024) :
    val_main_v28 (F := F) x0 x5 x6 x7 (lidx_main_v30 (ix2 r d) (Fin.natAdd 1024 k)) = val_main_v27 (F := F) x0 x5 x7 (ix2 r k) := by
  unfold val_main_v28
  exact concatenate_pair_apply_right 1 _ _ concatenates_S4096x1024_S4096x1024_S4096x2048_d1 _ rfl rfl (ix2 r k)
    (fun b => match b with | ⟨0, _⟩ => fun _ => rfl | ⟨1, _⟩ => fun hne => absurd rfl hne)
    (by show k.val + 1024 = 1024 + k.val; omega)

end Feat

/-- tanh of the joined row times W1ᵀ plus the bias is the feature row. -/
theorem feat_apply (x0 : (⟨S512x32x1024, .f32⟩ : BufTy).Contents (Elt Ideal)) (x1 : (⟨S1024x2048, .f32⟩ : BufTy).Contents (Elt Ideal))
    (x2 : (⟨S1024, .f32⟩ : BufTy).Contents (Elt Ideal)) (x5 x6 x7 : (⟨S4096, .i32⟩ : BufTy).Contents (Elt Ideal)) (r : Fin 4096) (d : Fin 1024) :
    val_main_v34 (F := Ideal) x0 x1 x2 x5 x6 x7 (ix2 r d)
      = Cert.Spec.feat (val_main_v13 (F := Ideal) x0 x5 x6) (val_main_v27 (F := Ideal) x0 x5 x7) x1 x2 r d := by
  rw [val_main_v34_apply, val_main_v33_apply, val_main_v30_apply, val_main_v32_apply, val_main_v31_apply, idx31]
  have hsum : (∑ k : Fin 2048, val_main_v28 (F := Ideal) x0 x5 x6 x7 (lidx_main_v30 (ix2 r d) k)
        * val_main_v29 (F := Ideal) x1 (ridx_main_v30 (ix2 r d) k) : EReal)
      = (∑ k : Fin 1024, val_main_v13 (F := Ideal) x0 x5 x6 (ix2 r k) * x1 (ix2 d (⟨k.val, by have := k.isLt; omega⟩ : Fin 2048)))
        + ∑ k : Fin 1024, val_main_v27 (F := Ideal) x0 x5 x7 (ix2 r k) * x1 (ix2 d (⟨1024 + k.val, by have := k.isLt; omega⟩ : Fin 2048)) := by
    refine (Fin.sum_univ_add (a := 1024) (b := 1024) (fun k : Fin (1024 + 1024) =>
      (val_main_v28 (F := Ideal) x0 x5 x6 x7 (lidx_main_v30 (ix2 r d) k) * val_main_v29 (F := Ideal) x1 (ridx_main_v30 (ix2 r d) k) : EReal))).trans ?_
    refine congrArg₂ (fun a b : EReal => a + b) (Finset.sum_congr rfl fun k _ => ?_) (Finset.sum_congr rfl fun k _ => ?_)
    · rw [v28_lo, val_main_v29_apply, idx29]; rfl
    · rw [v28_hi, val_main_v29_apply, idx29]; rfl
  exact congrArg (fun a : EReal => Ideal.tanh (a + x2 (ix1 d))) hsum

/-! ## (2) The logits -/

/-- The feature row times Woutᵀ. -/
theorem logit_apply (x0 : (⟨S512x32x1024, .f32⟩ : BufTy).Contents (Elt Ideal)) (x1 : (⟨S1024x2048, .f32⟩ : BufTy).Contents (Elt Ideal))
    (x2 : (⟨S1024, .f32⟩ : BufTy).Contents (Elt Ideal)) (x3 : (⟨S32000x1024, .f32⟩ : BufTy).Contents (Elt Ideal))
    (x5 x6 x7 : (⟨S4096, .i32⟩ : BufTy).Contents (Elt Ideal)) (r : Fin 4096) (v : Fin 32000) :
    val_main_v36 (F := Ideal) x0 x1 x2 x3 x5 x6 x7 (ix2 r v)
      = Cert.Spec.logit (fun r d => val_main_v34 (F := Ideal) x0 x1 x2 x5 x6 x7 (ix2 r d)) x3 r v := by
  rw [val_main_v36_apply]
  refine Finset.sum_congr rfl fun k _ => ?_
  rw [lidx36, val_main_v35_apply, idx35]

/-- The logits row of span r from the two endpoint embeddings. -/
theorem logitRow_eq (x0 : (⟨S512x32x1024, .f32⟩ : BufTy).Contents (Elt Ideal)) (x1 : (⟨S1024x2048, .f32⟩ : BufTy).Contents (Elt Ideal))
    (x2 : (⟨S1024, .f32⟩ : BufTy).Contents (Elt Ideal)) (x3 : (⟨S32000x1024, .f32⟩ : BufTy).Contents (Elt Ideal))
    (x5 x6 x7 : (⟨S4096, .i32⟩ : BufTy).Contents (Elt Ideal)) (r : Fin 4096) :
    (fun v : Fin 32000 => val_main_v36 (F := Ideal) x0 x1 x2 x3 x5 x6 x7 (ix2 r v))
      = Cert.Spec.logit (Cert.Spec.feat (val_main_v13 (F := Ideal) x0 x5 x6) (val_main_v27 (F := Ideal) x0 x5 x7) x1 x2) x3 r := by
  funext v
  rw [logit_apply]
  have hf : (fun r d => val_main_v34 (F := Ideal) x0 x1 x2 x5 x6 x7 (ix2 r d))
      = Cert.Spec.feat (val_main_v13 (F := Ideal) x0 x5 x6) (val_main_v27 (F := Ideal) x0 x5 x7) x1 x2 :=
    funext fun r => funext fun d => feat_apply x0 x1 x2 x5 x6 x7 r d
  rw [hf]

/-! ## (3) The row maximum -/

/-- The maximum the log-softmax subtracts: -∞ joined with the fold of max over the row from -∞. -/
theorem rowMax_apply (x0 : (⟨S512x32x1024, .f32⟩ : BufTy).Contents (Elt Ideal)) (x1 : (⟨S1024x2048, .f32⟩ : BufTy).Contents (Elt Ideal))
    (x2 : (⟨S1024, .f32⟩ : BufTy).Contents (Elt Ideal)) (x3 : (⟨S32000x1024, .f32⟩ : BufTy).Contents (Elt Ideal))
    (x5 x6 x7 : (⟨S4096, .i32⟩ : BufTy).Contents (Elt Ideal)) (r : Fin 4096) :
    val_main_call0_v2 (F := Ideal) x0 x1 x2 x3 x5 x6 x7 (ix1 r)
      = max ⊥ (Cert.Spec.tileMax fun v : Fin 32000 => val_main_v36 (F := Ideal) x0 x1 x2 x3 x5 x6 x7 (ix2 r v)) := by
  rw [val_main_call0_v2_apply, val_main_call0_v1_apply, val_main_call0_cst_0_apply]
  have hm := rowMax (val_main_v36 (F := Ideal) x0 x1 x2 x3 x5 x6 x7) reducesTo_S4096x32000_S4096_d1 h_S_ r
  have hb : FloatOps.ofBits (F := Ideal) .f32 0xFF800000#32 = (⊥ : EReal) := negInf_eq
  exact congrArg₂ (fun a b : EReal => max a b) hb hm

/-! ## (4) The log-softmax -/

/-- A logit less the row maximum. -/
theorem shifted_apply (x0 : (⟨S512x32x1024, .f32⟩ : BufTy).Contents (Elt Ideal)) (x1 : (⟨S1024x2048, .f32⟩ : BufTy).Contents (Elt Ideal))
    (x2 : (⟨S1024, .f32⟩ : BufTy).Contents (Elt Ideal)) (x3 : (⟨S32000x1024, .f32⟩ : BufTy).Contents (Elt Ideal))
    (x5 x6 x7 : (⟨S4096, .i32⟩ : BufTy).Contents (Elt Ideal)) (r : Fin 4096) (v : Fin 32000) :
    val_main_call0_v5 (F := Ideal) x0 x1 x2 x3 x5 x6 x7 (ix2 r v)
      = val_main_v36 (F := Ideal) x0 x1 x2 x3 x5 x6 x7 (ix2 r v) - max ⊥ (Cert.Spec.tileMax fun k : Fin 32000 => val_main_v36 (F := Ideal) x0 x1 x2 x3 x5 x6 x7 (ix2 r k)) := by
  rw [val_main_call0_v5_apply, val_main_call0_v4_apply, val_main_call0_v3_apply, idxM, rowMax_apply]
  rfl

/-- The row's sum of exponentials of the shifted logits, from 0. -/
theorem sumExp_apply (x0 : (⟨S512x32x1024, .f32⟩ : BufTy).Contents (Elt Ideal)) (x1 : (⟨S1024x2048, .f32⟩ : BufTy).Contents (Elt Ideal))
    (x2 : (⟨S1024, .f32⟩ : BufTy).Contents (Elt Ideal)) (x3 : (⟨S32000x1024, .f32⟩ : BufTy).Contents (Elt Ideal))
    (x5 x6 x7 : (⟨S4096, .i32⟩ : BufTy).Contents (Elt Ideal)) (r : Fin 4096) :
    val_main_call0_v7 (F := Ideal) x0 x1 x2 x3 x5 x6 x7 (ix1 r)
      = 0 + ∑ k : Fin 32000, Ideal.exp (val_main_v36 (F := Ideal) x0 x1 x2 x3 x5 x6 x7 (ix2 r k)
          - max ⊥ (Cert.Spec.tileMax fun k : Fin 32000 => val_main_v36 (F := Ideal) x0 x1 x2 x3 x5 x6 x7 (ix2 r k))) := by
  rw [val_main_call0_v7_apply, val_main_call0_cst_1_apply]
  refine congrArg₂ (fun a b : EReal => a + b) Ideal.ofBits_zero_f32 (Finset.sum_congr rfl fun k _ => ?_)
  rw [idx7, val_main_call0_v6_apply, shifted_apply]
  rfl

/-- Minus the log-softmax of row r at column tg is the one-pass loss term of the row. -/
theorem negLogSoftmax_apply (x0 : (⟨S512x32x1024, .f32⟩ : BufTy).Contents (Elt Ideal)) (x1 : (⟨S1024x2048, .f32⟩ : BufTy).Contents (Elt Ideal))
    (x2 : (⟨S1024, .f32⟩ : BufTy).Contents (Elt Ideal)) (x3 : (⟨S32000x1024, .f32⟩ : BufTy).Contents (Elt Ideal))
    (x5 x6 x7 : (⟨S4096, .i32⟩ : BufTy).Contents (Elt Ideal)) (r : Fin 4096) (tg : Fin 32000) :
    -(val_main_v37 (F := Ideal) x0 x1 x2 x3 x5 x6 x7 (ix2 r tg))
      = Cert.Spec.nllOnePass (fun v : Fin 32000 => val_main_v36 (F := Ideal) x0 x1 x2 x3 x5 x6 x7 (ix2 r v)) tg := by
  rw [val_main_v37_apply, val_main_call0_v10_apply, val_main_call0_v9_apply, val_main_call0_v8_apply, idxS,
    sumExp_apply, shifted_apply]
  unfold Cert.Spec.nllOnePass
  simp only [Ideal.subf_def, Ideal.hostUnary_log_def]

/-! ## (5) The take along the vocabulary axis, and the negation -/

section Take
variable {F : FTy → Type} [FloatOps F]

/-- A tag that is not negative passes the normalisation unchanged. -/
theorem tag5 (x8 : (⟨S4096, .i32⟩ : BufTy).Contents (Elt F)) (r : Fin 4096) (h0 : 0 ≤ (x8 (ix1 r)).toInt) :
    val_main_call1_v5 (F := F) x8 (ix3 r (0 : Fin 1) (0 : Fin 1)) = x8 (ix1 r) := by
  rw [val_main_call1_v5_apply, idx5, val_main_call1_v4_apply, val_main_call1_v1_apply, val_main_v38_apply, idx38,
    val_main_call1_v0_apply, val_main_call1_c_apply, slt_zero h0, select_zero]

/-- With the tag in range the in-bounds mask is set. -/
theorem mask_one (x8 : (⟨S4096, .i32⟩ : BufTy).Contents (Elt F)) (r : Fin 4096) (h0 : 0 ≤ (x8 (ix1 r)).toInt)
    (h1 : (x8 (ix1 r)).toInt < 32000) : val_main_call1_v12 (F := F) x8 (ix2 r (0 : Fin 1)) = 1#1 := by
  unfold val_main_call1_v12
  refine (andUnit _ _ reducesTo_S4096x1x1_S4096x1_d2 h_S_ r 0).trans ?_
  rw [val_main_call1_v11_apply, val_main_call1_v7_apply, val_main_call1_v10_apply, tag5 x8 r h0,
    val_main_call1_v6_apply, val_main_call1_c_2_apply, val_main_call1_v9_apply, val_main_call1_v8_apply,
    val_main_call1_c_1_apply, val_main_call1_c_3_apply, sge_zero h0, sle_last h1]
  rfl

/-- The take reads row r at the clamped index; an index in range is not moved by the clamp. -/
theorem take_apply (y : (⟨S4096x32000, .f32⟩ : BufTy).Contents (Elt F)) (idx : (⟨S4096x1x1, .i32⟩ : BufTy).Contents (Elt F))
    (r : Fin 4096) (n : Fin 32000) (hidx : (idx (ix3 r (0 : Fin 1) (0 : Fin 1))).toInt.toNat = n.val) :
    Host.gather gather_S4096x32000_S4096x1x1_S4096x1_n_1_0_0_1_2_11 y idx (ix2 r (0 : Fin 1)) = y (ix2 r n) := by
  refine (Cert.Lib.Gather.gather_along_apply (by decide) gather_S4096x32000_S4096x1x1_S4096x1_n_1_0_0_1_2_11_wf y idx r 0).trans ?_
  refine congrArg y (congrArg (ix2 r) (Fin.ext ?_))
  show min (idx (ix3 r (0 : Fin 1) (0 : Fin 1))).toInt.toNat (32000 - 1) = n.val
  rw [hidx]; have := n.isLt; omega

/-- With every tag in range the normalisation before the discard-probability gather is the identity. -/
theorem idx46_eq (x8 : (⟨S4096, .i32⟩ : BufTy).Contents (Elt F))
    (h : ∀ i : S4096.Idx, 0 ≤ (x8 i).toInt ∧ (x8 i).toInt < 32000) : val_main_v46 (F := F) x8 = x8 := by
  funext i
  rw [val_main_v46_apply, val_main_v43_apply, val_main_v42_apply, val_main_c_7_apply, slt_zero (h i).1, select_zero]

end Take

/-- The loss term of span r: the one-pass form at the logits row of r and its tag. -/
theorem nll_apply (x0 : (⟨S512x32x1024, .f32⟩ : BufTy).Contents (Elt Ideal)) (x1 : (⟨S1024x2048, .f32⟩ : BufTy).Contents (Elt Ideal))
    (x2 : (⟨S1024, .f32⟩ : BufTy).Contents (Elt Ideal)) (x3 : (⟨S32000x1024, .f32⟩ : BufTy).Contents (Elt Ideal))
    (x5 x6 x7 x8 : (⟨S4096, .i32⟩ : BufTy).Contents (Elt Ideal)) (r : Fin 4096)
    (h0 : 0 ≤ (x8 (ix1 r)).toInt) (h1 : (x8 (ix1 r)).toInt < 32000) :
    val_main_v41 (F := Ideal) x0 x1 x2 x3 x5 x6 x7 x8 (ix1 r)
      = Cert.Spec.nllOnePass
          (Cert.Spec.logit (Cert.Spec.feat (val_main_v13 (F := Ideal) x0 x5 x6) (val_main_v27 (F := Ideal) x0 x5 x7) x1 x2) x3 r)
          (⟨(x8 (ix1 r)).toInt.toNat, by omega⟩ : Fin 32000) := by
  rw [val_main_v41_apply, val_main_v40_apply, idx40, val_main_v39_apply, mask_one x8 r h0 h1, select_one]
  unfold val_main_call1_v13
  rw [take_apply _ _ r (⟨(x8 (ix1 r)).toInt.toNat, by omega⟩ : Fin 32000) (by rw [tag5 x8 r h0])]
  exact (negLogSoftmax_apply x0 x1 x2 x3 x5 x6 x7 r _).trans
    (congrArg (fun z => Cert.Spec.nllOnePass z (⟨(x8 (ix1 r)).toInt.toNat, by omega⟩ : Fin 32000)) (logitRow_eq x0 x1 x2 x3 x5 x6 x7 r))

end Cert.ReferenceIdeal.RefValue

end
-- ==== Proof.RefStages.lean ====
/-
  The reference program's result, read stretch by stretch.

  @main of the reference is 102 host operations in a row.  Its result buffer after them is the fold of their results
  over the launch contents.  Cut into short stretches (at most 6 operations, and a cut before each concatenate) the
  fold is read one stretch at a time: from what the buffers a stretch reads hold when it starts, each buffer a later
  stretch still reads holds, when it ends, its stage value (the value the operation writes, as a function of the
  arguments it depends on); a buffer the stretch does not write keeps what it held.  Chaining the stretches gives the
  result as the last stage's value of the arguments.
  The operation lists below are the reference's own, in order; every lemma of a stretch is one of two shapes (a buffer
  the stretch computes; a buffer it leaves alone), laid out from which operation reads which buffer.
-/
import proofs.«420658_j82386062672565_2_alg».proof.Proof.RefRead
import Idealize.ShloMosaic.Lib.Pipeline.Frame

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-! ### A typed reference's transports are the identity -/

theorem ofBuf_call0_cst (v : (⟨S_, .f32⟩ : BufTy).Contents (Elt F)) : (TRef.of (T := ⟨S_, .f32⟩) main_call0_cst).ofBuf v = v := rfl
theorem toBuf_call0_cst (v : (⟨S_, .f32⟩ : BufTy).Contents (Elt F)) : (TRef.of (T := ⟨S_, .f32⟩) main_call0_cst).toBuf v = v := rfl
theorem ofBuf_v36 (v : (⟨S4096x32000, .f32⟩ : BufTy).Contents (Elt F)) : (TRef.of (T := ⟨S4096x32000, .f32⟩) main_v36).ofBuf v = v := rfl
theorem toBuf_v36 (v : (⟨S4096x32000, .f32⟩ : BufTy).Contents (Elt F)) : (TRef.of (T := ⟨S4096x32000, .f32⟩) main_v36).toBuf v = v := rfl
theorem ofBuf_call0_v0 (v : (⟨S4096, .f32⟩ : BufTy).Contents (Elt F)) : (TRef.of (T := ⟨S4096, .f32⟩) main_call0_v0).ofBuf v = v := rfl
theorem toBuf_call0_v0 (v : (⟨S4096, .f32⟩ : BufTy).Contents (Elt F)) : (TRef.of (T := ⟨S4096, .f32⟩) main_call0_v0).toBuf v = v := rfl
theorem ofBuf_call0_cst_0 (v : (⟨S_, .f32⟩ : BufTy).Contents (Elt F)) : (TRef.of (T := ⟨S_, .f32⟩) main_call0_cst_0).ofBuf v = v := rfl
theorem toBuf_call0_cst_0 (v : (⟨S_, .f32⟩ : BufTy).Contents (Elt F)) : (TRef.of (T := ⟨S_, .f32⟩) main_call0_cst_0).toBuf v = v := rfl
theorem ofBuf_call0_v1 (v : (⟨S4096, .f32⟩ : BufTy).Contents (Elt F)) : (TRef.of (T := ⟨S4096, .f32⟩) main_call0_v1).ofBuf v = v := rfl
theorem toBuf_call0_v1 (v : (⟨S4096, .f32⟩ : BufTy).Contents (Elt F)) : (TRef.of (T := ⟨S4096, .f32⟩) main_call0_v1).toBuf v = v := rfl
theorem ofBuf_call0_v2 (v : (⟨S4096, .f32⟩ : BufTy).Contents (Elt F)) : (TRef.of (T := ⟨S4096, .f32⟩) main_call0_v2).ofBuf v = v := rfl
theorem toBuf_call0_v2 (v : (⟨S4096, .f32⟩ : BufTy).Contents (Elt F)) : (TRef.of (T := ⟨S4096, .f32⟩) main_call0_v2).toBuf v = v := rfl
theorem ofBuf_call0_v3 (v : (⟨S4096x1, .f32⟩ : BufTy).Contents (Elt F)) : (TRef.of (T := ⟨S4096x1, .f32⟩) main_call0_v3).ofBuf v = v := rfl
theorem toBuf_call0_v3 (v : (⟨S4096x1, .f32⟩ : BufTy).Contents (Elt F)) : (TRef.of (T := ⟨S4096x1, .f32⟩) main_call0_v3).toBuf v = v := rfl
theorem ofBuf_call0_v4 (v : (⟨S4096x32000, .f32⟩ : BufTy).Contents (Elt F)) : (TRef.of (T := ⟨S4096x32000, .f32⟩) main_call0_v4).ofBuf v = v := rfl
theorem toBuf_call0_v4 (v : (⟨S4096x32000, .f32⟩ : BufTy).Contents (Elt F)) : (TRef.of (T := ⟨S4096x32000, .f32⟩) main_call0_v4).toBuf v = v := rfl
theorem ofBuf_call0_v5 (v : (⟨S4096x32000, .f32⟩ : BufTy).Contents (Elt F)) : (TRef.of (T := ⟨S4096x32000, .f32⟩) main_call0_v5).ofBuf v = v := rfl
theorem toBuf_call0_v5 (v : (⟨S4096x32000, .f32⟩ : BufTy).Contents (Elt F)) : (TRef.of (T := ⟨S4096x32000, .f32⟩) main_call0_v5).toBuf v = v := rfl
theorem ofBuf_call0_v6 (v : (⟨S4096x32000, .f32⟩ : BufTy).Contents (Elt F)) : (TRef.of (T := ⟨S4096x32000, .f32⟩) main_call0_v6).ofBuf v = v := rfl
theorem toBuf_call0_v6 (v : (⟨S4096x32000, .f32⟩ : BufTy).Contents (Elt F)) : (TRef.of (T := ⟨S4096x32000, .f32⟩) main_call0_v6).toBuf v = v := rfl
theorem ofBuf_call0_cst_1 (v : (⟨S_, .f32⟩ : BufTy).Contents (Elt F)) : (TRef.of (T := ⟨S_, .f32⟩) main_call0_cst_1).ofBuf v = v := rfl
theorem toBuf_call0_cst_1 (v : (⟨S_, .f32⟩ : BufTy).Contents (Elt F)) : (TRef.of (T := ⟨S_, .f32⟩) main_call0_cst_1).toBuf v = v := rfl
theorem ofBuf_call0_v7 (v : (⟨S4096, .f32⟩ : BufTy).Contents (Elt F)) : (TRef.of (T := ⟨S4096, .f32⟩) main_call0_v7).ofBuf v = v := rfl
theorem toBuf_call0_v7 (v : (⟨S4096, .f32⟩ : BufTy).Contents (Elt F)) : (TRef.of (T := ⟨S4096, .f32⟩) main_call0_v7).toBuf v = v := rfl
theorem ofBuf_call0_v8 (v : (⟨S4096x1, .f32⟩ : BufTy).Contents (Elt F)) : (TRef.of (T := ⟨S4096x1, .f32⟩) main_call0_v8).ofBuf v = v := rfl
theorem toBuf_call0_v8 (v : (⟨S4096x1, .f32⟩ : BufTy).Contents (Elt F)) : (TRef.of (T := ⟨S4096x1, .f32⟩) main_call0_v8).toBuf v = v := rfl
theorem ofBuf_call0_v9 (v : (⟨S4096x1, .f32⟩ : BufTy).Contents (Elt F)) : (TRef.of (T := ⟨S4096x1, .f32⟩) main_call0_v9).ofBuf v = v := rfl
theorem toBuf_call0_v9 (v : (⟨S4096x1, .f32⟩ : BufTy).Contents (Elt F)) : (TRef.of (T := ⟨S4096x1, .f32⟩) main_call0_v9).toBuf v = v := rfl
theorem ofBuf_call0_v10 (v : (⟨S4096x32000, .f32⟩ : BufTy).Contents (Elt F)) : (TRef.of (T := ⟨S4096x32000, .f32⟩) main_call0_v10).ofBuf v = v := rfl
theorem toBuf_call0_v10 (v : (⟨S4096x32000, .f32⟩ : BufTy).Contents (Elt F)) : (TRef.of (T := ⟨S4096x32000, .f32⟩) main_call0_v10).toBuf v = v := rfl
theorem ofBuf_v37 (v : (⟨S4096x32000, .f32⟩ : BufTy).Contents (Elt F)) : (TRef.of (T := ⟨S4096x32000, .f32⟩) main_v37).ofBuf v = v := rfl
theorem toBuf_v37 (v : (⟨S4096x32000, .f32⟩ : BufTy).Contents (Elt F)) : (TRef.of (T := ⟨S4096x32000, .f32⟩) main_v37).toBuf v = v := rfl
theorem ofBuf_call1_c (v : (⟨S_, .i32⟩ : BufTy).Contents (Elt F)) : (TRef.of (T := ⟨S_, .i32⟩) main_call1_c).ofBuf v = v := rfl
theorem toBuf_call1_c (v : (⟨S_, .i32⟩ : BufTy).Contents (Elt F)) : (TRef.of (T := ⟨S_, .i32⟩) main_call1_c).toBuf v = v := rfl
theorem ofBuf_call1_v0 (v : (⟨S4096x1, .i32⟩ : BufTy).Contents (Elt F)) : (TRef.of (T := ⟨S4096x1, .i32⟩) main_call1_v0).ofBuf v = v := rfl
theorem toBuf_call1_v0 (v : (⟨S4096x1, .i32⟩ : BufTy).Contents (Elt F)) : (TRef.of (T := ⟨S4096x1, .i32⟩) main_call1_v0).toBuf v = v := rfl
theorem ofBuf_v38 (v : (⟨S4096x1, .i32⟩ : BufTy).Contents (Elt F)) : (TRef.of (T := ⟨S4096x1, .i32⟩) main_v38).ofBuf v = v := rfl
theorem toBuf_v38 (v : (⟨S4096x1, .i32⟩ : BufTy).Contents (Elt F)) : (TRef.of (T := ⟨S4096x1, .i32⟩) main_v38).toBuf v = v := rfl
theorem ofBuf_call1_v1 (v : (⟨S4096x1, .i1⟩ : BufTy).Contents (Elt F)) : (TRef.of (T := ⟨S4096x1, .i1⟩) main_call1_v1).ofBuf v = v := rfl
theorem toBuf_call1_v1 (v : (⟨S4096x1, .i1⟩ : BufTy).Contents (Elt F)) : (TRef.of (T := ⟨S4096x1, .i1⟩) main_call1_v1).toBuf v = v := rfl
theorem ofBuf_call1_c_0 (v : (⟨S_, .i32⟩ : BufTy).Contents (Elt F)) : (TRef.of (T := ⟨S_, .i32⟩) main_call1_c_0).ofBuf v = v := rfl
theorem toBuf_call1_c_0 (v : (⟨S_, .i32⟩ : BufTy).Contents (Elt F)) : (TRef.of (T := ⟨S_, .i32⟩) main_call1_c_0).toBuf v = v := rfl
theorem ofBuf_call1_v2 (v : (⟨S4096x1, .i32⟩ : BufTy).Contents (Elt F)) : (TRef.of (T := ⟨S4096x1, .i32⟩) main_call1_v2).ofBuf v = v := rfl
theorem toBuf_call1_v2 (v : (⟨S4096x1, .i32⟩ : BufTy).Contents (Elt F)) : (TRef.of (T := ⟨S4096x1, .i32⟩) main_call1_v2).toBuf v = v := rfl
theorem ofBuf_call1_v3 (v : (⟨S4096x1, .i32⟩ : BufTy).Contents (Elt F)) : (TRef.of (T := ⟨S4096x1, .i32⟩) main_call1_v3).ofBuf v = v := rfl
theorem toBuf_call1_v3 (v : (⟨S4096x1, .i32⟩ : BufTy).Contents (Elt F)) : (TRef.of (T := ⟨S4096x1, .i32⟩) main_call1_v3).toBuf v = v := rfl
theorem ofBuf_call1_v4 (v : (⟨S4096x1, .i32⟩ : BufTy).Contents (Elt F)) : (TRef.of (T := ⟨S4096x1, .i32⟩) main_call1_v4).ofBuf v = v := rfl
theorem toBuf_call1_v4 (v : (⟨S4096x1, .i32⟩ : BufTy).Contents (Elt F)) : (TRef.of (T := ⟨S4096x1, .i32⟩) main_call1_v4).toBuf v = v := rfl
theorem ofBuf_call1_v5 (v : (⟨S4096x1x1, .i32⟩ : BufTy).Contents (Elt F)) : (TRef.of (T := ⟨S4096x1x1, .i32⟩) main_call1_v5).ofBuf v = v := rfl
theorem toBuf_call1_v5 (v : (⟨S4096x1x1, .i32⟩ : BufTy).Contents (Elt F)) : (TRef.of (T := ⟨S4096x1x1, .i32⟩) main_call1_v5).toBuf v = v := rfl
theorem ofBuf_call1_c_1 (v : (⟨S1, .i32⟩ : BufTy).Contents (Elt F)) : (TRef.of (T := ⟨S1, .i32⟩) main_call1_c_1).ofBuf v = v := rfl
theorem toBuf_call1_c_1 (v : (⟨S1, .i32⟩ : BufTy).Contents (Elt F)) : (TRef.of (T := ⟨S1, .i32⟩) main_call1_c_1).toBuf v = v := rfl
theorem ofBuf_call1_c_2 (v : (⟨S_, .i32⟩ : BufTy).Contents (Elt F)) : (TRef.of (T := ⟨S_, .i32⟩) main_call1_c_2).ofBuf v = v := rfl
theorem toBuf_call1_c_2 (v : (⟨S_, .i32⟩ : BufTy).Contents (Elt F)) : (TRef.of (T := ⟨S_, .i32⟩) main_call1_c_2).toBuf v = v := rfl
theorem ofBuf_call1_v6 (v : (⟨S4096x1x1, .i32⟩ : BufTy).Contents (Elt F)) : (TRef.of (T := ⟨S4096x1x1, .i32⟩) main_call1_v6).ofBuf v = v := rfl
theorem toBuf_call1_v6 (v : (⟨S4096x1x1, .i32⟩ : BufTy).Contents (Elt F)) : (TRef.of (T := ⟨S4096x1x1, .i32⟩) main_call1_v6).toBuf v = v := rfl
theorem ofBuf_call1_v7 (v : (⟨S4096x1x1, .i1⟩ : BufTy).Contents (Elt F)) : (TRef.of (T := ⟨S4096x1x1, .i1⟩) main_call1_v7).ofBuf v = v := rfl
theorem toBuf_call1_v7 (v : (⟨S4096x1x1, .i1⟩ : BufTy).Contents (Elt F)) : (TRef.of (T := ⟨S4096x1x1, .i1⟩) main_call1_v7).toBuf v = v := rfl
theorem ofBuf_call1_v8 (v : (⟨S1x1x1, .i32⟩ : BufTy).Contents (Elt F)) : (TRef.of (T := ⟨S1x1x1, .i32⟩) main_call1_v8).ofBuf v = v := rfl
theorem toBuf_call1_v8 (v : (⟨S1x1x1, .i32⟩ : BufTy).Contents (Elt F)) : (TRef.of (T := ⟨S1x1x1, .i32⟩) main_call1_v8).toBuf v = v := rfl
theorem ofBuf_call1_v9 (v : (⟨S4096x1x1, .i32⟩ : BufTy).Contents (Elt F)) : (TRef.of (T := ⟨S4096x1x1, .i32⟩) main_call1_v9).ofBuf v = v := rfl
theorem toBuf_call1_v9 (v : (⟨S4096x1x1, .i32⟩ : BufTy).Contents (Elt F)) : (TRef.of (T := ⟨S4096x1x1, .i32⟩) main_call1_v9).toBuf v = v := rfl
theorem ofBuf_call1_v10 (v : (⟨S4096x1x1, .i1⟩ : BufTy).Contents (Elt F)) : (TRef.of (T := ⟨S4096x1x1, .i1⟩) main_call1_v10).ofBuf v = v := rfl
theorem toBuf_call1_v10 (v : (⟨S4096x1x1, .i1⟩ : BufTy).Contents (Elt F)) : (TRef.of (T := ⟨S4096x1x1, .i1⟩) main_call1_v10).toBuf v = v := rfl
theorem ofBuf_call1_v11 (v : (⟨S4096x1x1, .i1⟩ : BufTy).Contents (Elt F)) : (TRef.of (T := ⟨S4096x1x1, .i1⟩) main_call1_v11).ofBuf v = v := rfl
theorem toBuf_call1_v11 (v : (⟨S4096x1x1, .i1⟩ : BufTy).Contents (Elt F)) : (TRef.of (T := ⟨S4096x1x1, .i1⟩) main_call1_v11).toBuf v = v := rfl
theorem ofBuf_call1_c_3 (v : (⟨S_, .i1⟩ : BufTy).Contents (Elt F)) : (TRef.of (T := ⟨S_, .i1⟩) main_call1_c_3).ofBuf v = v := rfl
theorem toBuf_call1_c_3 (v : (⟨S_, .i1⟩ : BufTy).Contents (Elt F)) : (TRef.of (T := ⟨S_, .i1⟩) main_call1_c_3).toBuf v = v := rfl
theorem ofBuf_call1_v12 (v : (⟨S4096x1, .i1⟩ : BufTy).Contents (Elt F)) : (TRef.of (T := ⟨S4096x1, .i1⟩) main_call1_v12).ofBuf v = v := rfl
theorem toBuf_call1_v12 (v : (⟨S4096x1, .i1⟩ : BufTy).Contents (Elt F)) : (TRef.of (T := ⟨S4096x1, .i1⟩) main_call1_v12).toBuf v = v := rfl
theorem ofBuf_call1_v13 (v : (⟨S4096x1, .f32⟩ : BufTy).Contents (Elt F)) : (TRef.of (T := ⟨S4096x1, .f32⟩) main_call1_v13).ofBuf v = v := rfl
theorem toBuf_call1_v13 (v : (⟨S4096x1, .f32⟩ : BufTy).Contents (Elt F)) : (TRef.of (T := ⟨S4096x1, .f32⟩) main_call1_v13).toBuf v = v := rfl
theorem ofBuf_call1_cst (v : (⟨S_, .f32⟩ : BufTy).Contents (Elt F)) : (TRef.of (T := ⟨S_, .f32⟩) main_call1_cst).ofBuf v = v := rfl
theorem toBuf_call1_cst (v : (⟨S_, .f32⟩ : BufTy).Contents (Elt F)) : (TRef.of (T := ⟨S_, .f32⟩) main_call1_cst).toBuf v = v := rfl
theorem ofBuf_call1_v14 (v : (⟨S4096x1, .f32⟩ : BufTy).Contents (Elt F)) : (TRef.of (T := ⟨S4096x1, .f32⟩) main_call1_v14).ofBuf v = v := rfl
theorem toBuf_call1_v14 (v : (⟨S4096x1, .f32⟩ : BufTy).Contents (Elt F)) : (TRef.of (T := ⟨S4096x1, .f32⟩) main_call1_v14).toBuf v = v := rfl
theorem ofBuf_v39 (v : (⟨S4096x1, .f32⟩ : BufTy).Contents (Elt F)) : (TRef.of (T := ⟨S4096x1, .f32⟩) main_v39).ofBuf v = v := rfl
theorem toBuf_v39 (v : (⟨S4096x1, .f32⟩ : BufTy).Contents (Elt F)) : (TRef.of (T := ⟨S4096x1, .f32⟩) main_v39).toBuf v = v := rfl

/-- Operations 1 … 6 of @main. -/
abbrev ops01 : List (HloOp τ sig (Elt F)) :=
  [ nullary main_c (constantI S_ 32 0#32),
    unary main_c main_v0 (broadcastInDim S4096 ![] bcast_S_S4096 : (⟨S_, .i32⟩ : BufTy).Contents (Elt F) → (⟨S4096, .i32⟩ : BufTy).Contents (Elt F)),
    binary main_arg6 main_v0 main_v1 (cmpi .slt : (⟨S4096, .i32⟩ : BufTy).Contents (Elt F) → (⟨S4096, .i32⟩ : BufTy).Contents (Elt F) → (⟨S4096, .i1⟩ : BufTy).Contents (Elt F)),
    nullary main_c_0 (constantI S_ 32 512#32),
    unary main_c_0 main_v2 (broadcastInDim S4096 ![] bcast_S_S4096 : (⟨S_, .i32⟩ : BufTy).Contents (Elt F) → (⟨S4096, .i32⟩ : BufTy).Contents (Elt F)),
    binary main_arg6 main_v2 main_v3 (addi : (⟨S4096, .i32⟩ : BufTy).Contents (Elt F) → (⟨S4096, .i32⟩ : BufTy).Contents (Elt F) → (⟨S4096, .i32⟩ : BufTy).Contents (Elt F)) ]

/-- Operations 7 … 12 of @main. -/
abbrev ops02 : List (HloOp τ sig (Elt F)) :=
  [ ternary main_v1 main_v3 main_arg6 main_v4 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_1 (constantI S_ 32 0#32),
    unary main_c_1 main_v5 (broadcastInDim S4096 ![] bcast_S_S4096 : (⟨S_, .i32⟩ : BufTy).Contents (Elt F) → (⟨S4096, .i32⟩ : BufTy).Contents (Elt F)),
    binary main_arg5 main_v5 main_v6 (cmpi .slt : (⟨S4096, .i32⟩ : BufTy).Contents (Elt F) → (⟨S4096, .i32⟩ : BufTy).Contents (Elt F) → (⟨S4096, .i1⟩ : BufTy).Contents (Elt F)),
    nullary main_c_2 (constantI S_ 32 32#32),
    unary main_c_2 main_v7 (broadcastInDim S4096 ![] bcast_S_S4096 : (⟨S_, .i32⟩ : BufTy).Contents (Elt F) → (⟨S4096, .i32⟩ : BufTy).Contents (Elt F)) ]

/-- Operations 13 … 16 of @main. -/
abbrev ops03 : List (HloOp τ sig (Elt F)) :=
  [ binary main_arg5 main_v7 main_v8 (addi : (⟨S4096, .i32⟩ : BufTy).Contents (Elt F) → (⟨S4096, .i32⟩ : BufTy).Contents (Elt F) → (⟨S4096, .i32⟩ : BufTy).Contents (Elt F)),
    ternary main_v6 main_v8 main_arg5 main_v9 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v4 main_v10 (broadcastInDim S4096x1 ![0] bcast_S4096_S4096x1_0 : (⟨S4096, .i32⟩ : BufTy).Contents (Elt F) → (⟨S4096x1, .i32⟩ : BufTy).Contents (Elt F)),
    unary main_v9 main_v11 (broadcastInDim S4096x1 ![0] bcast_S4096_S4096x1_0 : (⟨S4096, .i32⟩ : BufTy).Contents (Elt F) → (⟨S4096x1, .i32⟩ : BufTy).Contents (Elt F)) ]

/-- Operations 17 … 22 of @main. -/
abbrev ops04 : List (HloOp τ sig (Elt F)) :=
  [ binary main_v10 main_v11 main_v12 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_arg0 main_v12 main_v13 ((fun x i => Host.gather gather_S512x32x1024_S4096x2_S4096x1024_1_01_n_n_01_1_111024 x i) : (⟨S512x32x1024, .f32⟩ : BufTy).Contents (Elt F) → (⟨S4096x2, .i32⟩ : BufTy).Contents (Elt F) → (⟨S4096x1024, .f32⟩ : BufTy).Contents (Elt F)),
    nullary main_c_3 (constantI S_ 32 0#32),
    unary main_c_3 main_v14 (broadcastInDim S4096 ![] bcast_S_S4096 : (⟨S_, .i32⟩ : BufTy).Contents (Elt F) → (⟨S4096, .i32⟩ : BufTy).Contents (Elt F)),
    binary main_arg7 main_v14 main_v15 (cmpi .slt : (⟨S4096, .i32⟩ : BufTy).Contents (Elt F) → (⟨S4096, .i32⟩ : BufTy).Contents (Elt F) → (⟨S4096, .i1⟩ : BufTy).Contents (Elt F)),
    nullary main_c_4 (constantI S_ 32 512#32) ]

/-- Operations 23 … 28 of @main. -/
abbrev ops05 : List (HloOp τ sig (Elt F)) :=
  [ unary main_c_4 main_v16 (broadcastInDim S4096 ![] bcast_S_S4096 : (⟨S_, .i32⟩ : BufTy).Contents (Elt F) → (⟨S4096, .i32⟩ : BufTy).Contents (Elt F)),
    binary main_arg7 main_v16 main_v17 (addi : (⟨S4096, .i32⟩ : BufTy).Contents (Elt F) → (⟨S4096, .i32⟩ : BufTy).Contents (Elt F) → (⟨S4096, .i32⟩ : BufTy).Contents (Elt F)),
    ternary main_v15 main_v17 main_arg7 main_v18 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_5 (constantI S_ 32 0#32),
    unary main_c_5 main_v19 (broadcastInDim S4096 ![] bcast_S_S4096 : (⟨S_, .i32⟩ : BufTy).Contents (Elt F) → (⟨S4096, .i32⟩ : BufTy).Contents (Elt F)),
    binary main_arg5 main_v19 main_v20 (cmpi .slt : (⟨S4096, .i32⟩ : BufTy).Contents (Elt F) → (⟨S4096, .i32⟩ : BufTy).Contents (Elt F) → (⟨S4096, .i1⟩ : BufTy).Contents (Elt F)) ]

/-- Operations 29 … 34 of @main. -/
abbrev ops06 : List (HloOp τ sig (Elt F)) :=
  [ nullary main_c_6 (constantI S_ 32 32#32),
    unary main_c_6 main_v21 (broadcastInDim S4096 ![] bcast_S_S4096 : (⟨S_, .i32⟩ : BufTy).Contents (Elt F) → (⟨S4096, .i32⟩ : BufTy).Contents (Elt F)),
    binary main_arg5 main_v21 main_v22 (addi : (⟨S4096, .i32⟩ : BufTy).Contents (Elt F) → (⟨S4096, .i32⟩ : BufTy).Contents (Elt F) → (⟨S4096, .i32⟩ : BufTy).Contents (Elt F)),
    ternary main_v20 main_v22 main_arg5 main_v23 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v18 main_v24 (broadcastInDim S4096x1 ![0] bcast_S4096_S4096x1_0 : (⟨S4096, .i32⟩ : BufTy).Contents (Elt F) → (⟨S4096x1, .i32⟩ : BufTy).Contents (Elt F)),
    unary main_v23 main_v25 (broadcastInDim S4096x1 ![0] bcast_S4096_S4096x1_0 : (⟨S4096, .i32⟩ : BufTy).Contents (Elt F) → (⟨S4096x1, .i32⟩ : BufTy).Contents (Elt F)) ]

/-- Operations 35 … 36 of @main. -/
abbrev ops07 : List (HloOp τ sig (Elt F)) :=
  [ binary main_v24 main_v25 main_v26 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_arg0 main_v26 main_v27 ((fun x i => Host.gather gather_S512x32x1024_S4096x2_S4096x1024_1_01_n_n_01_1_111024 x i) : (⟨S512x32x1024, .f32⟩ : BufTy).Contents (Elt F) → (⟨S4096x2, .i32⟩ : BufTy).Contents (Elt F) → (⟨S4096x1024, .f32⟩ : BufTy).Contents (Elt F)) ]

/-- Operations 37 … 42 of @main. -/
abbrev ops08 : List (HloOp τ sig (Elt F)) :=
  [ binary main_v13 main_v27 main_v28 ((fun a b => concatenate S4096x2048 1 [⟨S4096x1024, a⟩, ⟨S4096x1024, b⟩] concatenates_S4096x1024_S4096x1024_S4096x2048_d1) : (⟨S4096x1024, .f32⟩ : BufTy).Contents (Elt F) → (⟨S4096x1024, .f32⟩ : BufTy).Contents (Elt F) → (⟨S4096x2048, .f32⟩ : BufTy).Contents (Elt F)),
    unary main_arg1 main_v29 ((transpose S2048x1024 [1, 0] · transposes_S1024x2048_S2048x1024_1_0) : (⟨S1024x2048, .f32⟩ : BufTy).Contents (Elt F) → (⟨S2048x1024, .f32⟩ : BufTy).Contents (Elt F)),
    binary main_v28 main_v29 main_v30 ((fun l r => Host.dotGeneral dot_S4096x2048_S2048x1024_S4096x1024_1_0_0_1_n_n none l r) : (⟨S4096x2048, .f32⟩ : BufTy).Contents (Elt F) → (⟨S2048x1024, .f32⟩ : BufTy).Contents (Elt F) → (⟨S4096x1024, .f32⟩ : BufTy).Contents (Elt F)),
    unary main_arg2 main_v31 (broadcastInDim S1x1024 ![1] bcast_S1024_S1x1024_1 : (⟨S1024, .f32⟩ : BufTy).Contents (Elt F) → (⟨S1x1024, .f32⟩ : BufTy).Contents (Elt F)),
    unary main_v31 main_v32 (broadcastInDim S4096x1024 ![0, 1] bcast_S1x1024_S4096x1024_0_1 : (⟨S1x1024, .f32⟩ : BufTy).Contents (Elt F) → (⟨S4096x1024, .f32⟩ : BufTy).Contents (Elt F)),
    binary main_v30 main_v32 main_v33 (addf : (⟨S4096x1024, .f32⟩ : BufTy).Contents (Elt F) → (⟨S4096x1024, .f32⟩ : BufTy).Contents (Elt F) → (⟨S4096x1024, .f32⟩ : BufTy).Contents (Elt F)) ]

/-- Operations 43 … 48 of @main. -/
abbrev ops09 : List (HloOp τ sig (Elt F)) :=
  [ unary main_v33 main_v34 (Host.tanh : (⟨S4096x1024, .f32⟩ : BufTy).Contents (Elt F) → (⟨S4096x1024, .f32⟩ : BufTy).Contents (Elt F)),
    unary main_arg3 main_v35 ((transpose S1024x32000 [1, 0] · transposes_S32000x1024_S1024x32000_1_0) : (⟨S32000x1024, .f32⟩ : BufTy).Contents (Elt F) → (⟨S1024x32000, .f32⟩ : BufTy).Contents (Elt F)),
    binary main_v34 main_v35 main_v36 ((fun l r => Host.dotGeneral dot_S4096x1024_S1024x32000_S4096x32000_1_0_0_1_n_n none l r) : (⟨S4096x1024, .f32⟩ : BufTy).Contents (Elt F) → (⟨S1024x32000, .f32⟩ : BufTy).Contents (Elt F) → (⟨S4096x32000, .f32⟩ : BufTy).Contents (Elt F)),
    TRef.nullary (TRef.of (T := ⟨S_, .f32⟩) main_call0_cst) (constant S_ .f32 0xFF800000#32),
    TRef.binary (TRef.of (T := ⟨S4096x32000, .f32⟩) main_v36) (TRef.of (T := ⟨S_, .f32⟩) main_call0_cst) (TRef.of (T := ⟨S4096, .f32⟩) main_call0_v0) (fun x v => Host.reduce FloatOps.maximumf x v reducesTo_S4096x32000_S4096_d1 h_S_),
    TRef.nullary (TRef.of (T := ⟨S_, .f32⟩) main_call0_cst_0) (constant S_ .f32 0xFF800000#32) ]

/-- Operations 49 … 54 of @main. -/
abbrev ops10 : List (HloOp τ sig (Elt F)) :=
  [ TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x32000, .f32⟩) main_call0_v4) (broadcastInDim S4096x32000 ![0, 1] bcast_S4096x1_S4096x32000_0_1),
    TRef.binary (TRef.of (T := ⟨S4096x32000, .f32⟩) main_v36) (TRef.of (T := ⟨S4096x32000, .f32⟩) main_call0_v4) (TRef.of (T := ⟨S4096x32000, .f32⟩) main_call0_v5) subf,
    TRef.unary (TRef.of (T := ⟨S4096x32000, .f32⟩) main_call0_v5) (TRef.of (T := ⟨S4096x32000, .f32⟩) main_call0_v6) Host.exp ]

/-- Operations 55 … 60 of @main. -/
abbrev ops11 : List (HloOp τ sig (Elt F)) :=
  [ TRef.nullary (TRef.of (T := ⟨S_, .f32⟩) main_call0_cst_1) (constant S_ .f32 0x00000000#32),
    TRef.binary (TRef.of (T := ⟨S4096x32000, .f32⟩) main_call0_v6) (TRef.of (T := ⟨S_, .f32⟩) main_call0_cst_1) (TRef.of (T := ⟨S4096, .f32⟩) main_call0_v7) (fun x v => Host.reduceAdd x v reducesTo_S4096x32000_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x32000, .f32⟩) main_call0_v10) (broadcastInDim S4096x32000 ![0, 1] bcast_S4096x1_S4096x32000_0_1),
    TRef.binary (TRef.of (T := ⟨S4096x32000, .f32⟩) main_call0_v5) (TRef.of (T := ⟨S4096x32000, .f32⟩) main_call0_v10) (TRef.of (T := ⟨S4096x32000, .f32⟩) main_v37) subf ]

/-- Operations 61 … 66 of @main. -/
abbrev ops12 : List (HloOp τ sig (Elt F)) :=
  [ unary main_arg8 main_v38 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4096x1, .i32⟩) main_call1_v0) (broadcastInDim S4096x1 ![] bcast_S_S4096x1),
    TRef.binary (TRef.of (T := ⟨S4096x1, .i32⟩) main_v38) (TRef.of (T := ⟨S4096x1, .i32⟩) main_call1_v0) (TRef.of (T := ⟨S4096x1, .i1⟩) main_call1_v1) (cmpi .slt),
    TRef.nullary (TRef.of (T := ⟨S_, .i32⟩) main_call1_c_0) (constantI S_ 32 32000#32),
    TRef.unary (TRef.of (T := ⟨S_, .i32⟩) main_call1_c_0) (TRef.of (T := ⟨S4096x1, .i32⟩) main_call1_v2) (broadcastInDim S4096x1 ![] bcast_S_S4096x1) ]

/-- Operations 67 … 72 of @main. -/
abbrev ops13 : List (HloOp τ sig (Elt F)) :=
  [ TRef.binary (TRef.of (T := ⟨S4096x1, .i32⟩) main_v38) (TRef.of (T := ⟨S4096x1, .i32⟩) main_call1_v2) (TRef.of (T := ⟨S4096x1, .i32⟩) main_call1_v3) addi,
    TRef.ternary (TRef.of (T := ⟨S4096x1, .i1⟩) main_call1_v1) (TRef.of (T := ⟨S4096x1, .i32⟩) main_call1_v3) (TRef.of (T := ⟨S4096x1, .i32⟩) main_v38) (TRef.of (T := ⟨S4096x1, .i32⟩) main_call1_v4) select,
    TRef.reshape (TRef.of (T := ⟨S4096x1, .i32⟩) main_call1_v4) (TRef.of (T := ⟨S4096x1x1, .i32⟩) main_call1_v5) rfl shapeCasts_S4096x1_S4096x1x1,
    TRef.nullary (TRef.of (T := ⟨S1, .i32⟩) main_call1_c_1) (constantI S1 32 31999#32),
    TRef.nullary (TRef.of (T := ⟨S_, .i32⟩) main_call1_c_2) (constantI S_ 32 0#32),
    TRef.unary (TRef.of (T := ⟨S_, .i32⟩) main_call1_c_2) (TRef.of (T := ⟨S4096x1x1, .i32⟩) main_call1_v6) (broadcastInDim S4096x1x1 ![] bcast_S_S4096x1x1) ]

/-- Operations 73 … 78 of @main. -/
abbrev ops14 : List (HloOp τ sig (Elt F)) :=
  [ TRef.binary (TRef.of (T := ⟨S4096x1x1, .i32⟩) main_call1_v5) (TRef.of (T := ⟨S4096x1x1, .i32⟩) main_call1_v6) (TRef.of (T := ⟨S4096x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S4096x1x1, .i32⟩) main_call1_v9) (broadcastInDim S4096x1x1 ![0, 1, 2] bcast_S1x1x1_S4096x1x1_0_1_2),
    TRef.binary (TRef.of (T := ⟨S4096x1x1, .i32⟩) main_call1_v5) (TRef.of (T := ⟨S4096x1x1, .i32⟩) main_call1_v9) (TRef.of (T := ⟨S4096x1x1, .i1⟩) main_call1_v10) (cmpi .sle),
    TRef.binary (TRef.of (T := ⟨S4096x1x1, .i1⟩) main_call1_v7) (TRef.of (T := ⟨S4096x1x1, .i1⟩) main_call1_v10) (TRef.of (T := ⟨S4096x1x1, .i1⟩) main_call1_v11) andi,
    TRef.nullary (TRef.of (T := ⟨S_, .i1⟩) main_call1_c_3) (constantI S_ 1 1#1) ]

/-- Operations 79 … 84 of @main. -/
abbrev ops15 : List (HloOp τ sig (Elt F)) :=
  [ TRef.binary (TRef.of (T := ⟨S4096x1x1, .i1⟩) main_call1_v11) (TRef.of (T := ⟨S_, .i1⟩) main_call1_c_3) (TRef.of (T := ⟨S4096x1, .i1⟩) main_call1_v12) (fun x v => Host.reduce IntOp.andi x v reducesTo_S4096x1x1_S4096x1_d2 h_S_),
    TRef.binary (TRef.of (T := ⟨S4096x32000, .f32⟩) main_v37) (TRef.of (T := ⟨S4096x1x1, .i32⟩) main_call1_v5) (TRef.of (T := ⟨S4096x1, .f32⟩) main_call1_v13) (fun x i => Host.gather gather_S4096x32000_S4096x1x1_S4096x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S4096x1, .f32⟩) main_call1_v14) (broadcastInDim S4096x1 ![] bcast_S_S4096x1),
    TRef.ternary (TRef.of (T := ⟨S4096x1, .i1⟩) main_call1_v12) (TRef.of (T := ⟨S4096x1, .f32⟩) main_call1_v13) (TRef.of (T := ⟨S4096x1, .f32⟩) main_call1_v14) (TRef.of (T := ⟨S4096x1, .f32⟩) main_v39) select,
    reshape main_v39 main_v40 rfl shapeCasts_S4096x1_S4096 ]

/-- Operations 85 … 90 of @main. -/
abbrev ops16 : List (HloOp τ sig (Elt F)) :=
  [ unary main_v40 main_v41 (Host.negf : (⟨S4096, .f32⟩ : BufTy).Contents (Elt F) → (⟨S4096, .f32⟩ : BufTy).Contents (Elt F)),
    nullary main_c_7 (constantI S_ 32 0#32),
    unary main_c_7 main_v42 (broadcastInDim S4096 ![] bcast_S_S4096 : (⟨S_, .i32⟩ : BufTy).Contents (Elt F) → (⟨S4096, .i32⟩ : BufTy).Contents (Elt F)),
    binary main_arg8 main_v42 main_v43 (cmpi .slt : (⟨S4096, .i32⟩ : BufTy).Contents (Elt F) → (⟨S4096, .i32⟩ : BufTy).Contents (Elt F) → (⟨S4096, .i1⟩ : BufTy).Contents (Elt F)),
    nullary main_c_8 (constantI S_ 32 32000#32),
    unary main_c_8 main_v44 (broadcastInDim S4096 ![] bcast_S_S4096 : (⟨S_, .i32⟩ : BufTy).Contents (Elt F) → (⟨S4096, .i32⟩ : BufTy).Contents (Elt F)) ]

/-- Operations 91 … 96 of @main. -/
abbrev ops17 : List (HloOp τ sig (Elt F)) :=
  [ binary main_arg8 main_v44 main_v45 (addi : (⟨S4096, .i32⟩ : BufTy).Contents (Elt F) → (⟨S4096, .i32⟩ : BufTy).Contents (Elt F) → (⟨S4096, .i32⟩ : BufTy).Contents (Elt F)),
    ternary main_v43 main_v45 main_arg8 main_v46 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v46 main_v47 (broadcastInDim S4096x1 ![0] bcast_S4096_S4096x1_0 : (⟨S4096, .i32⟩ : BufTy).Contents (Elt F) → (⟨S4096x1, .i32⟩ : BufTy).Contents (Elt F)),
    binary main_arg4 main_v47 main_v48 ((fun x i => Host.gather gather_S32000_S4096x1_S4096_n_0_n_n_0_1_1 x i) : (⟨S32000, .f32⟩ : BufTy).Contents (Elt F) → (⟨S4096x1, .i32⟩ : BufTy).Contents (Elt F) → (⟨S4096, .f32⟩ : BufTy).Contents (Elt F)),
    nullary main_cst (constant S_ .f32 0x3F800000#32),
    unary main_cst main_v49 (broadcastInDim S4096 ![] bcast_S_S4096 : (⟨S_, .f32⟩ : BufTy).Contents (Elt F) → (⟨S4096, .f32⟩ : BufTy).Contents (Elt F)) ]

/-- Operations 97 … 102 of @main. -/
abbrev ops18 : List (HloOp τ sig (Elt F)) :=
  [ binary main_v49 main_v48 main_v50 (subf : (⟨S4096, .f32⟩ : BufTy).Contents (Elt F) → (⟨S4096, .f32⟩ : BufTy).Contents (Elt F) → (⟨S4096, .f32⟩ : BufTy).Contents (Elt F)),
    binary main_v41 main_v50 main_v51 (mulf : (⟨S4096, .f32⟩ : BufTy).Contents (Elt F) → (⟨S4096, .f32⟩ : BufTy).Contents (Elt F) → (⟨S4096, .f32⟩ : BufTy).Contents (Elt F)),
    nullary main_cst_9 (constant S_ .f32 0x00000000#32),
    binary main_v51 main_cst_9 main_v52 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_10 (constant S_ .f32 0x45800000#32),
    binary main_v52 main_cst_10 main_v53 (Host.divf : (⟨S_, .f32⟩ : BufTy).Contents (Elt F) → (⟨S_, .f32⟩ : BufTy).Contents (Elt F) → (⟨S_, .f32⟩ : BufTy).Contents (Elt F)) ]

/-- @main's operations are the stretches in order. -/
theorem ops_split : (Cert.ReferenceIdeal.ValueP.ops : List (HloOp τ sig (Elt F))) = ops01 ++ (ops02 ++ (ops03 ++ (ops04 ++ (ops05 ++ (ops06 ++ (ops07 ++ (ops08 ++ (ops09 ++ (ops10 ++ (ops11 ++ (ops12 ++ (ops13 ++ (ops14 ++ (ops15 ++ (ops16 ++ (ops17 ++ (ops18))))))))))))))))) := rfl

/-! ### Operations 1 … 6 -/

set_option maxHeartbeats 4000000 in
theorem st01_arg0 (W : Valuation τ sig (Elt F)) (x0 : (⟨S512x32x1024, .f32⟩ : BufTy).Contents (Elt F)) (h_main_arg0 : W (Proc.devRef .tc main_arg0) = x0) :
    StableHlo.after ops01 W (Proc.devRef .tc main_arg0) = x0 := by
  after_results_simp
  all_goals exact h_main_arg0

set_option maxHeartbeats 4000000 in
theorem st01_arg1 (W : Valuation τ sig (Elt F)) (x1 : (⟨S1024x2048, .f32⟩ : BufTy).Contents (Elt F)) (h_main_arg1 : W (Proc.devRef .tc main_arg1) = x1) :
    StableHlo.after ops01 W (Proc.devRef .tc main_arg1) = x1 := by
  after_results_simp
  all_goals exact h_main_arg1

set_option maxHeartbeats 4000000 in
theorem st01_arg2 (W : Valuation τ sig (Elt F)) (x2 : (⟨S1024, .f32⟩ : BufTy).Contents (Elt F)) (h_main_arg2 : W (Proc.devRef .tc main_arg2) = x2) :
    StableHlo.after ops01 W (Proc.devRef .tc main_arg2) = x2 := by
  after_results_simp
  all_goals exact h_main_arg2

set_option maxHeartbeats 4000000 in
theorem st01_arg3 (W : Valuation τ sig (Elt F)) (x3 : (⟨S32000x1024, .f32⟩ : BufTy).Contents (Elt F)) (h_main_arg3 : W (Proc.devRef .tc main_arg3) = x3) :
    StableHlo.after ops01 W (Proc.devRef .tc main_arg3) = x3 := by
  after_results_simp
  all_goals exact h_main_arg3

set_option maxHeartbeats 4000000 in
theorem st01_arg4 (W : Valuation τ sig (Elt F)) (x4 : (⟨S32000, .f32⟩ : BufTy).Contents (Elt F)) (h_main_arg4 : W (Proc.devRef .tc main_arg4) = x4) :
    StableHlo.after ops01 W (Proc.devRef .tc main_arg4) = x4 := by
  after_results_simp
  all_goals exact h_main_arg4

set_option maxHeartbeats 4000000 in
theorem st01_arg5 (W : Valuation τ sig (Elt F)) (x5 : (⟨S4096, .i32⟩ : BufTy).Contents (Elt F)) (h_main_arg5 : W (Proc.devRef .tc main_arg5) = x5) :
    StableHlo.after ops01 W (Proc.devRef .tc main_arg5) = x5 := by
  after_results_simp
  all_goals exact h_main_arg5

set_option maxHeartbeats 4000000 in
theorem st01_arg6 (W : Valuation τ sig (Elt F)) (x6 : (⟨S4096, .i32⟩ : BufTy).Contents (Elt F)) (h_main_arg6 : W (Proc.devRef .tc main_arg6) = x6) :
    StableHlo.after ops01 W (Proc.devRef .tc main_arg6) = x6 := by
  after_results_simp
  all_goals exact h_main_arg6

set_option maxHeartbeats 4000000 in
theorem st01_arg7 (W : Valuation τ sig (Elt F)) (x7 : (⟨S4096, .i32⟩ : BufTy).Contents (Elt F)) (h_main_arg7 : W (Proc.devRef .tc main_arg7) = x7) :
    StableHlo.after ops01 W (Proc.devRef .tc main_arg7) = x7 := by
  after_results_simp
  all_goals exact h_main_arg7

set_option maxHeartbeats 4000000 in
theorem st01_arg8 (W : Valuation τ sig (Elt F)) (x8 : (⟨S4096, .i32⟩ : BufTy).Contents (Elt F)) (h_main_arg8 : W (Proc.devRef .tc main_arg8) = x8) :
    StableHlo.after ops01 W (Proc.devRef .tc main_arg8) = x8 := by
  after_results_simp
  all_goals exact h_main_arg8

set_option maxHeartbeats 4000000 in
theorem st01_v1 (W : Valuation τ sig (Elt F)) (x6 : (⟨S4096, .i32⟩ : BufTy).Contents (Elt F)) (h_main_arg6 : W (Proc.devRef .tc main_arg6) = x6) :
    StableHlo.after ops01 W (Proc.devRef .tc main_v1) = val_main_v1 (F := F) x6 := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try simp only [h_main_arg6]
  all_goals try rw [h_main_arg6]
  all_goals try rfl

set_option maxHeartbeats 4000000 in
theorem st01_v3 (W : Valuation τ sig (Elt F)) (x6 : (⟨S4096, .i32⟩ : BufTy).Contents (Elt F)) (h_main_arg6 : W (Proc.devRef .tc main_arg6) = x6) :
    StableHlo.after ops01 W (Proc.devRef .tc main_v3) = val_main_v3 (F := F) x6 := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try simp only [h_main_arg6]
  all_goals try rw [h_main_arg6]
  all_goals try rfl

/-! ### Operations 7 … 12 -/

set_option maxHeartbeats 4000000 in
theorem st02_arg0 (W : Valuation τ sig (Elt F)) (x0 : (⟨S512x32x1024, .f32⟩ : BufTy).Contents (Elt F)) (h_main_arg0 : W (Proc.devRef .tc main_arg0) = x0) :
    StableHlo.after ops02 W (Proc.devRef .tc main_arg0) = x0 := by
  after_results_simp
  all_goals exact h_main_arg0

set_option maxHeartbeats 4000000 in
theorem st02_arg1 (W : Valuation τ sig (Elt F)) (x1 : (⟨S1024x2048, .f32⟩ : BufTy).Contents (Elt F)) (h_main_arg1 : W (Proc.devRef .tc main_arg1) = x1) :
    StableHlo.after ops02 W (Proc.devRef .tc main_arg1) = x1 := by
  after_results_simp
  all_goals exact h_main_arg1

set_option maxHeartbeats 4000000 in
theorem st02_arg2 (W : Valuation τ sig (Elt F)) (x2 : (⟨S1024, .f32⟩ : BufTy).Contents (Elt F)) (h_main_arg2 : W (Proc.devRef .tc main_arg2) = x2) :
    StableHlo.after ops02 W (Proc.devRef .tc main_arg2) = x2 := by
  after_results_simp
  all_goals exact h_main_arg2

set_option maxHeartbeats 4000000 in
theorem st02_arg3 (W : Valuation τ sig (Elt F)) (x3 : (⟨S32000x1024, .f32⟩ : BufTy).Contents (Elt F)) (h_main_arg3 : W (Proc.devRef .tc main_arg3) = x3) :
    StableHlo.after ops02 W (Proc.devRef .tc main_arg3) = x3 := by
  after_results_simp
  all_goals exact h_main_arg3

set_option maxHeartbeats 4000000 in
theorem st02_arg4 (W : Valuation τ sig (Elt F)) (x4 : (⟨S32000, .f32⟩ : BufTy).Contents (Elt F)) (h_main_arg4 : W (Proc.devRef .tc main_arg4) = x4) :
    StableHlo.after ops02 W (Proc.devRef .tc main_arg4) = x4 := by
  after_results_simp
  all_goals exact h_main_arg4

set_option maxHeartbeats 4000000 in
theorem st02_arg5 (W : Valuation τ sig (Elt F)) (x5 : (⟨S4096, .i32⟩ : BufTy).Contents (Elt F)) (h_main_arg5 : W (Proc.devRef .tc main_arg5) = x5) :
    StableHlo.after ops02 W (Proc.devRef .tc main_arg5) = x5 := by
  after_results_simp
  all_goals exact h_main_arg5

set_option maxHeartbeats 4000000 in
theorem st02_arg7 (W : Valuation τ sig (Elt F)) (x7 : (⟨S4096, .i32⟩ : BufTy).Contents (Elt F)) (h_main_arg7 : W (Proc.devRef .tc main_arg7) = x7) :
    StableHlo.after ops02 W (Proc.devRef .tc main_arg7) = x7 := by
  after_results_simp
  all_goals exact h_main_arg7

set_option maxHeartbeats 4000000 in
theorem st02_arg8 (W : Valuation τ sig (Elt F)) (x8 : (⟨S4096, .i32⟩ : BufTy).Contents (Elt F)) (h_main_arg8 : W (Proc.devRef .tc main_arg8) = x8) :
    StableHlo.after ops02 W (Proc.devRef .tc main_arg8) = x8 := by
  after_results_simp
  all_goals exact h_main_arg8

set_option maxHeartbeats 4000000 in
theorem st02_v4 (W : Valuation τ sig (Elt F)) (x6 : (⟨S4096, .i32⟩ : BufTy).Contents (Elt F)) (h_main_arg6 : W (Proc.devRef .tc main_arg6) = x6) (h_main_v1 : W (Proc.devRef .tc main_v1) = val_main_v1 (F := F) x6) (h_main_v3 : W (Proc.devRef .tc main_v3) = val_main_v3 (F := F) x6) :
    StableHlo.after ops02 W (Proc.devRef .tc main_v4) = val_main_v4 (F := F) x6 := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try simp only [h_main_arg6, h_main_v1, h_main_v3]
  all_goals try rw [h_main_arg6]
  all_goals try rw [h_main_v1]
  all_goals try rw [h_main_v3]
  all_goals try rfl

set_option maxHeartbeats 4000000 in
theorem st02_v6 (W : Valuation τ sig (Elt F)) (x5 : (⟨S4096, .i32⟩ : BufTy).Contents (Elt F)) (h_main_arg5 : W (Proc.devRef .tc main_arg5) = x5) :
    StableHlo.after ops02 W (Proc.devRef .tc main_v6) = val_main_v6 (F := F) x5 := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try simp only [h_main_arg5]
  all_goals try rw [h_main_arg5]
  all_goals try rfl

set_option maxHeartbeats 4000000 in
theorem st02_v7 (W : Valuation τ sig (Elt F)) :
    StableHlo.after ops02 W (Proc.devRef .tc main_v7) = val_main_v7 (F := F) := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try rfl

/-! ### Operations 13 … 16 -/

set_option maxHeartbeats 4000000 in
theorem st03_arg0 (W : Valuation τ sig (Elt F)) (x0 : (⟨S512x32x1024, .f32⟩ : BufTy).Contents (Elt F)) (h_main_arg0 : W (Proc.devRef .tc main_arg0) = x0) :
    StableHlo.after ops03 W (Proc.devRef .tc main_arg0) = x0 := by
  after_results_simp
  all_goals exact h_main_arg0

set_option maxHeartbeats 4000000 in
theorem st03_arg1 (W : Valuation τ sig (Elt F)) (x1 : (⟨S1024x2048, .f32⟩ : BufTy).Contents (Elt F)) (h_main_arg1 : W (Proc.devRef .tc main_arg1) = x1) :
    StableHlo.after ops03 W (Proc.devRef .tc main_arg1) = x1 := by
  after_results_simp
  all_goals exact h_main_arg1

set_option maxHeartbeats 4000000 in
theorem st03_arg2 (W : Valuation τ sig (Elt F)) (x2 : (⟨S1024, .f32⟩ : BufTy).Contents (Elt F)) (h_main_arg2 : W (Proc.devRef .tc main_arg2) = x2) :
    StableHlo.after ops03 W (Proc.devRef .tc main_arg2) = x2 := by
  after_results_simp
  all_goals exact h_main_arg2

set_option maxHeartbeats 4000000 in
theorem st03_arg3 (W : Valuation τ sig (Elt F)) (x3 : (⟨S32000x1024, .f32⟩ : BufTy).Contents (Elt F)) (h_main_arg3 : W (Proc.devRef .tc main_arg3) = x3) :
    StableHlo.after ops03 W (Proc.devRef .tc main_arg3) = x3 := by
  after_results_simp
  all_goals exact h_main_arg3

set_option maxHeartbeats 4000000 in
theorem st03_arg4 (W : Valuation τ sig (Elt F)) (x4 : (⟨S32000, .f32⟩ : BufTy).Contents (Elt F)) (h_main_arg4 : W (Proc.devRef .tc main_arg4) = x4) :
    StableHlo.after ops03 W (Proc.devRef .tc main_arg4) = x4 := by
  after_results_simp
  all_goals exact h_main_arg4

set_option maxHeartbeats 4000000 in
theorem st03_arg5 (W : Valuation τ sig (Elt F)) (x5 : (⟨S4096, .i32⟩ : BufTy).Contents (Elt F)) (h_main_arg5 : W (Proc.devRef .tc main_arg5) = x5) :
    StableHlo.after ops03 W (Proc.devRef .tc main_arg5) = x5 := by
  after_results_simp
  all_goals exact h_main_arg5

set_option maxHeartbeats 4000000 in
theorem st03_arg7 (W : Valuation τ sig (Elt F)) (x7 : (⟨S4096, .i32⟩ : BufTy).Contents (Elt F)) (h_main_arg7 : W (Proc.devRef .tc main_arg7) = x7) :
    StableHlo.after ops03 W (Proc.devRef .tc main_arg7) = x7 := by
  after_results_simp
  all_goals exact h_main_arg7

set_option maxHeartbeats 4000000 in
theorem st03_arg8 (W : Valuation τ sig (Elt F)) (x8 : (⟨S4096, .i32⟩ : BufTy).Contents (Elt F)) (h_main_arg8 : W (Proc.devRef .tc main_arg8) = x8) :
    StableHlo.after ops03 W (Proc.devRef .tc main_arg8) = x8 := by
  after_results_simp
  all_goals exact h_main_arg8

set_option maxHeartbeats 4000000 in
theorem st03_v10 (W : Valuation τ sig (Elt F)) (x6 : (⟨S4096, .i32⟩ : BufTy).Contents (Elt F)) (h_main_v4 : W (Proc.devRef .tc main_v4) = val_main_v4 (F := F) x6) :
    StableHlo.after ops03 W (Proc.devRef .tc main_v10) = val_main_v10 (F := F) x6 := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try simp only [h_main_v4]
  all_goals try rw [h_main_v4]
  all_goals try rfl

set_option maxHeartbeats 4000000 in
theorem st03_v11 (W : Valuation τ sig (Elt F)) (x5 : (⟨S4096, .i32⟩ : BufTy).Contents (Elt F)) (h_main_arg5 : W (Proc.devRef .tc main_arg5) = x5) (h_main_v6 : W (Proc.devRef .tc main_v6) = val_main_v6 (F := F) x5) (h_main_v7 : W (Proc.devRef .tc main_v7) = val_main_v7 (F := F)) :
    StableHlo.after ops03 W (Proc.devRef .tc main_v11) = val_main_v11 (F := F) x5 := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try simp only [h_main_arg5, h_main_v6, h_main_v7]
  all_goals try rw [h_main_arg5]
  all_goals try rw [h_main_v6]
  all_goals try rw [h_main_v7]
  all_goals try rfl

/-! ### Operations 17 … 22 -/

set_option maxHeartbeats 4000000 in
theorem st04_arg0 (W : Valuation τ sig (Elt F)) (x0 : (⟨S512x32x1024, .f32⟩ : BufTy).Contents (Elt F)) (h_main_arg0 : W (Proc.devRef .tc main_arg0) = x0) :
    StableHlo.after ops04 W (Proc.devRef .tc main_arg0) = x0 := by
  after_results_simp
  all_goals exact h_main_arg0

set_option maxHeartbeats 4000000 in
theorem st04_arg1 (W : Valuation τ sig (Elt F)) (x1 : (⟨S1024x2048, .f32⟩ : BufTy).Contents (Elt F)) (h_main_arg1 : W (Proc.devRef .tc main_arg1) = x1) :
    StableHlo.after ops04 W (Proc.devRef .tc main_arg1) = x1 := by
  after_results_simp
  all_goals exact h_main_arg1

set_option maxHeartbeats 4000000 in
theorem st04_arg2 (W : Valuation τ sig (Elt F)) (x2 : (⟨S1024, .f32⟩ : BufTy).Contents (Elt F)) (h_main_arg2 : W (Proc.devRef .tc main_arg2) = x2) :
    StableHlo.after ops04 W (Proc.devRef .tc main_arg2) = x2 := by
  after_results_simp
  all_goals exact h_main_arg2

set_option maxHeartbeats 4000000 in
theorem st04_arg3 (W : Valuation τ sig (Elt F)) (x3 : (⟨S32000x1024, .f32⟩ : BufTy).Contents (Elt F)) (h_main_arg3 : W (Proc.devRef .tc main_arg3) = x3) :
    StableHlo.after ops04 W (Proc.devRef .tc main_arg3) = x3 := by
  after_results_simp
  all_goals exact h_main_arg3

set_option maxHeartbeats 4000000 in
theorem st04_arg4 (W : Valuation τ sig (Elt F)) (x4 : (⟨S32000, .f32⟩ : BufTy).Contents (Elt F)) (h_main_arg4 : W (Proc.devRef .tc main_arg4) = x4) :
    StableHlo.after ops04 W (Proc.devRef .tc main_arg4) = x4 := by
  after_results_simp
  all_goals exact h_main_arg4

set_option maxHeartbeats 4000000 in
theorem st04_arg5 (W : Valuation τ sig (Elt F)) (x5 : (⟨S4096, .i32⟩ : BufTy).Contents (Elt F)) (h_main_arg5 : W (Proc.devRef .tc main_arg5) = x5) :
    StableHlo.after ops04 W (Proc.devRef .tc main_arg5) = x5 := by
  after_results_simp
  all_goals exact h_main_arg5

set_option maxHeartbeats 4000000 in
theorem st04_arg7 (W : Valuation τ sig (Elt F)) (x7 : (⟨S4096, .i32⟩ : BufTy).Contents (Elt F)) (h_main_arg7 : W (Proc.devRef .tc main_arg7) = x7) :
    StableHlo.after ops04 W (Proc.devRef .tc main_arg7) = x7 := by
  after_results_simp
  all_goals exact h_main_arg7

set_option maxHeartbeats 4000000 in
theorem st04_arg8 (W : Valuation τ sig (Elt F)) (x8 : (⟨S4096, .i32⟩ : BufTy).Contents (Elt F)) (h_main_arg8 : W (Proc.devRef .tc main_arg8) = x8) :
    StableHlo.after ops04 W (Proc.devRef .tc main_arg8) = x8 := by
  after_results_simp
  all_goals exact h_main_arg8

set_option maxHeartbeats 4000000 in
theorem st04_v13 (W : Valuation τ sig (Elt F)) (x0 : (⟨S512x32x1024, .f32⟩ : BufTy).Contents (Elt F)) (x5 : (⟨S4096, .i32⟩ : BufTy).Contents (Elt F)) (x6 : (⟨S4096, .i32⟩ : BufTy).Contents (Elt F)) (h_main_arg0 : W (Proc.devRef .tc main_arg0) = x0) (h_main_v10 : W (Proc.devRef .tc main_v10) = val_main_v10 (F := F) x6) (h_main_v11 : W (Proc.devRef .tc main_v11) = val_main_v11 (F := F) x5) :
    StableHlo.after ops04 W (Proc.devRef .tc main_v13) = val_main_v13 (F := F) x0 x5 x6 := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try simp only [h_main_arg0, h_main_v10, h_main_v11]
  all_goals try rw [h_main_arg0]
  all_goals try rw [h_main_v10]
  all_goals try rw [h_main_v11]
  all_goals try rfl

set_option maxHeartbeats 4000000 in
theorem st04_v15 (W : Valuation τ sig (Elt F)) (x7 : (⟨S4096, .i32⟩ : BufTy).Contents (Elt F)) (h_main_arg7 : W (Proc.devRef .tc main_arg7) = x7) :
    StableHlo.after ops04 W (Proc.devRef .tc main_v15) = val_main_v15 (F := F) x7 := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try simp only [h_main_arg7]
  all_goals try rw [h_main_arg7]
  all_goals try rfl

set_option maxHeartbeats 4000000 in
theorem st04_c_4 (W : Valuation τ sig (Elt F)) :
    StableHlo.after ops04 W (Proc.devRef .tc main_c_4) = val_main_c_4 (F := F) := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try rfl

/-! ### Operations 23 … 28 -/

set_option maxHeartbeats 4000000 in
theorem st05_arg0 (W : Valuation τ sig (Elt F)) (x0 : (⟨S512x32x1024, .f32⟩ : BufTy).Contents (Elt F)) (h_main_arg0 : W (Proc.devRef .tc main_arg0) = x0) :
    StableHlo.after ops05 W (Proc.devRef .tc main_arg0) = x0 := by
  after_results_simp
  all_goals exact h_main_arg0

set_option maxHeartbeats 4000000 in
theorem st05_arg1 (W : Valuation τ sig (Elt F)) (x1 : (⟨S1024x2048, .f32⟩ : BufTy).Contents (Elt F)) (h_main_arg1 : W (Proc.devRef .tc main_arg1) = x1) :
    StableHlo.after ops05 W (Proc.devRef .tc main_arg1) = x1 := by
  after_results_simp
  all_goals exact h_main_arg1

set_option maxHeartbeats 4000000 in
theorem st05_arg2 (W : Valuation τ sig (Elt F)) (x2 : (⟨S1024, .f32⟩ : BufTy).Contents (Elt F)) (h_main_arg2 : W (Proc.devRef .tc main_arg2) = x2) :
    StableHlo.after ops05 W (Proc.devRef .tc main_arg2) = x2 := by
  after_results_simp
  all_goals exact h_main_arg2

set_option maxHeartbeats 4000000 in
theorem st05_arg3 (W : Valuation τ sig (Elt F)) (x3 : (⟨S32000x1024, .f32⟩ : BufTy).Contents (Elt F)) (h_main_arg3 : W (Proc.devRef .tc main_arg3) = x3) :
    StableHlo.after ops05 W (Proc.devRef .tc main_arg3) = x3 := by
  after_results_simp
  all_goals exact h_main_arg3

set_option maxHeartbeats 4000000 in
theorem st05_arg4 (W : Valuation τ sig (Elt F)) (x4 : (⟨S32000, .f32⟩ : BufTy).Contents (Elt F)) (h_main_arg4 : W (Proc.devRef .tc main_arg4) = x4) :
    StableHlo.after ops05 W (Proc.devRef .tc main_arg4) = x4 := by
  after_results_simp
  all_goals exact h_main_arg4

set_option maxHeartbeats 4000000 in
theorem st05_arg5 (W : Valuation τ sig (Elt F)) (x5 : (⟨S4096, .i32⟩ : BufTy).Contents (Elt F)) (h_main_arg5 : W (Proc.devRef .tc main_arg5) = x5) :
    StableHlo.after ops05 W (Proc.devRef .tc main_arg5) = x5 := by
  after_results_simp
  all_goals exact h_main_arg5

set_option maxHeartbeats 4000000 in
theorem st05_arg8 (W : Valuation τ sig (Elt F)) (x8 : (⟨S4096, .i32⟩ : BufTy).Contents (Elt F)) (h_main_arg8 : W (Proc.devRef .tc main_arg8) = x8) :
    StableHlo.after ops05 W (Proc.devRef .tc main_arg8) = x8 := by
  after_results_simp
  all_goals exact h_main_arg8

set_option maxHeartbeats 4000000 in
theorem st05_v13 (W : Valuation τ sig (Elt F)) (x0 : (⟨S512x32x1024, .f32⟩ : BufTy).Contents (Elt F)) (x5 : (⟨S4096, .i32⟩ : BufTy).Contents (Elt F)) (x6 : (⟨S4096, .i32⟩ : BufTy).Contents (Elt F)) (h_main_v13 : W (Proc.devRef .tc main_v13) = val_main_v13 (F := F) x0 x5 x6) :
    StableHlo.after ops05 W (Proc.devRef .tc main_v13) = val_main_v13 (F := F) x0 x5 x6 := by
  after_results_simp
  all_goals exact h_main_v13

set_option maxHeartbeats 4000000 in
theorem st05_v18 (W : Valuation τ sig (Elt F)) (x7 : (⟨S4096, .i32⟩ : BufTy).Contents (Elt F)) (h_main_arg7 : W (Proc.devRef .tc main_arg7) = x7) (h_main_v15 : W (Proc.devRef .tc main_v15) = val_main_v15 (F := F) x7) (h_main_c_4 : W (Proc.devRef .tc main_c_4) = val_main_c_4 (F := F)) :
    StableHlo.after ops05 W (Proc.devRef .tc main_v18) = val_main_v18 (F := F) x7 := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try simp only [h_main_arg7, h_main_v15, h_main_c_4]
  all_goals try rw [h_main_arg7]
  all_goals try rw [h_main_v15]
  all_goals try rw [h_main_c_4]
  all_goals try rfl

set_option maxHeartbeats 4000000 in
theorem st05_v20 (W : Valuation τ sig (Elt F)) (x5 : (⟨S4096, .i32⟩ : BufTy).Contents (Elt F)) (h_main_arg5 : W (Proc.devRef .tc main_arg5) = x5) :
    StableHlo.after ops05 W (Proc.devRef .tc main_v20) = val_main_v20 (F := F) x5 := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try simp only [h_main_arg5]
  all_goals try rw [h_main_arg5]
  all_goals try rfl

/-! ### Operations 29 … 34 -/

set_option maxHeartbeats 4000000 in
theorem st06_arg0 (W : Valuation τ sig (Elt F)) (x0 : (⟨S512x32x1024, .f32⟩ : BufTy).Contents (Elt F)) (h_main_arg0 : W (Proc.devRef .tc main_arg0) = x0) :
    StableHlo.after ops06 W (Proc.devRef .tc main_arg0) = x0 := by
  after_results_simp
  all_goals exact h_main_arg0

set_option maxHeartbeats 4000000 in
theorem st06_arg1 (W : Valuation τ sig (Elt F)) (x1 : (⟨S1024x2048, .f32⟩ : BufTy).Contents (Elt F)) (h_main_arg1 : W (Proc.devRef .tc main_arg1) = x1) :
    StableHlo.after ops06 W (Proc.devRef .tc main_arg1) = x1 := by
  after_results_simp
  all_goals exact h_main_arg1

set_option maxHeartbeats 4000000 in
theorem st06_arg2 (W : Valuation τ sig (Elt F)) (x2 : (⟨S1024, .f32⟩ : BufTy).Contents (Elt F)) (h_main_arg2 : W (Proc.devRef .tc main_arg2) = x2) :
    StableHlo.after ops06 W (Proc.devRef .tc main_arg2) = x2 := by
  after_results_simp
  all_goals exact h_main_arg2

set_option maxHeartbeats 4000000 in
theorem st06_arg3 (W : Valuation τ sig (Elt F)) (x3 : (⟨S32000x1024, .f32⟩ : BufTy).Contents (Elt F)) (h_main_arg3 : W (Proc.devRef .tc main_arg3) = x3) :
    StableHlo.after ops06 W (Proc.devRef .tc main_arg3) = x3 := by
  after_results_simp
  all_goals exact h_main_arg3

set_option maxHeartbeats 4000000 in
theorem st06_arg4 (W : Valuation τ sig (Elt F)) (x4 : (⟨S32000, .f32⟩ : BufTy).Contents (Elt F)) (h_main_arg4 : W (Proc.devRef .tc main_arg4) = x4) :
    StableHlo.after ops06 W (Proc.devRef .tc main_arg4) = x4 := by
  after_results_simp
  all_goals exact h_main_arg4

set_option maxHeartbeats 4000000 in
theorem st06_arg8 (W : Valuation τ sig (Elt F)) (x8 : (⟨S4096, .i32⟩ : BufTy).Contents (Elt F)) (h_main_arg8 : W (Proc.devRef .tc main_arg8) = x8) :
    StableHlo.after ops06 W (Proc.devRef .tc main_arg8) = x8 := by
  after_results_simp
  all_goals exact h_main_arg8

set_option maxHeartbeats 4000000 in
theorem st06_v13 (W : Valuation τ sig (Elt F)) (x0 : (⟨S512x32x1024, .f32⟩ : BufTy).Contents (Elt F)) (x5 : (⟨S4096, .i32⟩ : BufTy).Contents (Elt F)) (x6 : (⟨S4096, .i32⟩ : BufTy).Contents (Elt F)) (h_main_v13 : W (Proc.devRef .tc main_v13) = val_main_v13 (F := F) x0 x5 x6) :
    StableHlo.after ops06 W (Proc.devRef .tc main_v13) = val_main_v13 (F := F) x0 x5 x6 := by
  after_results_simp
  all_goals exact h_main_v13

set_option maxHeartbeats 4000000 in
theorem st06_v24 (W : Valuation τ sig (Elt F)) (x7 : (⟨S4096, .i32⟩ : BufTy).Contents (Elt F)) (h_main_v18 : W (Proc.devRef .tc main_v18) = val_main_v18 (F := F) x7) :
    StableHlo.after ops06 W (Proc.devRef .tc main_v24) = val_main_v24 (F := F) x7 := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try simp only [h_main_v18]
  all_goals try rw [h_main_v18]
  all_goals try rfl

set_option maxHeartbeats 4000000 in
theorem st06_v25 (W : Valuation τ sig (Elt F)) (x5 : (⟨S4096, .i32⟩ : BufTy).Contents (Elt F)) (h_main_arg5 : W (Proc.devRef .tc main_arg5) = x5) (h_main_v20 : W (Proc.devRef .tc main_v20) = val_main_v20 (F := F) x5) :
    StableHlo.after ops06 W (Proc.devRef .tc main_v25) = val_main_v25 (F := F) x5 := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try simp only [h_main_arg5, h_main_v20]
  all_goals try rw [h_main_arg5]
  all_goals try rw [h_main_v20]
  all_goals try rfl

/-! ### Operations 35 … 36 -/

set_option maxHeartbeats 4000000 in
theorem st07_arg1 (W : Valuation τ sig (Elt F)) (x1 : (⟨S1024x2048, .f32⟩ : BufTy).Contents (Elt F)) (h_main_arg1 : W (Proc.devRef .tc main_arg1) = x1) :
    StableHlo.after ops07 W (Proc.devRef .tc main_arg1) = x1 := by
  after_results_simp
  all_goals exact h_main_arg1

set_option maxHeartbeats 4000000 in
theorem st07_arg2 (W : Valuation τ sig (Elt F)) (x2 : (⟨S1024, .f32⟩ : BufTy).Contents (Elt F)) (h_main_arg2 : W (Proc.devRef .tc main_arg2) = x2) :
    StableHlo.after ops07 W (Proc.devRef .tc main_arg2) = x2 := by
  after_results_simp
  all_goals exact h_main_arg2

set_option maxHeartbeats 4000000 in
theorem st07_arg3 (W : Valuation τ sig (Elt F)) (x3 : (⟨S32000x1024, .f32⟩ : BufTy).Contents (Elt F)) (h_main_arg3 : W (Proc.devRef .tc main_arg3) = x3) :
    StableHlo.after ops07 W (Proc.devRef .tc main_arg3) = x3 := by
  after_results_simp
  all_goals exact h_main_arg3

set_option maxHeartbeats 4000000 in
theorem st07_arg4 (W : Valuation τ sig (Elt F)) (x4 : (⟨S32000, .f32⟩ : BufTy).Contents (Elt F)) (h_main_arg4 : W (Proc.devRef .tc main_arg4) = x4) :
    StableHlo.after ops07 W (Proc.devRef .tc main_arg4) = x4 := by
  after_results_simp
  all_goals exact h_main_arg4

set_option maxHeartbeats 4000000 in
theorem st07_arg8 (W : Valuation τ sig (Elt F)) (x8 : (⟨S4096, .i32⟩ : BufTy).Contents (Elt F)) (h_main_arg8 : W (Proc.devRef .tc main_arg8) = x8) :
    StableHlo.after ops07 W (Proc.devRef .tc main_arg8) = x8 := by
  after_results_simp
  all_goals exact h_main_arg8

set_option maxHeartbeats 4000000 in
theorem st07_v13 (W : Valuation τ sig (Elt F)) (x0 : (⟨S512x32x1024, .f32⟩ : BufTy).Contents (Elt F)) (x5 : (⟨S4096, .i32⟩ : BufTy).Contents (Elt F)) (x6 : (⟨S4096, .i32⟩ : BufTy).Contents (Elt F)) (h_main_v13 : W (Proc.devRef .tc main_v13) = val_main_v13 (F := F) x0 x5 x6) :
    StableHlo.after ops07 W (Proc.devRef .tc main_v13) = val_main_v13 (F := F) x0 x5 x6 := by
  after_results_simp
  all_goals exact h_main_v13

set_option maxHeartbeats 4000000 in
theorem st07_v27 (W : Valuation τ sig (Elt F)) (x0 : (⟨S512x32x1024, .f32⟩ : BufTy).Contents (Elt F)) (x5 : (⟨S4096, .i32⟩ : BufTy).Contents (Elt F)) (x7 : (⟨S4096, .i32⟩ : BufTy).Contents (Elt F)) (h_main_arg0 : W (Proc.devRef .tc main_arg0) = x0) (h_main_v24 : W (Proc.devRef .tc main_v24) = val_main_v24 (F := F) x7) (h_main_v25 : W (Proc.devRef .tc main_v25) = val_main_v25 (F := F) x5) :
    StableHlo.after ops07 W (Proc.devRef .tc main_v27) = val_main_v27 (F := F) x0 x5 x7 := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try simp only [h_main_arg0, h_main_v24, h_main_v25]
  all_goals try rw [h_main_arg0]
  all_goals try rw [h_main_v24]
  all_goals try rw [h_main_v25]
  all_goals try rfl

/-! ### Operations 37 … 42 -/

set_option maxHeartbeats 4000000 in
theorem st08_arg3 (W : Valuation τ sig (Elt F)) (x3 : (⟨S32000x1024, .f32⟩ : BufTy).Contents (Elt F)) (h_main_arg3 : W (Proc.devRef .tc main_arg3) = x3) :
    StableHlo.after ops08 W (Proc.devRef .tc main_arg3) = x3 := by
  after_results_simp
  all_goals exact h_main_arg3

set_option maxHeartbeats 4000000 in
theorem st08_arg4 (W : Valuation τ sig (Elt F)) (x4 : (⟨S32000, .f32⟩ : BufTy).Contents (Elt F)) (h_main_arg4 : W (Proc.devRef .tc main_arg4) = x4) :
    StableHlo.after ops08 W (Proc.devRef .tc main_arg4) = x4 := by
  after_results_simp
  all_goals exact h_main_arg4

set_option maxHeartbeats 4000000 in
theorem st08_arg8 (W : Valuation τ sig (Elt F)) (x8 : (⟨S4096, .i32⟩ : BufTy).Contents (Elt F)) (h_main_arg8 : W (Proc.devRef .tc main_arg8) = x8) :
    StableHlo.after ops08 W (Proc.devRef .tc main_arg8) = x8 := by
  after_results_simp
  all_goals exact h_main_arg8

set_option maxHeartbeats 4000000 in
theorem st08_v33 (W : Valuation τ sig (Elt F)) (x0 : (⟨S512x32x1024, .f32⟩ : BufTy).Contents (Elt F)) (x1 : (⟨S1024x2048, .f32⟩ : BufTy).Contents (Elt F)) (x2 : (⟨S1024, .f32⟩ : BufTy).Contents (Elt F)) (x5 : (⟨S4096, .i32⟩ : BufTy).Contents (Elt F)) (x6 : (⟨S4096, .i32⟩ : BufTy).Contents (Elt F)) (x7 : (⟨S4096, .i32⟩ : BufTy).Contents (Elt F)) (h_main_arg1 : W (Proc.devRef .tc main_arg1) = x1) (h_main_arg2 : W (Proc.devRef .tc main_arg2) = x2) (h_main_v13 : W (Proc.devRef .tc main_v13) = val_main_v13 (F := F) x0 x5 x6) (h_main_v27 : W (Proc.devRef .tc main_v27) = val_main_v27 (F := F) x0 x5 x7) :
    StableHlo.after ops08 W (Proc.devRef .tc main_v33) = val_main_v33 (F := F) x0 x1 x2 x5 x6 x7 := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try simp only [h_main_arg1, h_main_arg2, h_main_v13, h_main_v27]
  all_goals try rw [h_main_arg1]
  all_goals try rw [h_main_arg2]
  all_goals try rw [h_main_v13]
  all_goals try rw [h_main_v27]
  all_goals try rfl

/-! ### Operations 43 … 48 -/

set_option maxHeartbeats 4000000 in
theorem st09_arg4 (W : Valuation τ sig (Elt F)) (x4 : (⟨S32000, .f32⟩ : BufTy).Contents (Elt F)) (h_main_arg4 : W (Proc.devRef .tc main_arg4) = x4) :
    StableHlo.after ops09 W (Proc.devRef .tc main_arg4) = x4 := by
  after_results_simp
  all_goals exact h_main_arg4

set_option maxHeartbeats 4000000 in
theorem st09_arg8 (W : Valuation τ sig (Elt F)) (x8 : (⟨S4096, .i32⟩ : BufTy).Contents (Elt F)) (h_main_arg8 : W (Proc.devRef .tc main_arg8) = x8) :
    StableHlo.after ops09 W (Proc.devRef .tc main_arg8) = x8 := by
  after_results_simp
  all_goals exact h_main_arg8

set_option maxHeartbeats 4000000 in
theorem st09_v36 (W : Valuation τ sig (Elt F)) (x0 : (⟨S512x32x1024, .f32⟩ : BufTy).Contents (Elt F)) (x1 : (⟨S1024x2048, .f32⟩ : BufTy).Contents (Elt F)) (x2 : (⟨S1024, .f32⟩ : BufTy).Contents (Elt F)) (x3 : (⟨S32000x1024, .f32⟩ : BufTy).Contents (Elt F)) (x5 : (⟨S4096, .i32⟩ : BufTy).Contents (Elt F)) (x6 : (⟨S4096, .i32⟩ : BufTy).Contents (Elt F)) (x7 : (⟨S4096, .i32⟩ : BufTy).Contents (Elt F)) (h_main_arg3 : W (Proc.devRef .tc main_arg3) = x3) (h_main_v33 : W (Proc.devRef .tc main_v33) = val_main_v33 (F := F) x0 x1 x2 x5 x6 x7) :
    StableHlo.after ops09 W (Proc.devRef .tc main_v36) = val_main_v36 (F := F) x0 x1 x2 x3 x5 x6 x7 := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try simp only [h_main_arg3, h_main_v33]
  all_goals try rw [h_main_arg3]
  all_goals try rw [h_main_v33]
  all_goals try rfl

set_option maxHeartbeats 4000000 in
theorem st09_call0_v0 (W : Valuation τ sig (Elt F)) (x0 : (⟨S512x32x1024, .f32⟩ : BufTy).Contents (Elt F)) (x1 : (⟨S1024x2048, .f32⟩ : BufTy).Contents (Elt F)) (x2 : (⟨S1024, .f32⟩ : BufTy).Contents (Elt F)) (x3 : (⟨S32000x1024, .f32⟩ : BufTy).Contents (Elt F)) (x5 : (⟨S4096, .i32⟩ : BufTy).Contents (Elt F)) (x6 : (⟨S4096, .i32⟩ : BufTy).Contents (Elt F)) (x7 : (⟨S4096, .i32⟩ : BufTy).Contents (Elt F)) (h_main_arg3 : W (Proc.devRef .tc main_arg3) = x3) (h_main_v33 : W (Proc.devRef .tc main_v33) = val_main_v33 (F := F) x0 x1 x2 x5 x6 x7) :
    StableHlo.after ops09 W (Proc.devRef .tc main_call0_v0) = val_main_call0_v0 (F := F) x0 x1 x2 x3 x5 x6 x7 := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try simp only [h_main_arg3, h_main_v33]
  all_goals try rw [h_main_arg3]
  all_goals try rw [h_main_v33]
  all_goals try rfl

set_option maxHeartbeats 4000000 in
theorem st09_call0_cst_0 (W : Valuation τ sig (Elt F)) :
    StableHlo.after ops09 W (Proc.devRef .tc main_call0_cst_0) = val_main_call0_cst_0 (F := F) := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try rfl

/-! ### Operations 49 … 54 -/

set_option maxHeartbeats 4000000 in
theorem st10_arg4 (W : Valuation τ sig (Elt F)) (x4 : (⟨S32000, .f32⟩ : BufTy).Contents (Elt F)) (h_main_arg4 : W (Proc.devRef .tc main_arg4) = x4) :
    StableHlo.after ops10 W (Proc.devRef .tc main_arg4) = x4 := by
  after_results_simp
  all_goals exact h_main_arg4

set_option maxHeartbeats 4000000 in
theorem st10_arg8 (W : Valuation τ sig (Elt F)) (x8 : (⟨S4096, .i32⟩ : BufTy).Contents (Elt F)) (h_main_arg8 : W (Proc.devRef .tc main_arg8) = x8) :
    StableHlo.after ops10 W (Proc.devRef .tc main_arg8) = x8 := by
  after_results_simp
  all_goals exact h_main_arg8

set_option maxHeartbeats 4000000 in
theorem st10_call0_v5 (W : Valuation τ sig (Elt F)) (x0 : (⟨S512x32x1024, .f32⟩ : BufTy).Contents (Elt F)) (x1 : (⟨S1024x2048, .f32⟩ : BufTy).Contents (Elt F)) (x2 : (⟨S1024, .f32⟩ : BufTy).Contents (Elt F)) (x3 : (⟨S32000x1024, .f32⟩ : BufTy).Contents (Elt F)) (x5 : (⟨S4096, .i32⟩ : BufTy).Contents (Elt F)) (x6 : (⟨S4096, .i32⟩ : BufTy).Contents (Elt F)) (x7 : (⟨S4096, .i32⟩ : BufTy).Contents (Elt F)) (h_main_v36 : W (Proc.devRef .tc main_v36) = val_main_v36 (F := F) x0 x1 x2 x3 x5 x6 x7) (h_main_call0_v0 : W (Proc.devRef .tc main_call0_v0) = val_main_call0_v0 (F := F) x0 x1 x2 x3 x5 x6 x7) (h_main_call0_cst_0 : W (Proc.devRef .tc main_call0_cst_0) = val_main_call0_cst_0 (F := F)) :
    StableHlo.after ops10 W (Proc.devRef .tc main_call0_v5) = val_main_call0_v5 (F := F) x0 x1 x2 x3 x5 x6 x7 := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try simp only [h_main_v36, h_main_call0_v0, h_main_call0_cst_0]
  all_goals try rw [h_main_v36]
  all_goals try rw [h_main_call0_v0]
  all_goals try rw [h_main_call0_cst_0]
  all_goals try rfl

set_option maxHeartbeats 4000000 in
theorem st10_call0_v6 (W : Valuation τ sig (Elt F)) (x0 : (⟨S512x32x1024, .f32⟩ : BufTy).Contents (Elt F)) (x1 : (⟨S1024x2048, .f32⟩ : BufTy).Contents (Elt F)) (x2 : (⟨S1024, .f32⟩ : BufTy).Contents (Elt F)) (x3 : (⟨S32000x1024, .f32⟩ : BufTy).Contents (Elt F)) (x5 : (⟨S4096, .i32⟩ : BufTy).Contents (Elt F)) (x6 : (⟨S4096, .i32⟩ : BufTy).Contents (Elt F)) (x7 : (⟨S4096, .i32⟩ : BufTy).Contents (Elt F)) (h_main_v36 : W (Proc.devRef .tc main_v36) = val_main_v36 (F := F) x0 x1 x2 x3 x5 x6 x7) (h_main_call0_v0 : W (Proc.devRef .tc main_call0_v0) = val_main_call0_v0 (F := F) x0 x1 x2 x3 x5 x6 x7) (h_main_call0_cst_0 : W (Proc.devRef .tc main_call0_cst_0) = val_main_call0_cst_0 (F := F)) :
    StableHlo.after ops10 W (Proc.devRef .tc main_call0_v6) = val_main_call0_v6 (F := F) x0 x1 x2 x3 x5 x6 x7 := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try simp only [h_main_v36, h_main_call0_v0, h_main_call0_cst_0]
  all_goals try rw [h_main_v36]
  all_goals try rw [h_main_call0_v0]
  all_goals try rw [h_main_call0_cst_0]
  all_goals try rfl

/-! ### Operations 55 … 60 -/

set_option maxHeartbeats 4000000 in
theorem st11_arg4 (W : Valuation τ sig (Elt F)) (x4 : (⟨S32000, .f32⟩ : BufTy).Contents (Elt F)) (h_main_arg4 : W (Proc.devRef .tc main_arg4) = x4) :
    StableHlo.after ops11 W (Proc.devRef .tc main_arg4) = x4 := by
  after_results_simp
  all_goals exact h_main_arg4

set_option maxHeartbeats 4000000 in
theorem st11_arg8 (W : Valuation τ sig (Elt F)) (x8 : (⟨S4096, .i32⟩ : BufTy).Contents (Elt F)) (h_main_arg8 : W (Proc.devRef .tc main_arg8) = x8) :
    StableHlo.after ops11 W (Proc.devRef .tc main_arg8) = x8 := by
  after_results_simp
  all_goals exact h_main_arg8

set_option maxHeartbeats 4000000 in
theorem st11_v37 (W : Valuation τ sig (Elt F)) (x0 : (⟨S512x32x1024, .f32⟩ : BufTy).Contents (Elt F)) (x1 : (⟨S1024x2048, .f32⟩ : BufTy).Contents (Elt F)) (x2 : (⟨S1024, .f32⟩ : BufTy).Contents (Elt F)) (x3 : (⟨S32000x1024, .f32⟩ : BufTy).Contents (Elt F)) (x5 : (⟨S4096, .i32⟩ : BufTy).Contents (Elt F)) (x6 : (⟨S4096, .i32⟩ : BufTy).Contents (Elt F)) (x7 : (⟨S4096, .i32⟩ : BufTy).Contents (Elt F)) (h_main_call0_v5 : W (Proc.devRef .tc main_call0_v5) = val_main_call0_v5 (F := F) x0 x1 x2 x3 x5 x6 x7) (h_main_call0_v6 : W (Proc.devRef .tc main_call0_v6) = val_main_call0_v6 (F := F) x0 x1 x2 x3 x5 x6 x7) :
    StableHlo.after ops11 W (Proc.devRef .tc main_v37) = val_main_v37 (F := F) x0 x1 x2 x3 x5 x6 x7 := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try simp only [h_main_call0_v5, h_main_call0_v6]
  all_goals try rw [h_main_call0_v5]
  all_goals try rw [h_main_call0_v6]
  all_goals try rfl

/-! ### Operations 61 … 66 -/

set_option maxHeartbeats 4000000 in
theorem st12_arg4 (W : Valuation τ sig (Elt F)) (x4 : (⟨S32000, .f32⟩ : BufTy).Contents (Elt F)) (h_main_arg4 : W (Proc.devRef .tc main_arg4) = x4) :
    StableHlo.after ops12 W (Proc.devRef .tc main_arg4) = x4 := by
  after_results_simp
  all_goals exact h_main_arg4

set_option maxHeartbeats 4000000 in
theorem st12_arg8 (W : Valuation τ sig (Elt F)) (x8 : (⟨S4096, .i32⟩ : BufTy).Contents (Elt F)) (h_main_arg8 : W (Proc.devRef .tc main_arg8) = x8) :
    StableHlo.after ops12 W (Proc.devRef .tc main_arg8) = x8 := by
  after_results_simp
  all_goals exact h_main_arg8

set_option maxHeartbeats 4000000 in
theorem st12_v37 (W : Valuation τ sig (Elt F)) (x0 : (⟨S512x32x1024, .f32⟩ : BufTy).Contents (Elt F)) (x1 : (⟨S1024x2048, .f32⟩ : BufTy).Contents (Elt F)) (x2 : (⟨S1024, .f32⟩ : BufTy).Contents (Elt F)) (x3 : (⟨S32000x1024, .f32⟩ : BufTy).Contents (Elt F)) (x5 : (⟨S4096, .i32⟩ : BufTy).Contents (Elt F)) (x6 : (⟨S4096, .i32⟩ : BufTy).Contents (Elt F)) (x7 : (⟨S4096, .i32⟩ : BufTy).Contents (Elt F)) (h_main_v37 : W (Proc.devRef .tc main_v37) = val_main_v37 (F := F) x0 x1 x2 x3 x5 x6 x7) :
    StableHlo.after ops12 W (Proc.devRef .tc main_v37) = val_main_v37 (F := F) x0 x1 x2 x3 x5 x6 x7 := by
  after_results_simp
  all_goals exact h_main_v37

set_option maxHeartbeats 4000000 in
theorem st12_v38 (W : Valuation τ sig (Elt F)) (x8 : (⟨S4096, .i32⟩ : BufTy).Contents (Elt F)) (h_main_arg8 : W (Proc.devRef .tc main_arg8) = x8) :
    StableHlo.after ops12 W (Proc.devRef .tc main_v38) = val_main_v38 (F := F) x8 := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try simp only [h_main_arg8]
  all_goals try rw [h_main_arg8]
  all_goals try rfl

set_option maxHeartbeats 4000000 in
theorem st12_call1_v1 (W : Valuation τ sig (Elt F)) (x8 : (⟨S4096, .i32⟩ : BufTy).Contents (Elt F)) (h_main_arg8 : W (Proc.devRef .tc main_arg8) = x8) :
    StableHlo.after ops12 W (Proc.devRef .tc main_call1_v1) = val_main_call1_v1 (F := F) x8 := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try simp only [h_main_arg8]
  all_goals try rw [h_main_arg8]
  all_goals try rfl

set_option maxHeartbeats 4000000 in
theorem st12_call1_v2 (W : Valuation τ sig (Elt F)) :
    StableHlo.after ops12 W (Proc.devRef .tc main_call1_v2) = val_main_call1_v2 (F := F) := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try rfl

/-! ### Operations 67 … 72 -/

set_option maxHeartbeats 4000000 in
theorem st13_arg4 (W : Valuation τ sig (Elt F)) (x4 : (⟨S32000, .f32⟩ : BufTy).Contents (Elt F)) (h_main_arg4 : W (Proc.devRef .tc main_arg4) = x4) :
    StableHlo.after ops13 W (Proc.devRef .tc main_arg4) = x4 := by
  after_results_simp
  all_goals exact h_main_arg4

set_option maxHeartbeats 4000000 in
theorem st13_arg8 (W : Valuation τ sig (Elt F)) (x8 : (⟨S4096, .i32⟩ : BufTy).Contents (Elt F)) (h_main_arg8 : W (Proc.devRef .tc main_arg8) = x8) :
    StableHlo.after ops13 W (Proc.devRef .tc main_arg8) = x8 := by
  after_results_simp
  all_goals exact h_main_arg8

set_option maxHeartbeats 4000000 in
theorem st13_v37 (W : Valuation τ sig (Elt F)) (x0 : (⟨S512x32x1024, .f32⟩ : BufTy).Contents (Elt F)) (x1 : (⟨S1024x2048, .f32⟩ : BufTy).Contents (Elt F)) (x2 : (⟨S1024, .f32⟩ : BufTy).Contents (Elt F)) (x3 : (⟨S32000x1024, .f32⟩ : BufTy).Contents (Elt F)) (x5 : (⟨S4096, .i32⟩ : BufTy).Contents (Elt F)) (x6 : (⟨S4096, .i32⟩ : BufTy).Contents (Elt F)) (x7 : (⟨S4096, .i32⟩ : BufTy).Contents (Elt F)) (h_main_v37 : W (Proc.devRef .tc main_v37) = val_main_v37 (F := F) x0 x1 x2 x3 x5 x6 x7) :
    StableHlo.after ops13 W (Proc.devRef .tc main_v37) = val_main_v37 (F := F) x0 x1 x2 x3 x5 x6 x7 := by
  after_results_simp
  all_goals exact h_main_v37

set_option maxHeartbeats 4000000 in
theorem st13_call1_v5 (W : Valuation τ sig (Elt F)) (x8 : (⟨S4096, .i32⟩ : BufTy).Contents (Elt F)) (h_main_v38 : W (Proc.devRef .tc main_v38) = val_main_v38 (F := F) x8) (h_main_call1_v1 : W (Proc.devRef .tc main_call1_v1) = val_main_call1_v1 (F := F) x8) (h_main_call1_v2 : W (Proc.devRef .tc main_call1_v2) = val_main_call1_v2 (F := F)) :
    StableHlo.after ops13 W (Proc.devRef .tc main_call1_v5) = val_main_call1_v5 (F := F) x8 := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try simp only [h_main_v38, h_main_call1_v1, h_main_call1_v2]
  all_goals try rw [h_main_v38]
  all_goals try rw [h_main_call1_v1]
  all_goals try rw [h_main_call1_v2]
  all_goals try rfl

set_option maxHeartbeats 4000000 in
theorem st13_call1_c_1 (W : Valuation τ sig (Elt F)) :
    StableHlo.after ops13 W (Proc.devRef .tc main_call1_c_1) = val_main_call1_c_1 (F := F) := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try rfl

set_option maxHeartbeats 4000000 in
theorem st13_call1_v6 (W : Valuation τ sig (Elt F)) :
    StableHlo.after ops13 W (Proc.devRef .tc main_call1_v6) = val_main_call1_v6 (F := F) := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try rfl

/-! ### Operations 73 … 78 -/

set_option maxHeartbeats 4000000 in
theorem st14_arg4 (W : Valuation τ sig (Elt F)) (x4 : (⟨S32000, .f32⟩ : BufTy).Contents (Elt F)) (h_main_arg4 : W (Proc.devRef .tc main_arg4) = x4) :
    StableHlo.after ops14 W (Proc.devRef .tc main_arg4) = x4 := by
  after_results_simp
  all_goals exact h_main_arg4

set_option maxHeartbeats 4000000 in
theorem st14_arg8 (W : Valuation τ sig (Elt F)) (x8 : (⟨S4096, .i32⟩ : BufTy).Contents (Elt F)) (h_main_arg8 : W (Proc.devRef .tc main_arg8) = x8) :
    StableHlo.after ops14 W (Proc.devRef .tc main_arg8) = x8 := by
  after_results_simp
  all_goals exact h_main_arg8

set_option maxHeartbeats 4000000 in
theorem st14_v37 (W : Valuation τ sig (Elt F)) (x0 : (⟨S512x32x1024, .f32⟩ : BufTy).Contents (Elt F)) (x1 : (⟨S1024x2048, .f32⟩ : BufTy).Contents (Elt F)) (x2 : (⟨S1024, .f32⟩ : BufTy).Contents (Elt F)) (x3 : (⟨S32000x1024, .f32⟩ : BufTy).Contents (Elt F)) (x5 : (⟨S4096, .i32⟩ : BufTy).Contents (Elt F)) (x6 : (⟨S4096, .i32⟩ : BufTy).Contents (Elt F)) (x7 : (⟨S4096, .i32⟩ : BufTy).Contents (Elt F)) (h_main_v37 : W (Proc.devRef .tc main_v37) = val_main_v37 (F := F) x0 x1 x2 x3 x5 x6 x7) :
    StableHlo.after ops14 W (Proc.devRef .tc main_v37) = val_main_v37 (F := F) x0 x1 x2 x3 x5 x6 x7 := by
  after_results_simp
  all_goals exact h_main_v37

set_option maxHeartbeats 4000000 in
theorem st14_call1_v5 (W : Valuation τ sig (Elt F)) (x8 : (⟨S4096, .i32⟩ : BufTy).Contents (Elt F)) (h_main_call1_v5 : W (Proc.devRef .tc main_call1_v5) = val_main_call1_v5 (F := F) x8) :
    StableHlo.after ops14 W (Proc.devRef .tc main_call1_v5) = val_main_call1_v5 (F := F) x8 := by
  after_results_simp
  all_goals exact h_main_call1_v5

set_option maxHeartbeats 4000000 in
theorem st14_call1_v11 (W : Valuation τ sig (Elt F)) (x8 : (⟨S4096, .i32⟩ : BufTy).Contents (Elt F)) (h_main_call1_v5 : W (Proc.devRef .tc main_call1_v5) = val_main_call1_v5 (F := F) x8) (h_main_call1_c_1 : W (Proc.devRef .tc main_call1_c_1) = val_main_call1_c_1 (F := F)) (h_main_call1_v6 : W (Proc.devRef .tc main_call1_v6) = val_main_call1_v6 (F := F)) :
    StableHlo.after ops14 W (Proc.devRef .tc main_call1_v11) = val_main_call1_v11 (F := F) x8 := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try simp only [h_main_call1_v5, h_main_call1_c_1, h_main_call1_v6]
  all_goals try rw [h_main_call1_v5]
  all_goals try rw [h_main_call1_c_1]
  all_goals try rw [h_main_call1_v6]
  all_goals try rfl

set_option maxHeartbeats 4000000 in
theorem st14_call1_c_3 (W : Valuation τ sig (Elt F)) :
    StableHlo.after ops14 W (Proc.devRef .tc main_call1_c_3) = val_main_call1_c_3 (F := F) := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try rfl

/-! ### Operations 79 … 84 -/

set_option maxHeartbeats 4000000 in
theorem st15_arg4 (W : Valuation τ sig (Elt F)) (x4 : (⟨S32000, .f32⟩ : BufTy).Contents (Elt F)) (h_main_arg4 : W (Proc.devRef .tc main_arg4) = x4) :
    StableHlo.after ops15 W (Proc.devRef .tc main_arg4) = x4 := by
  after_results_simp
  all_goals exact h_main_arg4

set_option maxHeartbeats 4000000 in
theorem st15_arg8 (W : Valuation τ sig (Elt F)) (x8 : (⟨S4096, .i32⟩ : BufTy).Contents (Elt F)) (h_main_arg8 : W (Proc.devRef .tc main_arg8) = x8) :
    StableHlo.after ops15 W (Proc.devRef .tc main_arg8) = x8 := by
  after_results_simp
  all_goals exact h_main_arg8

set_option maxHeartbeats 4000000 in
theorem st15_v40 (W : Valuation τ sig (Elt F)) (x0 : (⟨S512x32x1024, .f32⟩ : BufTy).Contents (Elt F)) (x1 : (⟨S1024x2048, .f32⟩ : BufTy).Contents (Elt F)) (x2 : (⟨S1024, .f32⟩ : BufTy).Contents (Elt F)) (x3 : (⟨S32000x1024, .f32⟩ : BufTy).Contents (Elt F)) (x5 : (⟨S4096, .i32⟩ : BufTy).Contents (Elt F)) (x6 : (⟨S4096, .i32⟩ : BufTy).Contents (Elt F)) (x7 : (⟨S4096, .i32⟩ : BufTy).Contents (Elt F)) (x8 : (⟨S4096, .i32⟩ : BufTy).Contents (Elt F)) (h_main_v37 : W (Proc.devRef .tc main_v37) = val_main_v37 (F := F) x0 x1 x2 x3 x5 x6 x7) (h_main_call1_v5 : W (Proc.devRef .tc main_call1_v5) = val_main_call1_v5 (F := F) x8) (h_main_call1_v11 : W (Proc.devRef .tc main_call1_v11) = val_main_call1_v11 (F := F) x8) (h_main_call1_c_3 : W (Proc.devRef .tc main_call1_c_3) = val_main_call1_c_3 (F := F)) :
    StableHlo.after ops15 W (Proc.devRef .tc main_v40) = val_main_v40 (F := F) x0 x1 x2 x3 x5 x6 x7 x8 := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try simp only [h_main_v37, h_main_call1_v5, h_main_call1_v11, h_main_call1_c_3]
  all_goals try rw [h_main_v37]
  all_goals try rw [h_main_call1_v5]
  all_goals try rw [h_main_call1_v11]
  all_goals try rw [h_main_call1_c_3]
  all_goals try rfl

/-! ### Operations 85 … 90 -/

set_option maxHeartbeats 4000000 in
theorem st16_arg4 (W : Valuation τ sig (Elt F)) (x4 : (⟨S32000, .f32⟩ : BufTy).Contents (Elt F)) (h_main_arg4 : W (Proc.devRef .tc main_arg4) = x4) :
    StableHlo.after ops16 W (Proc.devRef .tc main_arg4) = x4 := by
  after_results_simp
  all_goals exact h_main_arg4

set_option maxHeartbeats 4000000 in
theorem st16_arg8 (W : Valuation τ sig (Elt F)) (x8 : (⟨S4096, .i32⟩ : BufTy).Contents (Elt F)) (h_main_arg8 : W (Proc.devRef .tc main_arg8) = x8) :
    StableHlo.after ops16 W (Proc.devRef .tc main_arg8) = x8 := by
  after_results_simp
  all_goals exact h_main_arg8

set_option maxHeartbeats 4000000 in
theorem st16_v41 (W : Valuation τ sig (Elt F)) (x0 : (⟨S512x32x1024, .f32⟩ : BufTy).Contents (Elt F)) (x1 : (⟨S1024x2048, .f32⟩ : BufTy).Contents (Elt F)) (x2 : (⟨S1024, .f32⟩ : BufTy).Contents (Elt F)) (x3 : (⟨S32000x1024, .f32⟩ : BufTy).Contents (Elt F)) (x5 : (⟨S4096, .i32⟩ : BufTy).Contents (Elt F)) (x6 : (⟨S4096, .i32⟩ : BufTy).Contents (Elt F)) (x7 : (⟨S4096, .i32⟩ : BufTy).Contents (Elt F)) (x8 : (⟨S4096, .i32⟩ : BufTy).Contents (Elt F)) (h_main_v40 : W (Proc.devRef .tc main_v40) = val_main_v40 (F := F) x0 x1 x2 x3 x5 x6 x7 x8) :
    StableHlo.after ops16 W (Proc.devRef .tc main_v41) = val_main_v41 (F := F) x0 x1 x2 x3 x5 x6 x7 x8 := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try simp only [h_main_v40]
  all_goals try rw [h_main_v40]
  all_goals try rfl

set_option maxHeartbeats 4000000 in
theorem st16_v43 (W : Valuation τ sig (Elt F)) (x8 : (⟨S4096, .i32⟩ : BufTy).Contents (Elt F)) (h_main_arg8 : W (Proc.devRef .tc main_arg8) = x8) :
    StableHlo.after ops16 W (Proc.devRef .tc main_v43) = val_main_v43 (F := F) x8 := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try simp only [h_main_arg8]
  all_goals try rw [h_main_arg8]
  all_goals try rfl

set_option maxHeartbeats 4000000 in
theorem st16_v44 (W : Valuation τ sig (Elt F)) :
    StableHlo.after ops16 W (Proc.devRef .tc main_v44) = val_main_v44 (F := F) := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try rfl

/-! ### Operations 91 … 96 -/

set_option maxHeartbeats 4000000 in
theorem st17_v41 (W : Valuation τ sig (Elt F)) (x0 : (⟨S512x32x1024, .f32⟩ : BufTy).Contents (Elt F)) (x1 : (⟨S1024x2048, .f32⟩ : BufTy).Contents (Elt F)) (x2 : (⟨S1024, .f32⟩ : BufTy).Contents (Elt F)) (x3 : (⟨S32000x1024, .f32⟩ : BufTy).Contents (Elt F)) (x5 : (⟨S4096, .i32⟩ : BufTy).Contents (Elt F)) (x6 : (⟨S4096, .i32⟩ : BufTy).Contents (Elt F)) (x7 : (⟨S4096, .i32⟩ : BufTy).Contents (Elt F)) (x8 : (⟨S4096, .i32⟩ : BufTy).Contents (Elt F)) (h_main_v41 : W (Proc.devRef .tc main_v41) = val_main_v41 (F := F) x0 x1 x2 x3 x5 x6 x7 x8) :
    StableHlo.after ops17 W (Proc.devRef .tc main_v41) = val_main_v41 (F := F) x0 x1 x2 x3 x5 x6 x7 x8 := by
  after_results_simp
  all_goals exact h_main_v41

set_option maxHeartbeats 4000000 in
theorem st17_v48 (W : Valuation τ sig (Elt F)) (x4 : (⟨S32000, .f32⟩ : BufTy).Contents (Elt F)) (x8 : (⟨S4096, .i32⟩ : BufTy).Contents (Elt F)) (h_main_arg4 : W (Proc.devRef .tc main_arg4) = x4) (h_main_arg8 : W (Proc.devRef .tc main_arg8) = x8) (h_main_v43 : W (Proc.devRef .tc main_v43) = val_main_v43 (F := F) x8) (h_main_v44 : W (Proc.devRef .tc main_v44) = val_main_v44 (F := F)) :
    StableHlo.after ops17 W (Proc.devRef .tc main_v48) = val_main_v48 (F := F) x4 x8 := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try simp only [h_main_arg4, h_main_arg8, h_main_v43, h_main_v44]
  all_goals try rw [h_main_arg4]
  all_goals try rw [h_main_arg8]
  all_goals try rw [h_main_v43]
  all_goals try rw [h_main_v44]
  all_goals try rfl

set_option maxHeartbeats 4000000 in
theorem st17_v49 (W : Valuation τ sig (Elt F)) :
    StableHlo.after ops17 W (Proc.devRef .tc main_v49) = val_main_v49 (F := F) := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try rfl

/-! ### Operations 97 … 102 -/

set_option maxHeartbeats 4000000 in
theorem st18_v53 (W : Valuation τ sig (Elt F)) (x0 : (⟨S512x32x1024, .f32⟩ : BufTy).Contents (Elt F)) (x1 : (⟨S1024x2048, .f32⟩ : BufTy).Contents (Elt F)) (x2 : (⟨S1024, .f32⟩ : BufTy).Contents (Elt F)) (x3 : (⟨S32000x1024, .f32⟩ : BufTy).Contents (Elt F)) (x4 : (⟨S32000, .f32⟩ : BufTy).Contents (Elt F)) (x5 : (⟨S4096, .i32⟩ : BufTy).Contents (Elt F)) (x6 : (⟨S4096, .i32⟩ : BufTy).Contents (Elt F)) (x7 : (⟨S4096, .i32⟩ : BufTy).Contents (Elt F)) (x8 : (⟨S4096, .i32⟩ : BufTy).Contents (Elt F)) (h_main_v41 : W (Proc.devRef .tc main_v41) = val_main_v41 (F := F) x0 x1 x2 x3 x5 x6 x7 x8) (h_main_v48 : W (Proc.devRef .tc main_v48) = val_main_v48 (F := F) x4 x8) (h_main_v49 : W (Proc.devRef .tc main_v49) = val_main_v49 (F := F)) :
    StableHlo.after ops18 W (Proc.devRef .tc main_v53) = val_main_v53 (F := F) x0 x1 x2 x3 x4 x5 x6 x7 x8 := by
  after_results_simp
  all_goals try simp only [ofBuf_call0_cst, toBuf_call0_cst, ofBuf_v36, toBuf_v36, ofBuf_call0_v0, toBuf_call0_v0, ofBuf_call0_cst_0, toBuf_call0_cst_0, ofBuf_call0_v1, toBuf_call0_v1, ofBuf_call0_v2, toBuf_call0_v2, ofBuf_call0_v3, toBuf_call0_v3, ofBuf_call0_v4, toBuf_call0_v4, ofBuf_call0_v5, toBuf_call0_v5, ofBuf_call0_v6, toBuf_call0_v6, ofBuf_call0_cst_1, toBuf_call0_cst_1, ofBuf_call0_v7, toBuf_call0_v7, ofBuf_call0_v8, toBuf_call0_v8, ofBuf_call0_v9, toBuf_call0_v9, ofBuf_call0_v10, toBuf_call0_v10, ofBuf_v37, toBuf_v37, ofBuf_call1_c, toBuf_call1_c, ofBuf_call1_v0, toBuf_call1_v0, ofBuf_v38, toBuf_v38, ofBuf_call1_v1, toBuf_call1_v1, ofBuf_call1_c_0, toBuf_call1_c_0, ofBuf_call1_v2, toBuf_call1_v2, ofBuf_call1_v3, toBuf_call1_v3, ofBuf_call1_v4, toBuf_call1_v4, ofBuf_call1_v5, toBuf_call1_v5, ofBuf_call1_c_1, toBuf_call1_c_1, ofBuf_call1_c_2, toBuf_call1_c_2, ofBuf_call1_v6, toBuf_call1_v6, ofBuf_call1_v7, toBuf_call1_v7, ofBuf_call1_v8, toBuf_call1_v8, ofBuf_call1_v9, toBuf_call1_v9, ofBuf_call1_v10, toBuf_call1_v10, ofBuf_call1_v11, toBuf_call1_v11, ofBuf_call1_c_3, toBuf_call1_c_3, ofBuf_call1_v12, toBuf_call1_v12, ofBuf_call1_v13, toBuf_call1_v13, ofBuf_call1_cst, toBuf_call1_cst, ofBuf_call1_v14, toBuf_call1_v14, ofBuf_v39, toBuf_v39]
  all_goals try simp only [h_main_v41, h_main_v48, h_main_v49]
  all_goals try rw [h_main_v41]
  all_goals try rw [h_main_v48]
  all_goals try rw [h_main_v49]
  all_goals try rfl

set_option maxHeartbeats 16000000 in
/-- THE REFERENCE'S RESULT, READ: the fold of @main's operations at the result buffer is the last stage's value of the
    arguments' launch contents. -/
theorem res_eq (m : (ℓ : Loc nD τ sig) → Buf (Elt F) ℓ) (c : Dev nD) :
    Cert.ReferenceIdeal.ValueP.res_main_v53 m c = val_main_v53 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Cert.ReferenceIdeal.ValueP.res_main_v53
  rw [ops_split, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append]
  have f00_arg0 : (launchContents m c) (Proc.devRef .tc main_arg0) = (m ((c.tc : Thread nD τ).loc main_arg0)) := rfl
  have f00_arg1 : (launchContents m c) (Proc.devRef .tc main_arg1) = (m ((c.tc : Thread nD τ).loc main_arg1)) := rfl
  have f00_arg2 : (launchContents m c) (Proc.devRef .tc main_arg2) = (m ((c.tc : Thread nD τ).loc main_arg2)) := rfl
  have f00_arg3 : (launchContents m c) (Proc.devRef .tc main_arg3) = (m ((c.tc : Thread nD τ).loc main_arg3)) := rfl
  have f00_arg4 : (launchContents m c) (Proc.devRef .tc main_arg4) = (m ((c.tc : Thread nD τ).loc main_arg4)) := rfl
  have f00_arg5 : (launchContents m c) (Proc.devRef .tc main_arg5) = (m ((c.tc : Thread nD τ).loc main_arg5)) := rfl
  have f00_arg6 : (launchContents m c) (Proc.devRef .tc main_arg6) = (m ((c.tc : Thread nD τ).loc main_arg6)) := rfl
  have f00_arg7 : (launchContents m c) (Proc.devRef .tc main_arg7) = (m ((c.tc : Thread nD τ).loc main_arg7)) := rfl
  have f00_arg8 : (launchContents m c) (Proc.devRef .tc main_arg8) = (m ((c.tc : Thread nD τ).loc main_arg8)) := rfl
  have f01_arg0 : (StableHlo.after ops01 (launchContents m c)) (Proc.devRef .tc main_arg0) = (m ((c.tc : Thread nD τ).loc main_arg0)) :=
    st01_arg0 (launchContents m c) (m ((c.tc : Thread nD τ).loc main_arg0)) f00_arg0
  have f01_arg1 : (StableHlo.after ops01 (launchContents m c)) (Proc.devRef .tc main_arg1) = (m ((c.tc : Thread nD τ).loc main_arg1)) :=
    st01_arg1 (launchContents m c) (m ((c.tc : Thread nD τ).loc main_arg1)) f00_arg1
  have f01_arg2 : (StableHlo.after ops01 (launchContents m c)) (Proc.devRef .tc main_arg2) = (m ((c.tc : Thread nD τ).loc main_arg2)) :=
    st01_arg2 (launchContents m c) (m ((c.tc : Thread nD τ).loc main_arg2)) f00_arg2
  have f01_arg3 : (StableHlo.after ops01 (launchContents m c)) (Proc.devRef .tc main_arg3) = (m ((c.tc : Thread nD τ).loc main_arg3)) :=
    st01_arg3 (launchContents m c) (m ((c.tc : Thread nD τ).loc main_arg3)) f00_arg3
  have f01_arg4 : (StableHlo.after ops01 (launchContents m c)) (Proc.devRef .tc main_arg4) = (m ((c.tc : Thread nD τ).loc main_arg4)) :=
    st01_arg4 (launchContents m c) (m ((c.tc : Thread nD τ).loc main_arg4)) f00_arg4
  have f01_arg5 : (StableHlo.after ops01 (launchContents m c)) (Proc.devRef .tc main_arg5) = (m ((c.tc : Thread nD τ).loc main_arg5)) :=
    st01_arg5 (launchContents m c) (m ((c.tc : Thread nD τ).loc main_arg5)) f00_arg5
  have f01_arg6 : (StableHlo.after ops01 (launchContents m c)) (Proc.devRef .tc main_arg6) = (m ((c.tc : Thread nD τ).loc main_arg6)) :=
    st01_arg6 (launchContents m c) (m ((c.tc : Thread nD τ).loc main_arg6)) f00_arg6
  have f01_arg7 : (StableHlo.after ops01 (launchContents m c)) (Proc.devRef .tc main_arg7) = (m ((c.tc : Thread nD τ).loc main_arg7)) :=
    st01_arg7 (launchContents m c) (m ((c.tc : Thread nD τ).loc main_arg7)) f00_arg7
  have f01_arg8 : (StableHlo.after ops01 (launchContents m c)) (Proc.devRef .tc main_arg8) = (m ((c.tc : Thread nD τ).loc main_arg8)) :=
    st01_arg8 (launchContents m c) (m ((c.tc : Thread nD τ).loc main_arg8)) f00_arg8
  have f01_v1 : (StableHlo.after ops01 (launchContents m c)) (Proc.devRef .tc main_v1) = val_main_v1 (F := F) (m ((c.tc : Thread nD τ).loc main_arg6)) :=
    st01_v1 (launchContents m c) (m ((c.tc : Thread nD τ).loc main_arg6)) f00_arg6
  have f01_v3 : (StableHlo.after ops01 (launchContents m c)) (Proc.devRef .tc main_v3) = val_main_v3 (F := F) (m ((c.tc : Thread nD τ).loc main_arg6)) :=
    st01_v3 (launchContents m c) (m ((c.tc : Thread nD τ).loc main_arg6)) f00_arg6
  have f02_arg0 : (StableHlo.after ops02 (StableHlo.after ops01 (launchContents m c))) (Proc.devRef .tc main_arg0) = (m ((c.tc : Thread nD τ).loc main_arg0)) :=
    st02_arg0 (StableHlo.after ops01 (launchContents m c)) (m ((c.tc : Thread nD τ).loc main_arg0)) f01_arg0
  have f02_arg1 : (StableHlo.after ops02 (StableHlo.after ops01 (launchContents m c))) (Proc.devRef .tc main_arg1) = (m ((c.tc : Thread nD τ).loc main_arg1)) :=
    st02_arg1 (StableHlo.after ops01 (launchContents m c)) (m ((c.tc : Thread nD τ).loc main_arg1)) f01_arg1
  have f02_arg2 : (StableHlo.after ops02 (StableHlo.after ops01 (launchContents m c))) (Proc.devRef .tc main_arg2) = (m ((c.tc : Thread nD τ).loc main_arg2)) :=
    st02_arg2 (StableHlo.after ops01 (launchContents m c)) (m ((c.tc : Thread nD τ).loc main_arg2)) f01_arg2
  have f02_arg3 : (StableHlo.after ops02 (StableHlo.after ops01 (launchContents m c))) (Proc.devRef .tc main_arg3) = (m ((c.tc : Thread nD τ).loc main_arg3)) :=
    st02_arg3 (StableHlo.after ops01 (launchContents m c)) (m ((c.tc : Thread nD τ).loc main_arg3)) f01_arg3
  have f02_arg4 : (StableHlo.after ops02 (StableHlo.after ops01 (launchContents m c))) (Proc.devRef .tc main_arg4) = (m ((c.tc : Thread nD τ).loc main_arg4)) :=
    st02_arg4 (StableHlo.after ops01 (launchContents m c)) (m ((c.tc : Thread nD τ).loc main_arg4)) f01_arg4
  have f02_arg5 : (StableHlo.after ops02 (StableHlo.after ops01 (launchContents m c))) (Proc.devRef .tc main_arg5) = (m ((c.tc : Thread nD τ).loc main_arg5)) :=
    st02_arg5 (StableHlo.after ops01 (launchContents m c)) (m ((c.tc : Thread nD τ).loc main_arg5)) f01_arg5
  have f02_arg7 : (StableHlo.after ops02 (StableHlo.after ops01 (launchContents m c))) (Proc.devRef .tc main_arg7) = (m ((c.tc : Thread nD τ).loc main_arg7)) :=
    st02_arg7 (StableHlo.after ops01 (launchContents m c)) (m ((c.tc : Thread nD τ).loc main_arg7)) f01_arg7
  have f02_arg8 : (StableHlo.after ops02 (StableHlo.after ops01 (launchContents m c))) (Proc.devRef .tc main_arg8) = (m ((c.tc : Thread nD τ).loc main_arg8)) :=
    st02_arg8 (StableHlo.after ops01 (launchContents m c)) (m ((c.tc : Thread nD τ).loc main_arg8)) f01_arg8
  have f02_v4 : (StableHlo.after ops02 (StableHlo.after ops01 (launchContents m c))) (Proc.devRef .tc main_v4) = val_main_v4 (F := F) (m ((c.tc : Thread nD τ).loc main_arg6)) :=
    st02_v4 (StableHlo.after ops01 (launchContents m c)) (m ((c.tc : Thread nD τ).loc main_arg6)) f01_arg6 f01_v1 f01_v3
  have f02_v6 : (StableHlo.after ops02 (StableHlo.after ops01 (launchContents m c))) (Proc.devRef .tc main_v6) = val_main_v6 (F := F) (m ((c.tc : Thread nD τ).loc main_arg5)) :=
    st02_v6 (StableHlo.after ops01 (launchContents m c)) (m ((c.tc : Thread nD τ).loc main_arg5)) f01_arg5
  have f02_v7 : (StableHlo.after ops02 (StableHlo.after ops01 (launchContents m c))) (Proc.devRef .tc main_v7) = val_main_v7 (F := F) :=
    st02_v7 (StableHlo.after ops01 (launchContents m c))
  have f03_arg0 : (StableHlo.after ops03 (StableHlo.after ops02 (StableHlo.after ops01 (launchContents m c)))) (Proc.devRef .tc main_arg0) = (m ((c.tc : Thread nD τ).loc main_arg0)) :=
    st03_arg0 (StableHlo.after ops02 (StableHlo.after ops01 (launchContents m c))) (m ((c.tc : Thread nD τ).loc main_arg0)) f02_arg0
  have f03_arg1 : (StableHlo.after ops03 (StableHlo.after ops02 (StableHlo.after ops01 (launchContents m c)))) (Proc.devRef .tc main_arg1) = (m ((c.tc : Thread nD τ).loc main_arg1)) :=
    st03_arg1 (StableHlo.after ops02 (StableHlo.after ops01 (launchContents m c))) (m ((c.tc : Thread nD τ).loc main_arg1)) f02_arg1
  have f03_arg2 : (StableHlo.after ops03 (StableHlo.after ops02 (StableHlo.after ops01 (launchContents m c)))) (Proc.devRef .tc main_arg2) = (m ((c.tc : Thread nD τ).loc main_arg2)) :=
    st03_arg2 (StableHlo.after ops02 (StableHlo.after ops01 (launchContents m c))) (m ((c.tc : Thread nD τ).loc main_arg2)) f02_arg2
  have f03_arg3 : (StableHlo.after ops03 (StableHlo.after ops02 (StableHlo.after ops01 (launchContents m c)))) (Proc.devRef .tc main_arg3) = (m ((c.tc : Thread nD τ).loc main_arg3)) :=
    st03_arg3 (StableHlo.after ops02 (StableHlo.after ops01 (launchContents m c))) (m ((c.tc : Thread nD τ).loc main_arg3)) f02_arg3
  have f03_arg4 : (StableHlo.after ops03 (StableHlo.after ops02 (StableHlo.after ops01 (launchContents m c)))) (Proc.devRef .tc main_arg4) = (m ((c.tc : Thread nD τ).loc main_arg4)) :=
    st03_arg4 (StableHlo.after ops02 (StableHlo.after ops01 (launchContents m c))) (m ((c.tc : Thread nD τ).loc main_arg4)) f02_arg4
  have f03_arg5 : (StableHlo.after ops03 (StableHlo.after ops02 (StableHlo.after ops01 (launchContents m c)))) (Proc.devRef .tc main_arg5) = (m ((c.tc : Thread nD τ).loc main_arg5)) :=
    st03_arg5 (StableHlo.after ops02 (StableHlo.after ops01 (launchContents m c))) (m ((c.tc : Thread nD τ).loc main_arg5)) f02_arg5
  have f03_arg7 : (StableHlo.after ops03 (StableHlo.after ops02 (StableHlo.after ops01 (launchContents m c)))) (Proc.devRef .tc main_arg7) = (m ((c.tc : Thread nD τ).loc main_arg7)) :=
    st03_arg7 (StableHlo.after ops02 (StableHlo.after ops01 (launchContents m c))) (m ((c.tc : Thread nD τ).loc main_arg7)) f02_arg7
  have f03_arg8 : (StableHlo.after ops03 (StableHlo.after ops02 (StableHlo.after ops01 (launchContents m c)))) (Proc.devRef .tc main_arg8) = (m ((c.tc : Thread nD τ).loc main_arg8)) :=
    st03_arg8 (StableHlo.after ops02 (StableHlo.after ops01 (launchContents m c))) (m ((c.tc : Thread nD τ).loc main_arg8)) f02_arg8
  have f03_v10 : (StableHlo.after ops03 (StableHlo.after ops02 (StableHlo.after ops01 (launchContents m c)))) (Proc.devRef .tc main_v10) = val_main_v10 (F := F) (m ((c.tc : Thread nD τ).loc main_arg6)) :=
    st03_v10 (StableHlo.after ops02 (StableHlo.after ops01 (launchContents m c))) (m ((c.tc : Thread nD τ).loc main_arg6)) f02_v4
  have f03_v11 : (StableHlo.after ops03 (StableHlo.after ops02 (StableHlo.after ops01 (launchContents m c)))) (Proc.devRef .tc main_v11) = val_main_v11 (F := F) (m ((c.tc : Thread nD τ).loc main_arg5)) :=
    st03_v11 (StableHlo.after ops02 (StableHlo.after ops01 (launchContents m c))) (m ((c.tc : Thread nD τ).loc main_arg5)) f02_arg5 f02_v6 f02_v7
  have f04_arg0 : (StableHlo.after ops04 (StableHlo.after ops03 (StableHlo.after ops02 (StableHlo.after ops01 (launchContents m c))))) (Proc.devRef .tc main_arg0) = (m ((c.tc : Thread nD τ).loc main_arg0)) :=
    st04_arg0 (StableHlo.after ops03 (StableHlo.after ops02 (StableHlo.after ops01 (launchContents m c)))) (m ((c.tc : Thread nD τ).loc main_arg0)) f03_arg0
  have f04_arg1 : (StableHlo.after ops04 (StableHlo.after ops03 (StableHlo.after ops02 (StableHlo.after ops01 (launchContents m c))))) (Proc.devRef .tc main_arg1) = (m ((c.tc : Thread nD τ).loc main_arg1)) :=
    st04_arg1 (StableHlo.after ops03 (StableHlo.after ops02 (StableHlo.after ops01 (launchContents m c)))) (m ((c.tc : Thread nD τ).loc main_arg1)) f03_arg1
  have f04_arg2 : (StableHlo.after ops04 (StableHlo.after ops03 (StableHlo.after ops02 (StableHlo.after ops01 (launchContents m c))))) (Proc.devRef .tc main_arg2) = (m ((c.tc : Thread nD τ).loc main_arg2)) :=
    st04_arg2 (StableHlo.after ops03 (StableHlo.after ops02 (StableHlo.after ops01 (launchContents m c)))) (m ((c.tc : Thread nD τ).loc main_arg2)) f03_arg2
  have f04_arg3 : (StableHlo.after ops04 (StableHlo.after ops03 (StableHlo.after ops02 (StableHlo.after ops01 (launchContents m c))))) (Proc.devRef .tc main_arg3) = (m ((c.tc : Thread nD τ).loc main_arg3)) :=
    st04_arg3 (StableHlo.after ops03 (StableHlo.after ops02 (StableHlo.after ops01 (launchContents m c)))) (m ((c.tc : Thread nD τ).loc main_arg3)) f03_arg3
  have f04_arg4 : (StableHlo.after ops04 (StableHlo.after ops03 (StableHlo.after ops02 (StableHlo.after ops01 (launchContents m c))))) (Proc.devRef .tc main_arg4) = (m ((c.tc : Thread nD τ).loc main_arg4)) :=
    st04_arg4 (StableHlo.after ops03 (StableHlo.after ops02 (StableHlo.after ops01 (launchContents m c)))) (m ((c.tc : Thread nD τ).loc main_arg4)) f03_arg4
  have f04_arg5 : (StableHlo.after ops04 (StableHlo.after ops03 (StableHlo.after ops02 (StableHlo.after ops01 (launchContents m c))))) (Proc.devRef .tc main_arg5) = (m ((c.tc : Thread nD τ).loc main_arg5)) :=
    st04_arg5 (StableHlo.after ops03 (StableHlo.after ops02 (StableHlo.after ops01 (launchContents m c)))) (m ((c.tc : Thread nD τ).loc main_arg5)) f03_arg5
  have f04_arg7 : (StableHlo.after ops04 (StableHlo.after ops03 (StableHlo.after ops02 (StableHlo.after ops01 (launchContents m c))))) (Proc.devRef .tc main_arg7) = (m ((c.tc : Thread nD τ).loc main_arg7)) :=
    st04_arg7 (StableHlo.after ops03 (StableHlo.after ops02 (StableHlo.after ops01 (launchContents m c)))) (m ((c.tc : Thread nD τ).loc main_arg7)) f03_arg7
  have f04_arg8 : (StableHlo.after ops04 (StableHlo.after ops03 (StableHlo.after ops02 (StableHlo.after ops01 (launchContents m c))))) (Proc.devRef .tc main_arg8) = (m ((c.tc : Thread nD τ).loc main_arg8)) :=
    st04_arg8 (StableHlo.after ops03 (StableHlo.after ops02 (StableHlo.after ops01 (launchContents m c)))) (m ((c.tc : Thread nD τ).loc main_arg8)) f03_arg8
  have f04_v13 : (StableHlo.after ops04 (StableHlo.after ops03 (StableHlo.after ops02 (StableHlo.after ops01 (launchContents m c))))) (Proc.devRef .tc main_v13) = val_main_v13 (F := F) (m ((c.tc : Thread nD τ).loc main_arg0)) (m ((c.tc : Thread nD τ).loc main_arg5)) (m ((c.tc : Thread nD τ).loc main_arg6)) :=
    st04_v13 (StableHlo.after ops03 (StableHlo.after ops02 (StableHlo.after ops01 (launchContents m c)))) (m ((c.tc : Thread nD τ).loc main_arg0)) (m ((c.tc : Thread nD τ).loc main_arg5)) (m ((c.tc : Thread nD τ).loc main_arg6)) f03_arg0 f03_v10 f03_v11
  have f04_v15 : (StableHlo.after ops04 (StableHlo.after ops03 (StableHlo.after ops02 (StableHlo.after ops01 (launchContents m c))))) (Proc.devRef .tc main_v15) = val_main_v15 (F := F) (m ((c.tc : Thread nD τ).loc main_arg7)) :=
    st04_v15 (StableHlo.after ops03 (StableHlo.after ops02 (StableHlo.after ops01 (launchContents m c)))) (m ((c.tc : Thread nD τ).loc main_arg7)) f03_arg7
  have f04_c_4 : (StableHlo.after ops04 (StableHlo.after ops03 (StableHlo.after ops02 (StableHlo.after ops01 (launchContents m c))))) (Proc.devRef .tc main_c_4) = val_main_c_4 (F := F) :=
    st04_c_4 (StableHlo.after ops03 (StableHlo.after ops02 (StableHlo.after ops01 (launchContents m c))))
  have f05_arg0 : (StableHlo.after ops05 (StableHlo.after ops04 (StableHlo.after ops03 (StableHlo.after ops02 (StableHlo.after ops01 (launchContents m c)))))) (Proc.devRef .tc main_arg0) = (m ((c.tc : Thread nD τ).loc main_arg0)) :=
    st05_arg0 (StableHlo.after ops04 (StableHlo.after ops03 (StableHlo.after ops02 (StableHlo.after ops01 (launchContents m c))))) (m ((c.tc : Thread nD τ).loc main_arg0)) f04_arg0
  have f05_arg1 : (StableHlo.after ops05 (StableHlo.after ops04 (StableHlo.after ops03 (StableHlo.after ops02 (StableHlo.after ops01 (launchContents m c)))))) (Proc.devRef .tc main_arg1) = (m ((c.tc : Thread nD τ).loc main_arg1)) :=
    st05_arg1 (StableHlo.after ops04 (StableHlo.after ops03 (StableHlo.after ops02 (StableHlo.after ops01 (launchContents m c))))) (m ((c.tc : Thread nD τ).loc main_arg1)) f04_arg1
  have f05_arg2 : (StableHlo.after ops05 (StableHlo.after ops04 (StableHlo.after ops03 (StableHlo.after ops02 (StableHlo.after ops01 (launchContents m c)))))) (Proc.devRef .tc main_arg2) = (m ((c.tc : Thread nD τ).loc main_arg2)) :=
    st05_arg2 (StableHlo.after ops04 (StableHlo.after ops03 (StableHlo.after ops02 (StableHlo.after ops01 (launchContents m c))))) (m ((c.tc : Thread nD τ).loc main_arg2)) f04_arg2
  have f05_arg3 : (StableHlo.after ops05 (StableHlo.after ops04 (StableHlo.after ops03 (StableHlo.after ops02 (StableHlo.after ops01 (launchContents m c)))))) (Proc.devRef .tc main_arg3) = (m ((c.tc : Thread nD τ).loc main_arg3)) :=
    st05_arg3 (StableHlo.after ops04 (StableHlo.after ops03 (StableHlo.after ops02 (StableHlo.after ops01 (launchContents m c))))) (m ((c.tc : Thread nD τ).loc main_arg3)) f04_arg3
  have f05_arg4 : (StableHlo.after ops05 (StableHlo.after ops04 (StableHlo.after ops03 (StableHlo.after ops02 (StableHlo.after ops01 (launchContents m c)))))) (Proc.devRef .tc main_arg4) = (m ((c.tc : Thread nD τ).loc main_arg4)) :=
    st05_arg4 (StableHlo.after ops04 (StableHlo.after ops03 (StableHlo.after ops02 (StableHlo.after ops01 (launchContents m c))))) (m ((c.tc : Thread nD τ).loc main_arg4)) f04_arg4
  have f05_arg5 : (StableHlo.after ops05 (StableHlo.after ops04 (StableHlo.after ops03 (StableHlo.after ops02 (StableHlo.after ops01 (launchContents m c)))))) (Proc.devRef .tc main_arg5) = (m ((c.tc : Thread nD τ).loc main_arg5)) :=
    st05_arg5 (StableHlo.after ops04 (StableHlo.after ops03 (StableHlo.after ops02 (StableHlo.after ops01 (launchContents m c))))) (m ((c.tc : Thread nD τ).loc main_arg5)) f04_arg5
  have f05_arg8 : (StableHlo.after ops05 (StableHlo.after ops04 (StableHlo.after ops03 (StableHlo.after ops02 (StableHlo.after ops01 (launchContents m c)))))) (Proc.devRef .tc main_arg8) = (m ((c.tc : Thread nD τ).loc main_arg8)) :=
    st05_arg8 (StableHlo.after ops04 (StableHlo.after ops03 (StableHlo.after ops02 (StableHlo.after ops01 (launchContents m c))))) (m ((c.tc : Thread nD τ).loc main_arg8)) f04_arg8
  have f05_v13 : (StableHlo.after ops05 (StableHlo.after ops04 (StableHlo.after ops03 (StableHlo.after ops02 (StableHlo.after ops01 (launchContents m c)))))) (Proc.devRef .tc main_v13) = val_main_v13 (F := F) (m ((c.tc : Thread nD τ).loc main_arg0)) (m ((c.tc : Thread nD τ).loc main_arg5)) (m ((c.tc : Thread nD τ).loc main_arg6)) :=
    st05_v13 (StableHlo.after ops04 (StableHlo.after ops03 (StableHlo.after ops02 (StableHlo.after ops01 (launchContents m c))))) (m ((c.tc : Thread nD τ).loc main_arg0)) (m ((c.tc : Thread nD τ).loc main_arg5)) (m ((c.tc : Thread nD τ).loc main_arg6)) f04_v13
  have f05_v18 : (StableHlo.after ops05 (StableHlo.after ops04 (StableHlo.after ops03 (StableHlo.after ops02 (StableHlo.after ops01 (launchContents m c)))))) (Proc.devRef .tc main_v18) = val_main_v18 (F := F) (m ((c.tc : Thread nD τ).loc main_arg7)) :=
    st05_v18 (StableHlo.after ops04 (StableHlo.after ops03 (StableHlo.after ops02 (StableHlo.after ops01 (launchContents m c))))) (m ((c.tc : Thread nD τ).loc main_arg7)) f04_arg7 f04_v15 f04_c_4
  have f05_v20 : (StableHlo.after ops05 (StableHlo.after ops04 (StableHlo.after ops03 (StableHlo.after ops02 (StableHlo.after ops01 (launchContents m c)))))) (Proc.devRef .tc main_v20) = val_main_v20 (F := F) (m ((c.tc : Thread nD τ).loc main_arg5)) :=
    st05_v20 (StableHlo.after ops04 (StableHlo.after ops03 (StableHlo.after ops02 (StableHlo.after ops01 (launchContents m c))))) (m ((c.tc : Thread nD τ).loc main_arg5)) f04_arg5
  have f06_arg0 : (StableHlo.after ops06 (StableHlo.after ops05 (StableHlo.after ops04 (StableHlo.after ops03 (StableHlo.after ops02 (StableHlo.after ops01 (launchContents m c))))))) (Proc.devRef .tc main_arg0) = (m ((c.tc : Thread nD τ).loc main_arg0)) :=
    st06_arg0 (StableHlo.after ops05 (StableHlo.after ops04 (StableHlo.after ops03 (StableHlo.after ops02 (StableHlo.after ops01 (launchContents m c)))))) (m ((c.tc : Thread nD τ).loc main_arg0)) f05_arg0
  have f06_arg1 : (StableHlo.after ops06 (StableHlo.after ops05 (StableHlo.after ops04 (StableHlo.after ops03 (StableHlo.after ops02 (StableHlo.after ops01 (launchContents m c))))))) (Proc.devRef .tc main_arg1) = (m ((c.tc : Thread nD τ).loc main_arg1)) :=
    st06_arg1 (StableHlo.after ops05 (StableHlo.after ops04 (StableHlo.after ops03 (StableHlo.after ops02 (StableHlo.after ops01 (launchContents m c)))))) (m ((c.tc : Thread nD τ).loc main_arg1)) f05_arg1
  have f06_arg2 : (StableHlo.after ops06 (StableHlo.after ops05 (StableHlo.after ops04 (StableHlo.after ops03 (StableHlo.after ops02 (StableHlo.after ops01 (launchContents m c))))))) (Proc.devRef .tc main_arg2) = (m ((c.tc : Thread nD τ).loc main_arg2)) :=
    st06_arg2 (StableHlo.after ops05 (StableHlo.after ops04 (StableHlo.after ops03 (StableHlo.after ops02 (StableHlo.after ops01 (launchContents m c)))))) (m ((c.tc : Thread nD τ).loc main_arg2)) f05_arg2
  have f06_arg3 : (StableHlo.after ops06 (StableHlo.after ops05 (StableHlo.after ops04 (StableHlo.after ops03 (StableHlo.after ops02 (StableHlo.after ops01 (launchContents m c))))))) (Proc.devRef .tc main_arg3) = (m ((c.tc : Thread nD τ).loc main_arg3)) :=
    st06_arg3 (StableHlo.after ops05 (StableHlo.after ops04 (StableHlo.after ops03 (StableHlo.after ops02 (StableHlo.after ops01 (launchContents m c)))))) (m ((c.tc : Thread nD τ).loc main_arg3)) f05_arg3
  have f06_arg4 : (StableHlo.after ops06 (StableHlo.after ops05 (StableHlo.after ops04 (StableHlo.after ops03 (StableHlo.after ops02 (StableHlo.after ops01 (launchContents m c))))))) (Proc.devRef .tc main_arg4) = (m ((c.tc : Thread nD τ).loc main_arg4)) :=
    st06_arg4 (StableHlo.after ops05 (StableHlo.after ops04 (StableHlo.after ops03 (StableHlo.after ops02 (StableHlo.after ops01 (launchContents m c)))))) (m ((c.tc : Thread nD τ).loc main_arg4)) f05_arg4
  have f06_arg8 : (StableHlo.after ops06 (StableHlo.after ops05 (StableHlo.after ops04 (StableHlo.after ops03 (StableHlo.after ops02 (StableHlo.after ops01 (launchContents m c))))))) (Proc.devRef .tc main_arg8) = (m ((c.tc : Thread nD τ).loc main_arg8)) :=
    st06_arg8 (StableHlo.after ops05 (StableHlo.after ops04 (StableHlo.after ops03 (StableHlo.after ops02 (StableHlo.after ops01 (launchContents m c)))))) (m ((c.tc : Thread nD τ).loc main_arg8)) f05_arg8
  have f06_v13 : (StableHlo.after ops06 (StableHlo.after ops05 (StableHlo.after ops04 (StableHlo.after ops03 (StableHlo.after ops02 (StableHlo.after ops01 (launchContents m c))))))) (Proc.devRef .tc main_v13) = val_main_v13 (F := F) (m ((c.tc : Thread nD τ).loc main_arg0)) (m ((c.tc : Thread nD τ).loc main_arg5)) (m ((c.tc : Thread nD τ).loc main_arg6)) :=
    st06_v13 (StableHlo.after ops05 (StableHlo.after ops04 (StableHlo.after ops03 (StableHlo.after ops02 (StableHlo.after ops01 (launchContents m c)))))) (m ((c.tc : Thread nD τ).loc main_arg0)) (m ((c.tc : Thread nD τ).loc main_arg5)) (m ((c.tc : Thread nD τ).loc main_arg6)) f05_v13
  have f06_v24 : (StableHlo.after ops06 (StableHlo.after ops05 (StableHlo.after ops04 (StableHlo.after ops03 (StableHlo.after ops02 (StableHlo.after ops01 (launchContents m c))))))) (Proc.devRef .tc main_v24) = val_main_v24 (F := F) (m ((c.tc : Thread nD τ).loc main_arg7)) :=
    st06_v24 (StableHlo.after ops05 (StableHlo.after ops04 (StableHlo.after ops03 (StableHlo.after ops02 (StableHlo.after ops01 (launchContents m c)))))) (m ((c.tc : Thread nD τ).loc main_arg7)) f05_v18
  have f06_v25 : (StableHlo.after ops06 (StableHlo.after ops05 (StableHlo.after ops04 (StableHlo.after ops03 (StableHlo.after ops02 (StableHlo.after ops01 (launchContents m c))))))) (Proc.devRef .tc main_v25) = val_main_v25 (F := F) (m ((c.tc : Thread nD τ).loc main_arg5)) :=
    st06_v25 (StableHlo.after ops05 (StableHlo.after ops04 (StableHlo.after ops03 (StableHlo.after ops02 (StableHlo.after ops01 (launchContents m c)))))) (m ((c.tc : Thread nD τ).loc main_arg5)) f05_arg5 f05_v20
  have f07_arg1 : (StableHlo.after ops07 (StableHlo.after ops06 (StableHlo.after ops05 (StableHlo.after ops04 (StableHlo.after ops03 (StableHlo.after ops02 (StableHlo.after ops01 (launchContents m c)))))))) (Proc.devRef .tc main_arg1) = (m ((c.tc : Thread nD τ).loc main_arg1)) :=
    st07_arg1 (StableHlo.after ops06 (StableHlo.after ops05 (StableHlo.after ops04 (StableHlo.after ops03 (StableHlo.after ops02 (StableHlo.after ops01 (launchContents m c))))))) (m ((c.tc : Thread nD τ).loc main_arg1)) f06_arg1
  have f07_arg2 : (StableHlo.after ops07 (StableHlo.after ops06 (StableHlo.after ops05 (StableHlo.after ops04 (StableHlo.after ops03 (StableHlo.after ops02 (StableHlo.after ops01 (launchContents m c)))))))) (Proc.devRef .tc main_arg2) = (m ((c.tc : Thread nD τ).loc main_arg2)) :=
    st07_arg2 (StableHlo.after ops06 (StableHlo.after ops05 (StableHlo.after ops04 (StableHlo.after ops03 (StableHlo.after ops02 (StableHlo.after ops01 (launchContents m c))))))) (m ((c.tc : Thread nD τ).loc main_arg2)) f06_arg2
  have f07_arg3 : (StableHlo.after ops07 (StableHlo.after ops06 (StableHlo.after ops05 (StableHlo.after ops04 (StableHlo.after ops03 (StableHlo.after ops02 (StableHlo.after ops01 (launchContents m c)))))))) (Proc.devRef .tc main_arg3) = (m ((c.tc : Thread nD τ).loc main_arg3)) :=
    st07_arg3 (StableHlo.after ops06 (StableHlo.after ops05 (StableHlo.after ops04 (StableHlo.after ops03 (StableHlo.after ops02 (StableHlo.after ops01 (launchContents m c))))))) (m ((c.tc : Thread nD τ).loc main_arg3)) f06_arg3
  have f07_arg4 : (StableHlo.after ops07 (StableHlo.after ops06 (StableHlo.after ops05 (StableHlo.after ops04 (StableHlo.after ops03 (StableHlo.after ops02 (StableHlo.after ops01 (launchContents m c)))))))) (Proc.devRef .tc main_arg4) = (m ((c.tc : Thread nD τ).loc main_arg4)) :=
    st07_arg4 (StableHlo.after ops06 (StableHlo.after ops05 (StableHlo.after ops04 (StableHlo.after ops03 (StableHlo.after ops02 (StableHlo.after ops01 (launchContents m c))))))) (m ((c.tc : Thread nD τ).loc main_arg4)) f06_arg4
  have f07_arg8 : (StableHlo.after ops07 (StableHlo.after ops06 (StableHlo.after ops05 (StableHlo.after ops04 (StableHlo.after ops03 (StableHlo.after ops02 (StableHlo.after ops01 (launchContents m c)))))))) (Proc.devRef .tc main_arg8) = (m ((c.tc : Thread nD τ).loc main_arg8)) :=
    st07_arg8 (StableHlo.after ops06 (StableHlo.after ops05 (StableHlo.after ops04 (StableHlo.after ops03 (StableHlo.after ops02 (StableHlo.after ops01 (launchContents m c))))))) (m ((c.tc : Thread nD τ).loc main_arg8)) f06_arg8
  have f07_v13 : (StableHlo.after ops07 (StableHlo.after ops06 (StableHlo.after ops05 (StableHlo.after ops04 (StableHlo.after ops03 (StableHlo.after ops02 (StableHlo.after ops01 (launchContents m c)))))))) (Proc.devRef .tc main_v13) = val_main_v13 (F := F) (m ((c.tc : Thread nD τ).loc main_arg0)) (m ((c.tc : Thread nD τ).loc main_arg5)) (m ((c.tc : Thread nD τ).loc main_arg6)) :=
    st07_v13 (StableHlo.after ops06 (StableHlo.after ops05 (StableHlo.after ops04 (StableHlo.after ops03 (StableHlo.after ops02 (StableHlo.after ops01 (launchContents m c))))))) (m ((c.tc : Thread nD τ).loc main_arg0)) (m ((c.tc : Thread nD τ).loc main_arg5)) (m ((c.tc : Thread nD τ).loc main_arg6)) f06_v13
  have f07_v27 : (StableHlo.after ops07 (StableHlo.after ops06 (StableHlo.after ops05 (StableHlo.after ops04 (StableHlo.after ops03 (StableHlo.after ops02 (StableHlo.after ops01 (launchContents m c)))))))) (Proc.devRef .tc main_v27) = val_main_v27 (F := F) (m ((c.tc : Thread nD τ).loc main_arg0)) (m ((c.tc : Thread nD τ).loc main_arg5)) (m ((c.tc : Thread nD τ).loc main_arg7)) :=
    st07_v27 (StableHlo.after ops06 (StableHlo.after ops05 (StableHlo.after ops04 (StableHlo.after ops03 (StableHlo.after ops02 (StableHlo.after ops01 (launchContents m c))))))) (m ((c.tc : Thread nD τ).loc main_arg0)) (m ((c.tc : Thread nD τ).loc main_arg5)) (m ((c.tc : Thread nD τ).loc main_arg7)) f06_arg0 f06_v24 f06_v25
  have f08_arg3 : (StableHlo.after ops08 (StableHlo.after ops07 (StableHlo.after ops06 (StableHlo.after ops05 (StableHlo.after ops04 (StableHlo.after ops03 (StableHlo.after ops02 (StableHlo.after ops01 (launchContents m c))))))))) (Proc.devRef .tc main_arg3) = (m ((c.tc : Thread nD τ).loc main_arg3)) :=
    st08_arg3 (StableHlo.after ops07 (StableHlo.after ops06 (StableHlo.after ops05 (StableHlo.after ops04 (StableHlo.after ops03 (StableHlo.after ops02 (StableHlo.after ops01 (launchContents m c)))))))) (m ((c.tc : Thread nD τ).loc main_arg3)) f07_arg3
  have f08_arg4 : (StableHlo.after ops08 (StableHlo.after ops07 (StableHlo.after ops06 (StableHlo.after ops05 (StableHlo.after ops04 (StableHlo.after ops03 (StableHlo.after ops02 (StableHlo.after ops01 (launchContents m c))))))))) (Proc.devRef .tc main_arg4) = (m ((c.tc : Thread nD τ).loc main_arg4)) :=
    st08_arg4 (StableHlo.after ops07 (StableHlo.after ops06 (StableHlo.after ops05 (StableHlo.after ops04 (StableHlo.after ops03 (StableHlo.after ops02 (StableHlo.after ops01 (launchContents m c)))))))) (m ((c.tc : Thread nD τ).loc main_arg4)) f07_arg4
  have f08_arg8 : (StableHlo.after ops08 (StableHlo.after ops07 (StableHlo.after ops06 (StableHlo.after ops05 (StableHlo.after ops04 (StableHlo.after ops03 (StableHlo.after ops02 (StableHlo.after ops01 (launchContents m c))))))))) (Proc.devRef .tc main_arg8) = (m ((c.tc : Thread nD τ).loc main_arg8)) :=
    st08_arg8 (StableHlo.after ops07 (StableHlo.after ops06 (StableHlo.after ops05 (StableHlo.after ops04 (StableHlo.after ops03 (StableHlo.after ops02 (StableHlo.after ops01 (launchContents m c)))))))) (m ((c.tc : Thread nD τ).loc main_arg8)) f07_arg8
  have f08_v33 : (StableHlo.after ops08 (StableHlo.after ops07 (StableHlo.after ops06 (StableHlo.after ops05 (StableHlo.after ops04 (StableHlo.after ops03 (StableHlo.after ops02 (StableHlo.after ops01 (launchContents m c))))))))) (Proc.devRef .tc main_v33) = val_main_v33 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) :=
    st08_v33 (StableHlo.after ops07 (StableHlo.after ops06 (StableHlo.after ops05 (StableHlo.after ops04 (StableHlo.after ops03 (StableHlo.after ops02 (StableHlo.after ops01 (launchContents m c)))))))) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) f07_arg1 f07_arg2 f07_v13 f07_v27
  have f09_arg4 : (StableHlo.after ops09 (StableHlo.after ops08 (StableHlo.after ops07 (StableHlo.after ops06 (StableHlo.after ops05 (StableHlo.after ops04 (StableHlo.after ops03 (StableHlo.after ops02 (StableHlo.after ops01 (launchContents m c)))))))))) (Proc.devRef .tc main_arg4) = (m ((c.tc : Thread nD τ).loc main_arg4)) :=
    st09_arg4 (StableHlo.after ops08 (StableHlo.after ops07 (StableHlo.after ops06 (StableHlo.after ops05 (StableHlo.after ops04 (StableHlo.after ops03 (StableHlo.after ops02 (StableHlo.after ops01 (launchContents m c))))))))) (m ((c.tc : Thread nD τ).loc main_arg4)) f08_arg4
  have f09_arg8 : (StableHlo.after ops09 (StableHlo.after ops08 (StableHlo.after ops07 (StableHlo.after ops06 (StableHlo.after ops05 (StableHlo.after ops04 (StableHlo.after ops03 (StableHlo.after ops02 (StableHlo.after ops01 (launchContents m c)))))))))) (Proc.devRef .tc main_arg8) = (m ((c.tc : Thread nD τ).loc main_arg8)) :=
    st09_arg8 (StableHlo.after ops08 (StableHlo.after ops07 (StableHlo.after ops06 (StableHlo.after ops05 (StableHlo.after ops04 (StableHlo.after ops03 (StableHlo.after ops02 (StableHlo.after ops01 (launchContents m c))))))))) (m ((c.tc : Thread nD τ).loc main_arg8)) f08_arg8
  have f09_v36 : (StableHlo.after ops09 (StableHlo.after ops08 (StableHlo.after ops07 (StableHlo.after ops06 (StableHlo.after ops05 (StableHlo.after ops04 (StableHlo.after ops03 (StableHlo.after ops02 (StableHlo.after ops01 (launchContents m c)))))))))) (Proc.devRef .tc main_v36) = val_main_v36 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) :=
    st09_v36 (StableHlo.after ops08 (StableHlo.after ops07 (StableHlo.after ops06 (StableHlo.after ops05 (StableHlo.after ops04 (StableHlo.after ops03 (StableHlo.after ops02 (StableHlo.after ops01 (launchContents m c))))))))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) f08_arg3 f08_v33
  have f09_call0_v0 : (StableHlo.after ops09 (StableHlo.after ops08 (StableHlo.after ops07 (StableHlo.after ops06 (StableHlo.after ops05 (StableHlo.after ops04 (StableHlo.after ops03 (StableHlo.after ops02 (StableHlo.after ops01 (launchContents m c)))))))))) (Proc.devRef .tc main_call0_v0) = val_main_call0_v0 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) :=
    st09_call0_v0 (StableHlo.after ops08 (StableHlo.after ops07 (StableHlo.after ops06 (StableHlo.after ops05 (StableHlo.after ops04 (StableHlo.after ops03 (StableHlo.after ops02 (StableHlo.after ops01 (launchContents m c))))))))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) f08_arg3 f08_v33
  have f09_call0_cst_0 : (StableHlo.after ops09 (StableHlo.after ops08 (StableHlo.after ops07 (StableHlo.after ops06 (StableHlo.after ops05 (StableHlo.after ops04 (StableHlo.after ops03 (StableHlo.after ops02 (StableHlo.after ops01 (launchContents m c)))))))))) (Proc.devRef .tc main_call0_cst_0) = val_main_call0_cst_0 (F := F) :=
    st09_call0_cst_0 (StableHlo.after ops08 (StableHlo.after ops07 (StableHlo.after ops06 (StableHlo.after ops05 (StableHlo.after ops04 (StableHlo.after ops03 (StableHlo.after ops02 (StableHlo.after ops01 (launchContents m c)))))))))
  have f10_arg4 : (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))) (Proc.devRef .tc main_arg4) = (m ((c.tc : Thread nD τ).loc main_arg4)) :=
    st10_arg4 (StableHlo.after ops09 (StableHlo.after ops08 (StableHlo.after ops07 (StableHlo.after ops06 (StableHlo.after ops05 (StableHlo.after ops04 (StableHlo.after ops03 (StableHlo.after ops02 (StableHlo.after ops01 (launchContents m c)))))))))) (m ((c.tc : Thread nD τ).loc main_arg4)) f09_arg4
  have f10_arg8 : (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))) (Proc.devRef .tc main_arg8) = (m ((c.tc : Thread nD τ).loc main_arg8)) :=
    st10_arg8 (StableHlo.after ops09 (StableHlo.after ops08 (StableHlo.after ops07 (StableHlo.after ops06 (StableHlo.after ops05 (StableHlo.after ops04 (StableHlo.after ops03 (StableHlo.after ops02 (StableHlo.after ops01 (launchContents m c)))))))))) (m ((c.tc : Thread nD τ).loc main_arg8)) f09_arg8
  have f10_call0_v5 : (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))) (Proc.devRef .tc main_call0_v5) = val_main_call0_v5 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) :=
    st10_call0_v5 (StableHlo.after ops09 (StableHlo.after ops08 (StableHlo.after ops07 (StableHlo.after ops06 (StableHlo.after ops05 (StableHlo.after ops04 (StableHlo.after ops03 (StableHlo.after ops02 (StableHlo.after ops01 (launchContents m c)))))))))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) f09_v36 f09_call0_v0 f09_call0_cst_0
  have f10_call0_v6 : (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))) (Proc.devRef .tc main_call0_v6) = val_main_call0_v6 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) :=
    st10_call0_v6 (StableHlo.after ops09 (StableHlo.after ops08 (StableHlo.after ops07 (StableHlo.after ops06 (StableHlo.after ops05 (StableHlo.after ops04 (StableHlo.after ops03 (StableHlo.after ops02 (StableHlo.after ops01 (launchContents m c)))))))))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) f09_v36 f09_call0_v0 f09_call0_cst_0
  have f11_arg4 : (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))) (Proc.devRef .tc main_arg4) = (m ((c.tc : Thread nD τ).loc main_arg4)) :=
    st11_arg4 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))) (m ((c.tc : Thread nD τ).loc main_arg4)) f10_arg4
  have f11_arg8 : (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))) (Proc.devRef .tc main_arg8) = (m ((c.tc : Thread nD τ).loc main_arg8)) :=
    st11_arg8 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))) (m ((c.tc : Thread nD τ).loc main_arg8)) f10_arg8
  have f11_v37 : (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))) (Proc.devRef .tc main_v37) = val_main_v37 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) :=
    st11_v37 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) f10_call0_v5 f10_call0_v6
  have f12_arg4 : (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))) (Proc.devRef .tc main_arg4) = (m ((c.tc : Thread nD τ).loc main_arg4)) :=
    st12_arg4 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))) (m ((c.tc : Thread nD τ).loc main_arg4)) f11_arg4
  have f12_arg8 : (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))) (Proc.devRef .tc main_arg8) = (m ((c.tc : Thread nD τ).loc main_arg8)) :=
    st12_arg8 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))) (m ((c.tc : Thread nD τ).loc main_arg8)) f11_arg8
  have f12_v37 : (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))) (Proc.devRef .tc main_v37) = val_main_v37 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) :=
    st12_v37 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) f11_v37
  have f12_v38 : (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))) (Proc.devRef .tc main_v38) = val_main_v38 (F := F) (m ((c.tc : Thread nD τ).loc main_arg8)) :=
    st12_v38 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))) (m ((c.tc : Thread nD τ).loc main_arg8)) f11_arg8
  have f12_call1_v1 : (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))) (Proc.devRef .tc main_call1_v1) = val_main_call1_v1 (F := F) (m ((c.tc : Thread nD τ).loc main_arg8)) :=
    st12_call1_v1 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))) (m ((c.tc : Thread nD τ).loc main_arg8)) f11_arg8
  have f12_call1_v2 : (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))) (Proc.devRef .tc main_call1_v2) = val_main_call1_v2 (F := F) :=
    st12_call1_v2 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))
  have f13_arg4 : (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))))) (Proc.devRef .tc main_arg4) = (m ((c.tc : Thread nD τ).loc main_arg4)) :=
    st13_arg4 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))) (m ((c.tc : Thread nD τ).loc main_arg4)) f12_arg4
  have f13_arg8 : (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))))) (Proc.devRef .tc main_arg8) = (m ((c.tc : Thread nD τ).loc main_arg8)) :=
    st13_arg8 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))) (m ((c.tc : Thread nD τ).loc main_arg8)) f12_arg8
  have f13_v37 : (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))))) (Proc.devRef .tc main_v37) = val_main_v37 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) :=
    st13_v37 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) f12_v37
  have f13_call1_v5 : (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))))) (Proc.devRef .tc main_call1_v5) = val_main_call1_v5 (F := F) (m ((c.tc : Thread nD τ).loc main_arg8)) :=
    st13_call1_v5 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))) (m ((c.tc : Thread nD τ).loc main_arg8)) f12_v38 f12_call1_v1 f12_call1_v2
  have f13_call1_c_1 : (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))))) (Proc.devRef .tc main_call1_c_1) = val_main_call1_c_1 (F := F) :=
    st13_call1_c_1 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))))
  have f13_call1_v6 : (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))))) (Proc.devRef .tc main_call1_v6) = val_main_call1_v6 (F := F) :=
    st13_call1_v6 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))))
  have f14_arg4 : (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))))) (Proc.devRef .tc main_arg4) = (m ((c.tc : Thread nD τ).loc main_arg4)) :=
    st14_arg4 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))))) (m ((c.tc : Thread nD τ).loc main_arg4)) f13_arg4
  have f14_arg8 : (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))))) (Proc.devRef .tc main_arg8) = (m ((c.tc : Thread nD τ).loc main_arg8)) :=
    st14_arg8 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))))) (m ((c.tc : Thread nD τ).loc main_arg8)) f13_arg8
  have f14_v37 : (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))))) (Proc.devRef .tc main_v37) = val_main_v37 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) :=
    st14_v37 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) f13_v37
  have f14_call1_v5 : (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))))) (Proc.devRef .tc main_call1_v5) = val_main_call1_v5 (F := F) (m ((c.tc : Thread nD τ).loc main_arg8)) :=
    st14_call1_v5 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))))) (m ((c.tc : Thread nD τ).loc main_arg8)) f13_call1_v5
  have f14_call1_v11 : (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))))) (Proc.devRef .tc main_call1_v11) = val_main_call1_v11 (F := F) (m ((c.tc : Thread nD τ).loc main_arg8)) :=
    st14_call1_v11 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))))) (m ((c.tc : Thread nD τ).loc main_arg8)) f13_call1_v5 f13_call1_c_1 f13_call1_v6
  have f14_call1_c_3 : (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))))) (Proc.devRef .tc main_call1_c_3) = val_main_call1_c_3 (F := F) :=
    st14_call1_c_3 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))))
  have f15_arg4 : (StableHlo.after ops15 (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))))))) (Proc.devRef .tc main_arg4) = (m ((c.tc : Thread nD τ).loc main_arg4)) :=
    st15_arg4 (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))))) (m ((c.tc : Thread nD τ).loc main_arg4)) f14_arg4
  have f15_arg8 : (StableHlo.after ops15 (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))))))) (Proc.devRef .tc main_arg8) = (m ((c.tc : Thread nD τ).loc main_arg8)) :=
    st15_arg8 (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))))) (m ((c.tc : Thread nD τ).loc main_arg8)) f14_arg8
  have f15_v40 : (StableHlo.after ops15 (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))))))) (Proc.devRef .tc main_v40) = val_main_v40 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) :=
    st15_v40 (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) f14_v37 f14_call1_v5 f14_call1_v11 f14_call1_c_3
  have f16_arg4 : (StableHlo.after ops16 (StableHlo.after ops15 (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))))))) (Proc.devRef .tc main_arg4) = (m ((c.tc : Thread nD τ).loc main_arg4)) :=
    st16_arg4 (StableHlo.after ops15 (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))))))) (m ((c.tc : Thread nD τ).loc main_arg4)) f15_arg4
  have f16_arg8 : (StableHlo.after ops16 (StableHlo.after ops15 (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))))))) (Proc.devRef .tc main_arg8) = (m ((c.tc : Thread nD τ).loc main_arg8)) :=
    st16_arg8 (StableHlo.after ops15 (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))))))) (m ((c.tc : Thread nD τ).loc main_arg8)) f15_arg8
  have f16_v41 : (StableHlo.after ops16 (StableHlo.after ops15 (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))))))) (Proc.devRef .tc main_v41) = val_main_v41 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) :=
    st16_v41 (StableHlo.after ops15 (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))))))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) f15_v40
  have f16_v43 : (StableHlo.after ops16 (StableHlo.after ops15 (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))))))) (Proc.devRef .tc main_v43) = val_main_v43 (F := F) (m ((c.tc : Thread nD τ).loc main_arg8)) :=
    st16_v43 (StableHlo.after ops15 (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))))))) (m ((c.tc : Thread nD τ).loc main_arg8)) f15_arg8
  have f16_v44 : (StableHlo.after ops16 (StableHlo.after ops15 (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))))))) (Proc.devRef .tc main_v44) = val_main_v44 (F := F) :=
    st16_v44 (StableHlo.after ops15 (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))))))
  have f17_v41 : (StableHlo.after ops17 (StableHlo.after ops16 (StableHlo.after ops15 (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))))))))) (Proc.devRef .tc main_v41) = val_main_v41 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) :=
    st17_v41 (StableHlo.after ops16 (StableHlo.after ops15 (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))))))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) f16_v41
  have f17_v48 : (StableHlo.after ops17 (StableHlo.after ops16 (StableHlo.after ops15 (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))))))))) (Proc.devRef .tc main_v48) = val_main_v48 (F := F) (m ((c.tc : Thread nD τ).loc main_arg4)) (m ((c.tc : Thread nD τ).loc main_arg8)) :=
    st17_v48 (StableHlo.after ops16 (StableHlo.after ops15 (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))))))) (m ((c.tc : Thread nD τ).loc main_arg4)) (m ((c.tc : Thread nD τ).loc main_arg8)) f16_arg4 f16_arg8 f16_v43 f16_v44
  have f17_v49 : (StableHlo.after ops17 (StableHlo.after ops16 (StableHlo.after ops15 (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))))))))) (Proc.devRef .tc main_v49) = val_main_v49 (F := F) :=
    st17_v49 (StableHlo.after ops16 (StableHlo.after ops15 (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))))))))
  have f18_v53 : (StableHlo.after ops18 (StableHlo.after ops17 (StableHlo.after ops16 (StableHlo.after ops15 (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c))))))))))))))))))) (Proc.devRef .tc main_v53) = val_main_v53 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
    st18_v53 (StableHlo.after ops17 (StableHlo.after ops16 (StableHlo.after ops15 (StableHlo.after ops14 (StableHlo.after ops13 (StableHlo.after ops12 (StableHlo.after ops11 (StableHlo.after ops10 (StableHlo.after ops09 (StableHlo.after ops08 (StableHlo.after ops07 (StableHlo.after ops06 (StableHlo.after ops05 (StableHlo.after ops04 (StableHlo.after ops03 (StableHlo.after ops02 (StableHlo.after ops01 (launchContents m c)))))))))))))))))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) f17_v41 f17_v48 f17_v49
  exact f18_v53

end Cert.ReferenceIdeal.Stages

end
-- ==== Proof.Pre.lean ====
/-
  Two facts read out of the precondition `finite_inputs`. The precondition is the conjunction, over the five float
  inputs, of "every element has |x| < +∞", and, for the tags, of "every tag t has 0 ≤ t and t < 32000"; each "every" is a
  reduction by `and` over all axes from the constant 1, and the conjunction is a chain of `and`s nested to the left:
  ((((P₀ ∧ P₁) ∧ P₂) ∧ P₃) ∧ P₄) ∧ T. The hypothesis says that this one bit is 1.

  * A conjunction of bits is 1 exactly when both are, so P₃ (the [32000, 1024] input) and T (the tags) are 1.
  * A reduction by `and` into one index that is 1 met a 1 at every operand index.
  * At a tag, the two signed comparisons against the broadcast constants 0 and 32000 read 0 ≤ t and t < 32000 on the
    signed value. No float is touched, so this fact holds at every float instance.
  * At the extended reals the absolute value of x is max x (-x), and the pattern 0x7F800000 denotes ⊤. Of the three kinds
    of extended real, ⊤ and ⊥ both have absolute value ⊤, which is not below ⊤: an x with |x| < ⊤ is a real.
-/
import proofs.«420658_j82386062672565_2_alg».proof.Pre_finite_inputs
import Idealize.ShloMosaic.Lib.ReduceAll
import Idealize.ShloMosaic.Lib.ValueIdx
import Idealize.ShloMosaic.PureOps.Ideal

noncomputable section

namespace Cert.PreFacts

open Idealize.ShloMosaic Idealize.ShloMosaic.ValueIdx Cert.Pre_finite_inputs

variable [Cert.Pre_finite_inputs.Facts]

/-- The scalar shape has no axis, so its indices are all the same one. -/
instance : Subsingleton S_.Idx := ⟨fun a b => funext fun d => d.elim0⟩

/-- The elementwise `and` of two arrays, read at an index. -/
theorem andi_at {s : Shape} {w : Nat} (x y : IVec s w) (j : s.Idx) : andi x y j = IntOp.andi (x j) (y j) := rfl

/-- A bit made from a decided proposition is 1 exactly when the proposition holds. -/
theorem ofBool_decide_eq_one (p : Prop) [Decidable p] : BitVec.ofBool (decide p) = 1#1 ↔ p := by
  by_cases hp : p
  · simp [hp]
  · simp [hp]

/-- The precondition split: of its six conjuncts, the one about the [32000, 1024] input and the one about the tags,
    each read down to its elements. At an element of the float input: the comparison "|x| below the pattern 0x7F800000"
    is 1. At a tag: both signed comparisons, against 0 and against 32000, are 1. -/
theorem conjuncts {F : FTy → Type} [FloatOps F]
    (a0 : FVec F S512x32x1024 .f32) (a1 : FVec F S1024x2048 .f32) (a2 : FVec F S1024 .f32) (a3 : FVec F S32000x1024 .f32)
    (a4 : FVec F S32000 .f32) (a5 a6 a7 a8 : IVec S4096 32)
    (h : fn (F := F) a0 a1 a2 a3 a4 a5 a6 a7 a8 = fun _ => 1#1) :
    (∀ i : S32000x1024.Idx,
        FloatOps.cmpf .olt (FloatOps.hostAbsf (a3 i)) (FloatOps.ofBits (F := F) .f32 0x7F800000#32) = 1#1)
    ∧ (∀ i : S4096.Idx, IntOp.cmpi .sge (a8 i) 0#32 = 1#1 ∧ IntOp.cmpi .slt (a8 i) 32000#32 = 1#1) := by
  have e := congrFun h ix0
  unfold fn fn_part1 at e
  simp only [andi_at, IntOp.andi_eq_one] at e
  obtain ⟨⟨⟨-, h3⟩, -⟩, ht⟩ := e
  refine ⟨fun i => ?_, fun i => ?_⟩
  · exact Host.reduce_andi_all _ _ _ _ _ h3 i
  · have e2 := Host.reduce_andi_all _ _ _ _ _ ht i
    rw [andi_at, IntOp.andi_eq_one] at e2
    exact e2

/-- The tags are in [0, 32000), as signed values. -/
theorem tags_range {F : FTy → Type} [FloatOps F]
    (a0 : FVec F S512x32x1024 .f32) (a1 : FVec F S1024x2048 .f32) (a2 : FVec F S1024 .f32) (a3 : FVec F S32000x1024 .f32)
    (a4 : FVec F S32000 .f32) (a5 a6 a7 a8 : IVec S4096 32)
    (h : fn (F := F) a0 a1 a2 a3 a4 a5 a6 a7 a8 = fun _ => 1#1) (i : S4096.Idx) :
    0 ≤ (a8 i).toInt ∧ (a8 i).toInt < 32000 := by
  obtain ⟨h0, h1⟩ := (conjuncts a0 a1 a2 a3 a4 a5 a6 a7 a8 h).2 i
  rw [IntOp.cmpi_sge] at h0
  rw [IntOp.cmpi_slt] at h1
  have z : (0#32 : BitVec 32).toInt = 0 := by decide
  have t : (32000#32 : BitVec 32).toInt = 32000 := by decide
  rw [z] at h0
  rw [t] at h1
  exact ⟨h0, h1⟩

/-- The pattern 0x7F800000 (sign 0, exponent all ones, fraction 0) denotes +∞. -/
theorem inf_pattern : Ideal.ofBits .f32 0x7F800000#32 = (⊤ : EReal) := by
  simp [Ideal.ofBits, Ideal.ieee]

/-- An extended real whose absolute value max x (-x) is below ⊤ is a real: ⊥ and ⊤ both have absolute value ⊤. -/
theorem real_of_abs_lt_top (x : EReal) (hx : max x (-x) < (⊤ : EReal)) : ∃ r : ℝ, x = (r : EReal) := by
  induction x using EReal.rec with
  | bot => simp at hx
  | coe r => exact ⟨r, rfl⟩
  | top => simp at hx

/-- Every element of the [32000, 1024] input is a real. -/
theorem wout_real
    (a0 : FVec Ideal S512x32x1024 .f32) (a1 : FVec Ideal S1024x2048 .f32) (a2 : FVec Ideal S1024 .f32) (a3 : FVec Ideal S32000x1024 .f32)
    (a4 : FVec Ideal S32000 .f32) (a5 a6 a7 a8 : IVec S4096 32)
    (h : fn (F := Ideal) a0 a1 a2 a3 a4 a5 a6 a7 a8 = fun _ => 1#1) (i : S32000x1024.Idx) :
    ∃ r : ℝ, a3 i = (r : EReal) := by
  have e := (conjuncts (F := Ideal) a0 a1 a2 a3 a4 a5 a6 a7 a8 h).1 i
  have e' : BitVec.ofBool (decide (max (a3 i : EReal) (-(a3 i : EReal)) < Ideal.ofBits .f32 0x7F800000#32)) = 1#1 := e
  rw [ofBool_decide_eq_one, inf_pattern] at e'
  exact real_of_abs_lt_top _ e'

end Cert.PreFacts

end
-- ==== Proof.Bridge.lean ====
/-
  The two programs' results are one extended real.

  Under the precondition every tag is a vocabulary index and the vocabulary matrix is real.  The kernel's program
  gathers the two endpoint embeddings by the very operations the reference uses, so those two arrays are the
  reference's own stage values.  Entry r of the kernel's column of loss terms is then the one-pass loss term of span r
  over the specification's logits, which is what the reference's negated take holds at r; and the weights, one minus
  the discard probability at the tag, are the same array once the tags are known to be in range.  Both programs end
  by the same three operations on those two arrays, so their results agree.
-/
import proofs.«420658_j82386062672565_2_alg».proof.Defs
import proofs.«420658_j82386062672565_2_alg».proof.Proof.KSpec
import proofs.«420658_j82386062672565_2_alg».proof.Proof.RefValue
import proofs.«420658_j82386062672565_2_alg».proof.Proof.RefStages
import proofs.«420658_j82386062672565_2_alg».proof.Proof.Pre
import proofs.«420658_j82386062672565_2_alg».proof.Proof.Gen.Pre_finite_inputs

set_option maxRecDepth 16384

noncomputable section

namespace Cert.Bridge

open Idealize.ShloMosaic Idealize.ShloMosaic.TcCoe Idealize.ShloMosaic.ValueIdx Idealize.SL.Sem Idealize.ShloMosaic.StableHlo
open Cert.KernelIdeal Cert.KernelIdeal.Gen Cert.KernelIdeal.Inv Cert.KernelIdeal.Final Cert.KernelIdeal.Host Cert.KernelIdeal.KSpec

variable (m : (ℓ : Loc nD τ sig) → Buf (Elt Ideal) ℓ)

/-! ## The kernel's argument arrays, typed as the reference's stages take them -/

abbrev a0 (c : Dev nD) : (⟨Cert.ReferenceIdeal.S512x32x1024, .f32⟩ : BufTy).Contents (Elt Ideal) := m ((c : Thread nD τ).loc main_arg0)
abbrev a1 (c : Dev nD) : (⟨Cert.ReferenceIdeal.S1024x2048, .f32⟩ : BufTy).Contents (Elt Ideal) := m ((c : Thread nD τ).loc main_arg1)
abbrev a2 (c : Dev nD) : (⟨Cert.ReferenceIdeal.S1024, .f32⟩ : BufTy).Contents (Elt Ideal) := m ((c : Thread nD τ).loc main_arg2)
abbrev a3 (c : Dev nD) : (⟨Cert.ReferenceIdeal.S32000x1024, .f32⟩ : BufTy).Contents (Elt Ideal) := m ((c : Thread nD τ).loc main_arg3)
abbrev a4 (c : Dev nD) : (⟨Cert.ReferenceIdeal.S32000, .f32⟩ : BufTy).Contents (Elt Ideal) := m ((c : Thread nD τ).loc main_arg4)
abbrev a5 (c : Dev nD) : (⟨Cert.ReferenceIdeal.S4096, .i32⟩ : BufTy).Contents (Elt Ideal) := m ((c : Thread nD τ).loc main_arg5)
abbrev a6 (c : Dev nD) : (⟨Cert.ReferenceIdeal.S4096, .i32⟩ : BufTy).Contents (Elt Ideal) := m ((c : Thread nD τ).loc main_arg6)
abbrev a7 (c : Dev nD) : (⟨Cert.ReferenceIdeal.S4096, .i32⟩ : BufTy).Contents (Elt Ideal) := m ((c : Thread nD τ).loc main_arg7)
abbrev a8 (c : Dev nD) : (⟨Cert.ReferenceIdeal.S4096, .i32⟩ : BufTy).Contents (Elt Ideal) := m ((c : Thread nD τ).loc main_arg8)

/-! ## What the precondition gives -/

theorem tags_in_range (hpre : Cert.Pre_KernelIdeal m) (c : Dev nD) : TagsInRange m c := fun i =>
  Cert.PreFacts.tags_range (F := Ideal) _ _ _ _ _ _ _ _ _ (hpre c) i

theorem wout_real (hpre : Cert.Pre_KernelIdeal m) (c : Dev nD) (i : S32000x1024.Idx) : ∃ r : ℝ, x3 m c i = (r : EReal) :=
  Cert.PreFacts.wout_real _ _ _ _ _ _ _ _ _ (hpre c) i

/-! ## The endpoint embeddings are the reference's stage values -/

set_option maxHeartbeats 16000000 in
theorem aEB_eq (c : Dev nD) : aEB m c = Cert.ReferenceIdeal.ReadP.val_main_v13 (F := Ideal) (a0 m c) (a5 m c) (a6 m c) := by
  dsimp only [aEB, V, V0]
  simp only [hostOps0, hostOps0_1, hostOps0_2, List.flatten_cons, List.flatten_nil, List.append_nil, List.cons_append, List.nil_append]
  after_results
  rfl

set_option maxHeartbeats 16000000 in
theorem aEE_eq (c : Dev nD) : aEE m c = Cert.ReferenceIdeal.ReadP.val_main_v27 (F := Ideal) (a0 m c) (a5 m c) (a7 m c) := by
  dsimp only [aEE, V, V0]
  simp only [hostOps0, hostOps0_1, hostOps0_2, List.flatten_cons, List.flatten_nil, List.append_nil, List.cons_append, List.nil_append]
  after_results
  rfl

/-! ## The loss column and the weights -/

/-- An `[a, 1]` column cast to `[a]` reads, at `i`, the column's entry `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_one, Shape.rowMajor_val_two]
    show i.val * 1 + 0 = i.val
    omega)

/-- The reference's negated take is the kernel's column, laid flat. -/
theorem nl_eq (hpre : Cert.Pre_KernelIdeal m) (c : Dev nD) :
    Cert.ReferenceIdeal.ReadP.val_main_v41 (F := Ideal) (a0 m c) (a1 m c) (a2 m c) (a3 m c) (a5 m c) (a6 m c) (a7 m c) (a8 m c)
      = shapeCast S4096 (nllArr m c) shapeCasts_S4096x1_S4096 := by
  have ht := tags_in_range m hpre c
  funext i
  obtain ⟨r, rfl⟩ : ∃ r : Fin 4096, i = ix1 r := ⟨i 0, eq_ix1 i⟩
  rw [Cert.ReferenceIdeal.RefValue.nll_apply (a0 m c) (a1 m c) (a2 m c) (a3 m c) (a5 m c) (a6 m c) (a7 m c) (a8 m c) r (ht (ix1 r)).1 (ht (ix1 r)).2]
  refine Eq.trans ?_ (shapeCast_a1_a_apply (nllArr m c) shapeCasts_S4096x1_S4096 r).symm
  rw [nllArr_apply m c ht (wout_real m hpre c) r 0, aEB_eq m c, aEE_eq m c]
  rfl

/-- The reference's weights are the kernel's. -/
theorem sc_eq (hpre : Cert.Pre_KernelIdeal m) (c : Dev nD) :
    Cert.ReferenceIdeal.ReadP.val_main_v50 (F := Ideal) (a4 m c) (a8 m c) = keepW m c := by
  have ht := tags_in_range m hpre c
  rw [keepW_eq m c ht]
  unfold Cert.ReferenceIdeal.ReadP.val_main_v50 Cert.ReferenceIdeal.ReadP.val_main_v49 Cert.ReferenceIdeal.ReadP.val_main_cst
    Cert.ReferenceIdeal.ReadP.val_main_v48 Cert.ReferenceIdeal.ReadP.val_main_v47
  rw [Cert.ReferenceIdeal.RefValue.idx46_eq (F := Ideal) (a8 m c) ht]
  rfl

/-! ## The results -/

/-- The reference's last stage on the kernel's arguments is the kernel's weighted mean. -/
theorem stage_eq (hpre : Cert.Pre_KernelIdeal m) (c : Dev nD) :
    Cert.ReferenceIdeal.ReadP.val_main_v53 (F := Ideal) (a0 m c) (a1 m c) (a2 m c) (a3 m c) (a4 m c) (a5 m c) (a6 m c) (a7 m c) (a8 m c)
      = meanLoss (shapeCast S4096 (nllArr m c) shapeCasts_S4096x1_S4096) (keepW m c) := by
  unfold Cert.ReferenceIdeal.ReadP.val_main_v53 Cert.ReferenceIdeal.ReadP.val_main_v52 Cert.ReferenceIdeal.ReadP.val_main_v51
    Cert.ReferenceIdeal.ReadP.val_main_cst_9 Cert.ReferenceIdeal.ReadP.val_main_cst_10
  rw [nl_eq m hpre c, sc_eq m hpre c]
  rfl

/-- From memories that agree on the arguments, the reference's result buffer ends at what the kernel's program's does. -/
theorem result_agree (hpre : Cert.Pre_KernelIdeal m)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8)) :
    Cert.ReferenceIdeal.ValueP.res_main_v53 (F := Ideal) m' c
      = Pipeline.afterTail₀ cfgs (dats m) 0 (V0 m) [hostOps1] c main_v57 := by
  rw [Cert.ReferenceIdeal.Stages.res_eq (F := Ideal) m' c, h0, h1, h2, h3, h4, h5, h6, h7, h8, result_eq m c]
  exact stage_eq m hpre c

end Cert.Bridge

end
-- ==== Proof.lean ====
/-
  The certificate: the kernel's streaming label loss against the reference's log-softmax loss.

  Per span the reference takes the features tanh (concat (eb, ee) · W1ᵀ + b1), the logits feat · Woutᵀ over 32000
  vocabulary entries, and minus the log-softmax at the span's tag; the result is the mean over 4096 spans of that
  loss term weighted by one minus the discard probability at the tag.  The kernel computes the same features from
  the two halves of W1, reads the vocabulary in 50 tiles of 640 while carrying a running maximum and a running sum of
  exponentials, takes the logit at the tag from a pre-gathered row, and stores m + log l − (logit at the tag).
  Over the extended reals, with finite inputs and every tag a vocabulary index, the streaming pair after the last
  tile is the row's maximum and its sum of shifted exponentials, so the two loss terms are one real number, and the
  host code around them is the same three operations.  The frames are the generated ones; the reference's is its
  run with the result dropped.
-/
import proofs.«420658_j82386062672565_2_alg».proof.Defs
import proofs.«420658_j82386062672565_2_alg».proof.Proof.Gen.Kernel
import proofs.«420658_j82386062672565_2_alg».proof.Proof.Gen.Kernel.Skeleton
import proofs.«420658_j82386062672565_2_alg».proof.Proof.Gen.Kernel.Launch
import proofs.«420658_j82386062672565_2_alg».proof.Proof.Gen.Kernel.Points
import proofs.«420658_j82386062672565_2_alg».proof.Proof.Gen.Kernel.Frame
import proofs.«420658_j82386062672565_2_alg».proof.Proof.Gen.KernelIdeal
import proofs.«420658_j82386062672565_2_alg».proof.Proof.Gen.KernelIdeal.Skeleton
import proofs.«420658_j82386062672565_2_alg».proof.Proof.Gen.KernelIdeal.Launch
import proofs.«420658_j82386062672565_2_alg».proof.Proof.Gen.KernelIdeal.Points
import proofs.«420658_j82386062672565_2_alg».proof.Proof.Gen.KernelIdeal.Frame
import proofs.«420658_j82386062672565_2_alg».proof.Proof.Gen.ReferenceIdeal
import proofs.«420658_j82386062672565_2_alg».proof.Proof.Gen.Pre_finite_inputs
import proofs.«420658_j82386062672565_2_alg».proof.Proof.RefRun
import proofs.«420658_j82386062672565_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-! ## The kernel's run with its result named -/

section KernelRun

open Cert.KernelIdeal Cert.KernelIdeal.Gen

/-- Every weakly fair execution of the idealized kernel's program terminates with the result buffer at the host
    tail's value of the column the region leaves, and the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v57) = Pipeline.afterTail₀ cfgs (dats m) 0 (V0 m) [hostOps1] c main_v57
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).2 main_v57 (Pipeline.mem_restRefs_of main_v57 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩) (run_main m ρ)

end KernelRun

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealization is the program's own text read over the extended reals. -/
theorem preserves : Cert.preserves_Kernel_KernelIdeal := trivial

/-- From memories that agree on the arguments both programs run, and the reference's result is the kernel's. -/
theorem algebraic : Cert.algebraic_KernelIdeal_ReferenceIdeal := by
  intro m ρ m' ρ' hpre hagree
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v57, kernel_run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8⟩ := hagree c
  exact Cert.Bridge.result_agree m hpre m' c h0 h1 h2 h3 h4 h5 h6 h7 h8

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
